-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S512x512 : Shape := ⟨2, ![512, 512]⟩
abbrev S512 : Shape := ⟨1, ![512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S512x512 .f32) (main_arg15 : FVec F S512 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  main_v78

def fn_part3 {F : FTy → Type} [FloatOps F] (main_arg11 : FVec F S512 .f32) (main_arg12 : FVec F S512x512 .f32) (main_arg13 : FVec F S512 .f32) (main_arg14 : FVec F S512x512 .f32) (main_arg15 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_v63 main_v67

def fn_part2 {F : FTy → Type} [FloatOps F] (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S512x512 .f32) (main_arg15 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S512x512 .f32) (main_arg15 : FVec F S512 .f32) (main_v13 : IVec S_ 1) (main_v16 : IVec S16x4096x512 1) : IVec S_ 1 :=
  let main_c_5 : IVec S_ 1 := constantI S_ 1 1#1
  let main_v17 : IVec S_ 1 := (fun x v => Host.reduce IntOp.andi x v reducesTo_S16x4096x512_S_d0_1_2 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16x4096x512 .f32) (main_arg1 : FVec F S16x4096x512 .f32) (main_arg2 : FVec F S16x4096x512 .f32) (main_arg3 : FVec F S16x4096x512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S512x512 .f32) (main_arg15 : FVec F S512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S16x4096x512 .f32 := Host.absf main_arg1
  let main_cst_0 : FVec F S_ .f32 := constant S_ .f32 0x7F800000#32
  let main_v5 : FVec F S16x4096x512 .f32 := broadcastInDim S16x4096x512 ![] bcast_S_S16x4096x512 main_cst_0
  let main_v6 : IVec S16x4096x512 1 := cmpf .olt main_v4 main_v5
  let main_c_1 : IVec S_ 1 := constantI S_ 1 1#1
  let main_v7 : IVec S_ 1 := (fun x v => Host.reduce IntOp.andi x v reducesTo_S16x4096x512_S_d0_1_2 h_S_) main_v6 main_c_1
  let main_v8 : IVec S_ 1 := andi main_v3 main_v7
  let main_v9 : FVec F S16x4096x512 .f32 := Host.absf main_arg2
  let main_cst_2 : FVec F S_ .f32 := constant S_ .f32 0x7F800000#32
  let main_v10 : FVec F S16x4096x512 .f32 := broadcastInDim S16x4096x512 ![] bcast_S_S16x4096x512 main_cst_2
  let main_v11 : IVec S16x4096x512 1 := cmpf .olt main_v9 main_v10
  let main_c_3 : IVec S_ 1 := constantI S_ 1 1#1
  let main_v12 : IVec S_ 1 := (fun x v => Host.reduce IntOp.andi x v reducesTo_S16x4096x512_S_d0_1_2 h_S_) main_v11 main_c_3
  let main_v13 : IVec S_ 1 := andi main_v8 main_v12
  let main_v14 : FVec F S16x4096x512 .f32 := Host.absf main_arg3
  let main_cst_4 : FVec F S_ .f32 := constant S_ .f32 0x7F800000#32
  let main_v15 : FVec F S16x4096x512 .f32 := broadcastInDim S16x4096x512 ![] bcast_S_S16x4096x512 main_cst_4
  let main_v16 : IVec S16x4096x512 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16x4096x512 : Shape := ⟨3, ![16, 4096, 512]⟩
abbrev S512x512 : Shape := ⟨2, ![512, 512]⟩
abbrev S512 : Shape := ⟨1, ![512]⟩
abbrev S16x256x16x512 : Shape := ⟨4, ![16, 256, 16, 512]⟩
abbrev S_ : Shape := ⟨0, ![]⟩
abbrev S16x256x512 : Shape := ⟨3, ![16, 256, 512]⟩
abbrev S1x512 : Shape := ⟨2, ![1, 512]⟩
abbrev S16x1x256 : Shape := ⟨3, ![16, 1, 256]⟩
abbrev S1x256x512 : Shape := ⟨3, ![1, 256, 512]⟩
abbrev S1x1x256 : Shape := ⟨3, ![1, 1, 256]⟩
abbrev S256x512 : Shape := ⟨2, ![256, 512]⟩
abbrev S512x256 : Shape := ⟨2, ![512, 256]⟩
abbrev S256x256 : Shape := ⟨2, ![256, 256]⟩
abbrev S256 : Shape := ⟨1, ![256]⟩
abbrev S256x1 : Shape := ⟨2, ![256, 1]⟩
abbrev S16x256 : Shape := ⟨2, ![16, 256]⟩
abbrev S1x2048x512 : Shape := ⟨3, ![1, 2048, 512]⟩
abbrev S1x128x512 : Shape := ⟨3, ![1, 128, 512]⟩
abbrev S2048x512 : Shape := ⟨2, ![2048, 512]⟩
abbrev S128x512 : Shape := ⟨2, ![128, 512]⟩
abbrev S256x16 : Shape := ⟨2, ![256, 16]⟩
abbrev S16x512 : Shape := ⟨2, ![16, 512]⟩

abbrev nBuf : Space → Nat
  | .hbm => 56
  | .vmem => 32
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x512, .f32⟩
  | .hbm, ⟨3, _⟩ => ⟨S16x4096x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S512, .f32⟩
  | .hbm, ⟨16, _⟩ => ⟨S16x256x16x512, .f32⟩
  | .hbm, ⟨17, _⟩ => ⟨S_, .f32⟩
  | .hbm, ⟨18, _⟩ => ⟨S16x256x512, .f32⟩
  | .hbm, ⟨19, _⟩ => ⟨S_, .f32⟩
  | .hbm, ⟨20, _⟩ => ⟨S16x256x512, .f32⟩
  | .hbm, ⟨21, _⟩ => ⟨S16x256x512, .f32⟩
  | .hbm, ⟨22, _⟩ => ⟨S16x256x16x512, .f32⟩
  | .hbm, ⟨23, _⟩ => ⟨S_, .f32⟩
  | .hbm, ⟨24, _⟩ => ⟨S16x256x512, .f32⟩
  | .hbm, ⟨25, _⟩ => ⟨S_, .f32⟩
  | .hbm, ⟨26, _⟩ => ⟨S16x256x512, .f32⟩
  | .hbm, ⟨27, _⟩ => ⟨S16x256x512, .f32⟩
  | .hbm, ⟨28, _⟩ => ⟨S16x256x16x512, .f32⟩
  | .hbm, ⟨29, _⟩ => ⟨S_, .f32⟩
  | .hbm, ⟨30, _⟩ => ⟨S16x256x512, .f32⟩
  | .hbm, ⟨31, _⟩ => ⟨S_, .f32⟩
  | .hbm, ⟨32, _⟩ => ⟨S16x256x512, .f32⟩
  | .hbm, ⟨33, _⟩ => ⟨S16x256x512, .f32⟩
  | .hbm, ⟨34, _⟩ => ⟨S512x512, .f32⟩
  | .hbm, ⟨35, _⟩ => ⟨S512x512, .bf16⟩
  | .hbm, ⟨36, _⟩ => ⟨S512x512, .f32⟩
  | .hbm, ⟨37, _⟩ => ⟨S512x512, .bf16⟩
  | .hbm, ⟨38, _⟩ => ⟨S512x512, .f32⟩
  | .hbm, ⟨39, _⟩ => ⟨S512x512, .bf16⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S16x256x512, .f32⟩
  | .hbm, ⟨44, _⟩ => ⟨S16x1x256, .f32⟩
  | .hbm, ⟨45, _⟩ => ⟨S16x256, .f32⟩
  | .hbm, ⟨46, _⟩ => ⟨S512x512, .f32⟩
  | .hbm, ⟨47, _⟩ => ⟨S512x512, .bf16⟩
  | .hbm, ⟨48, _⟩ => ⟨S512x512, .f32⟩
  | .hbm, ⟨49, _⟩ => ⟨S512x512, .bf16⟩
  | .hbm, ⟨50, _⟩ => ⟨S512x512, .f32⟩
  | .hbm, ⟨51, _⟩ => ⟨S512x512, .bf16⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S16x4096x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S1x256x512, .f32⟩
  | .local _ .vmem, ⟨13, _⟩ => ⟨S1x256x512, .f32⟩
  | .local _ .vmem, ⟨14, _⟩ => ⟨S1x1x256, .f32⟩
  | .local _ .vmem, ⟨15, _⟩ => ⟨S1x1x256, .f32⟩
  | .local _ .vmem, ⟨16, _⟩ => ⟨S1x2048x512, .f32⟩
  | .local _ .vmem, ⟨17, _⟩ => ⟨S1x2048x512, .f32⟩
  | .local _ .vmem, ⟨18, _⟩ => ⟨S1x2048x512, .f32⟩
  | .local _ .vmem, ⟨19, _⟩ => ⟨S1x2048x512, .f32⟩
  | .local _ .vmem, ⟨20, _⟩ => ⟨S1x2048x512, .f32⟩
  | .local _ .vmem, ⟨21, _⟩ => ⟨S1x2048x512, .f32⟩
  | .local _ .vmem, ⟨22, _⟩ => ⟨S1x128x512, .f32⟩
  | .local _ .vmem, ⟨23, _⟩ => ⟨S1x128x512, .f32⟩
  | .local _ .vmem, ⟨24, _⟩ => ⟨S512x512, .bf16⟩
  | .local _ .vmem, ⟨25, _⟩ => ⟨S1x512, .f32⟩
  | .local _ .vmem, ⟨26, _⟩ => ⟨S512x512, .bf16⟩
  | .local _ .vmem, ⟨27, _⟩ => ⟨S1x512, .f32⟩
  | .local _ .vmem, ⟨28, _⟩ => ⟨S512x512, .bf16⟩
  | .local _ .vmem, ⟨29, _⟩ => ⟨S1x512, .f32⟩
  | .local _ .vmem, ⟨30, _⟩ => ⟨S1x2048x512, .f32⟩
  | .local _ .vmem, ⟨31, _⟩ => ⟨S1x2048x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_cst_4 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21_0 : Ref sig .tc := ⟨.hbm, 43, rfl⟩
abbrev main_v21_1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg10_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem10_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S512x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S512x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x2048x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

class Facts₀ : Prop where
  shapeCasts_S16x4096x512_S16x256x16x512 : S16x4096x512.ShapeCasts S16x256x16x512
  reducesTo_S16x256x16x512_S16x256x512_d2 : S16x256x16x512.ReducesTo [2] S16x256x512
  h_S_ : 0 < S_.numel
  bcast_S_S16x256x512 : S_.BroadcastsInDim S16x256x512 (![] : Fin 0 → Fin S16x256x512.rank)
  transposes_S512x512_S512x512_1_0 : S512x512.Transposes [1, 0] S512x512
  bitsLt_bf16_f32 : FTy.bits .bf16 < FTy.bits .f32
  shapeCasts_S512_S1x512 : S512.ShapeCasts S1x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  transposes_S256x512_p1_0_S512x256 : S256x512.Transposes [1, 0] S512x256
  reduces_S256x256_S256 : S256x256.Reduces [1] S256
  shapeCasts_S256_S256x1 : S256.ShapeCasts S256x1
  broadcasts_S256x1_S256x256 : S256x1.Broadcasts S256x256
  shapeCasts_S256x512_S1x256x512 : S256x512.ShapeCasts S1x256x512
  reduces_S256x256_S256_2 : S256x256.Reduces [0] S256
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S1x1x256 : S256.ShapeCasts S1x1x256
  shapeCasts_S16x1x256_S16x256 : S16x1x256.ShapeCasts S16x256
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  broadcasts_S1x512_S2048x512 : S1x512.Broadcasts S2048x512
  iota_S256x256_d0_w32 : S256x256.Iotas .tc 32 [0]
  natLt_1_32 : 1 < 32
  iota_S256x256_d1_w32 : S256x256.Iotas .tc 32 [1]
  iota_S256x16_d0_w32 : S256x16.Iotas .tc 32 [0]
  iota_S256x16_d1_w32 : S256x16.Iotas .tc 32 [1]
  slices_S2048x512_o0_0_S256x512 : S2048x512.Slices ![0, 0] S256x512
  slices_S128x512_o0_0_S16x512 : S128x512.Slices ![0, 0] S16x512
  inb_S1x2048x512_S1x256x512_0_0_0 : ∀ a, (![0, 0, 0] : Fin 3 → Nat) a + S1x256x512.size a ≤ S1x2048x512.size a
  slices_S2048x512_o256_0_S256x512 : S2048x512.Slices ![256, 0] S256x512
  slices_S128x512_o16_0_S16x512 : S128x512.Slices ![16, 0] S16x512
  inb_S1x2048x512_S1x256x512_0_256_0 : ∀ a, (![0, 256, 0] : Fin 3 → Nat) a + S1x256x512.size a ≤ S1x2048x512.size a
  slices_S2048x512_o512_0_S256x512 : S2048x512.Slices ![512, 0] S256x512
  slices_S128x512_o32_0_S16x512 : S128x512.Slices ![32, 0] S16x512
  inb_S1x2048x512_S1x256x512_0_512_0 : ∀ a, (![0, 512, 0] : Fin 3 → Nat) a + S1x256x512.size a ≤ S1x2048x512.size a
  slices_S2048x512_o768_0_S256x512 : S2048x512.Slices ![768, 0] S256x512
  slices_S128x512_o48_0_S16x512 : S128x512.Slices ![48, 0] S16x512
  inb_S1x2048x512_S1x256x512_0_768_0 : ∀ a, (![0, 768, 0] : Fin 3 → Nat) a + S1x256x512.size a ≤ S1x2048x512.size a
  slices_S2048x512_o1024_0_S256x512 : S2048x512.Slices ![1024, 0] S256x512
  slices_S128x512_o64_0_S16x512 : S128x512.Slices ![64, 0] S16x512
  inb_S1x2048x512_S1x256x512_0_1024_0 : ∀ a, (![0, 1024, 0] : Fin 3 → Nat) a + S1x256x512.size a ≤ S1x2048x512.size a
  slices_S2048x512_o1280_0_S256x512 : S2048x512.Slices ![1280, 0] S256x512
  slices_S128x512_o80_0_S16x512 : S128x512.Slices ![80, 0] S16x512
  inb_S1x2048x512_S1x256x512_0_1280_0 : ∀ a, (![0, 1280, 0] : Fin 3 → Nat) a + S1x256x512.size a ≤ S1x2048x512.size a
  slices_S2048x512_o1536_0_S256x512 : S2048x512.Slices ![1536, 0] S256x512
  slices_S128x512_o96_0_S16x512 : S128x512.Slices ![96, 0] S16x512
  inb_S1x2048x512_S1x256x512_0_1536_0 : ∀ a, (![0, 1536, 0] : Fin 3 → Nat) a + S1x256x512.size a ≤ S1x2048x512.size a
  slices_S2048x512_o1792_0_S256x512 : S2048x512.Slices ![1792, 0] S256x512
  slices_S128x512_o112_0_S16x512 : S128x512.Slices ![112, 0] S16x512
  inb_S1x2048x512_S1x256x512_0_1792_0 : ∀ a, (![0, 1792, 0] : Fin 3 → Nat) a + S1x256x512.size a ≤ S1x2048x512.size a
  dot_S256x512_S512x512_S256x512_1_0_0_1_n_n_wf : DotDims.WF S256x512 S512x512 S256x512 [1] [0] [0] [1] [] []
  dot_S256x512_S512x256_S256x256_1_0_0_1_n_n_wf : DotDims.WF S256x512 S512x256 S256x256 [1] [0] [0] [1] [] []
  dot_S256x256_S256x512_S256x512_1_0_0_1_n_n_wf : DotDims.WF S256x256 S256x512 S256x512 [1] [0] [0] [1] [] []
  dot_S2048x512_S512x512_S2048x512_1_0_0_1_n_n_wf : DotDims.WF S2048x512 S512x512 S2048x512 [1] [0] [0] [1] [] []
  dot_S256x16_S16x512_S256x512_1_0_0_1_n_n_wf : DotDims.WF S256x16 S16x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S16x256x512.size a
  hwx0_0 : ∀ i : grid0.Coords, EltTy.bits .f32 = 32 ∨ (Rect.block (s := S16x256x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S16x256x512.size a
  hwx0_1 : ∀ i : grid0.Coords, EltTy.bits .f32 = 32 ∨ (Rect.block (s := S16x256x512) S1x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S16x256x512.size a
  hwx0_2 : ∀ i : grid0.Coords, EltTy.bits .f32 = 32 ∨ (Rect.block (s := S16x256x512) S1x256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x512.size a ≤ S16x256x512.size a
  hwx0_9 : ∀ i : grid0.Coords, EltTy.bits .f32 = 32 ∨ (Rect.block (s := S16x256x512) S1x256x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x256.size a ≤ S16x1x256.size a
  hwx0_10 : ∀ i : grid0.Coords, EltTy.bits .f32 = 32 ∨ (Rect.block (s := S16x1x256) S1x1x256.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S16x4096x512.size a
  hwx1_0 : ∀ i : grid1.Coords, EltTy.bits .f32 = 32 ∨ (Rect.block (s := S16x4096x512) S1x2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x512.size a ≤ S16x4096x512.size a
  hwx1_1 : ∀ i : grid1.Coords, EltTy.bits .f32 = 32 ∨ (Rect.block (s := S16x4096x512) S1x2048x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x512.size a ≤ S16x4096x512.size a
  hwx1_2 : ∀ i : grid1.Coords, EltTy.bits .f32 = 32 ∨ (Rect.block (s := S16x4096x512) S1x2048x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x512.size a ≤ S16x256x512.size a
  hwx1_3 : ∀ i : grid1.Coords, EltTy.bits .f32 = 32 ∨ (Rect.block (s := S16x256x512) S1x128x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S512x512.size a
  hwx1_6 : ∀ i : grid1.Coords, EltTy.bits .bf16 = 32 ∨ (Rect.block (s := S512x512) S512x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x512.size a ≤ S512x512.size a
  hwx1_8 : ∀ i : grid1.Coords, EltTy.bits .bf16 = 32 ∨ (Rect.block (s := S512x512) S512x512.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x512.size a ≤ S1x512.size a
  hwx1_9 : ∀ i : grid1.Coords, EltTy.bits .f32 = 32 ∨ (Rect.block (s := S1x512) S1x512.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x2048x512.size a ≤ S16x4096x512.size a
  hwx1_10 : ∀ i : grid1.Coords, EltTy.bits .f32 = 32 ∨ (Rect.block (s := S16x4096x512) S1x2048x512.size (cc1_transform_10 i) (hinb1_10 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S256x16_S16x512_S256x512_1_0_0_1_n_n : DotDims S256x16 S16x512 S256x512 where
  lhsContracting := [1]
  rhsContracting := [0]
  lhsNonContracting := [0]
  rhsNonContracting := [1]
  lhsBatch := []
  rhsBatch := []
  wf := dot_S256x16_S16x512_S256x512_1_0_0_1_n_n_wf

abbrev win0_0 : Pipeline.Window sig grid0 :=
  Pipeline.Window.ofSpec (Memref.whole main_v3) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21_0) S1x256x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v21_1) S1x1x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x2048x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21_0) S1x128x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S512x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28) S512x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31) S1x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v32) S1x2048x512.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S16x4096x512 : Shape := ⟨3, ![16, 4096, 512]⟩
abbrev S512x512 : Shape := ⟨2, ![512, 512]⟩
abbrev S512 : Shape := ⟨1, ![512]⟩
abbrev S16x256x16x512 : Shape := ⟨4, ![16, 256, 16, 512]⟩
abbrev S_ : Shape := ⟨0, ![]⟩
abbrev S16x256x512 : Shape := ⟨3, ![16, 256, 512]⟩
abbrev S1x1x512 : Shape := ⟨3, ![1, 1, 512]⟩
abbrev S16x256x256 : Shape := ⟨3, ![16, 256, 256]⟩
abbrev S16x256 : Shape := ⟨2, ![16, 256]⟩
abbrev S16x256x1 : Shape := ⟨3, ![16, 256, 1]⟩
abbrev S1x1x1x512 : Shape := ⟨4, ![1, 1, 1, 512]⟩
abbrev S16x256x16x16 : Shape := ⟨4, ![16, 256, 16, 16]⟩
abbrev S16x256x16 : Shape := ⟨3, ![16, 256, 16]⟩
abbrev S16x256x16x1 : Shape := ⟨4, ![16, 256, 16, 1]⟩
abbrev S16x256x1x512 : Shape := ⟨4, ![16, 256, 1, 512]⟩

abbrev nBuf : Space → Nat
  | .hbm => 106
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x512, .f32⟩
  | .hbm, ⟨3, _⟩ => ⟨S16x4096x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S512, .f32⟩
  | .hbm, ⟨16, _⟩ => ⟨S16x256x16x512, .f32⟩
  | .hbm, ⟨17, _⟩ => ⟨S16x256x16x512, .f32⟩
  | .hbm, ⟨18, _⟩ => ⟨S16x256x16x512, .f32⟩
  | .hbm, ⟨19, _⟩ => ⟨S16x256x16x512, .f32⟩
  | .hbm, ⟨20, _⟩ => ⟨S_, .f32⟩
  | .hbm, ⟨21, _⟩ => ⟨S16x256x512, .f32⟩
  | .hbm, ⟨22, _⟩ => ⟨S_, .f32⟩
  | .hbm, ⟨23, _⟩ => ⟨S16x256x512, .f32⟩
  | .hbm, ⟨24, _⟩ => ⟨S16x256x512, .f32⟩
  | .hbm, ⟨25, _⟩ => ⟨S16x256x512, .f32⟩
  | .hbm, ⟨26, _⟩ => ⟨S1x1x512, .f32⟩
  | .hbm, ⟨27, _⟩ => ⟨S16x256x512, .f32⟩
  | .hbm, ⟨28, _⟩ => ⟨S16x256x512, .f32⟩
  | .hbm, ⟨29, _⟩ => ⟨S_, .f32⟩
  | .hbm, ⟨30, _⟩ => ⟨S16x256x512, .f32⟩
  | .hbm, ⟨31, _⟩ => ⟨S_, .f32⟩
  | .hbm, ⟨32, _⟩ => ⟨S16x256x512, .f32⟩
  | .hbm, ⟨33, _⟩ => ⟨S16x256x512, .f32⟩
  | .hbm, ⟨34, _⟩ => ⟨S16x256x512, .f32⟩
  | .hbm, ⟨35, _⟩ => ⟨S1x1x512, .f32⟩
  | .hbm, ⟨36, _⟩ => ⟨S16x256x512, .f32⟩
  | .hbm, ⟨37, _⟩ => ⟨S16x256x512, .f32⟩
  | .hbm, ⟨38, _⟩ => ⟨S_, .f32⟩
  | .hbm, ⟨39, _⟩ => ⟨S16x256x512, .f32⟩
  | .hbm, ⟨40, _⟩ => ⟨S_, .f32⟩
  | .hbm, ⟨41, _⟩ => ⟨S16x256x512, .f32⟩
  | .hbm, ⟨42, _⟩ => ⟨S16x256x512, .f32⟩
  | .hbm, ⟨43, _⟩ => ⟨S16x256x512, .f32⟩
  | .hbm, ⟨44, _⟩ => ⟨S1x1x512, .f32⟩
  | .hbm, ⟨45, _⟩ => ⟨S16x256x512, .f32⟩
  | .hbm, ⟨46, _⟩ => ⟨S16x256x512, .f32⟩
  | .hbm, ⟨47, _⟩ => ⟨S16x256x256, .f32⟩
  | .hbm, ⟨48, _⟩ => ⟨S_, .f32⟩
  | .hbm, ⟨49, _⟩ => ⟨S16x256x256, .f32⟩
  | .hbm, ⟨50, _⟩ => ⟨S16x256x256, .f32⟩
  | .hbm, ⟨51, _⟩ => ⟨S_, .f32⟩
  | .hbm, ⟨52, _⟩ => ⟨S16x256, .f32⟩
  | .hbm, ⟨53, _⟩ => ⟨S_, .f32⟩
  | .hbm, ⟨54, _⟩ => ⟨S16x256, .f32⟩
  | .hbm, ⟨55, _⟩ => ⟨S16x256, .f32⟩
  | .hbm, ⟨56, _⟩ => ⟨S16x256x1, .f32⟩
  | .hbm, ⟨57, _⟩ => ⟨S16x256x256, .f32⟩
  | .hbm, ⟨58, _⟩ => ⟨S16x256x256, .f32⟩
  | .hbm, ⟨59, _⟩ => ⟨S16x256x256, .f32⟩
  | .hbm, ⟨60, _⟩ => ⟨S_, .f32⟩
  | .hbm, ⟨61, _⟩ => ⟨S16x256, .f32⟩
  | .hbm, ⟨62, _⟩ => ⟨S16x256x1, .f32⟩
  | .hbm, ⟨63, _⟩ => ⟨S16x256x256, .f32⟩
  | .hbm, ⟨64, _⟩ => ⟨S16x256x256, .f32⟩
  | .hbm, ⟨65, _⟩ => ⟨S16x256x512, .f32⟩
  | .hbm, ⟨66, _⟩ => ⟨S16x256x16x512, .f32⟩
  | .hbm, ⟨67, _⟩ => ⟨S1x1x1x512, .f32⟩
  | .hbm, ⟨68, _⟩ => ⟨S16x256x16x512, .f32⟩
  | .hbm, ⟨69, _⟩ => ⟨S16x256x16x512, .f32⟩
  | .hbm, ⟨70, _⟩ => ⟨S16x256x16x512, .f32⟩
  | .hbm, ⟨71, _⟩ => ⟨S1x1x1x512, .f32⟩
  | .hbm, ⟨72, _⟩ => ⟨S16x256x16x512, .f32⟩
  | .hbm, ⟨73, _⟩ => ⟨S16x256x16x512, .f32⟩
  | .hbm, ⟨74, _⟩ => ⟨S16x256x16x512, .f32⟩
  | .hbm, ⟨75, _⟩ => ⟨S1x1x1x512, .f32⟩
  | .hbm, ⟨76, _⟩ => ⟨S16x256x16x512, .f32⟩
  | .hbm, ⟨77, _⟩ => ⟨S16x256x16x512, .f32⟩
  | .hbm, ⟨78, _⟩ => ⟨S16x256x16x16, .f32⟩
  | .hbm, ⟨79, _⟩ => ⟨S_, .f32⟩
  | .hbm, ⟨80, _⟩ => ⟨S16x256x16x16, .f32⟩
  | .hbm, ⟨81, _⟩ => ⟨S16x256x16x16, .f32⟩
  | .hbm, ⟨82, _⟩ => ⟨S_, .f32⟩
  | .hbm, ⟨83, _⟩ => ⟨S16x256x16, .f32⟩
  | .hbm, ⟨84, _⟩ => ⟨S_, .f32⟩
  | .hbm, ⟨85, _⟩ => ⟨S16x256x16, .f32⟩
  | .hbm, ⟨86, _⟩ => ⟨S16x256x16, .f32⟩
  | .hbm, ⟨87, _⟩ => ⟨S16x256x16x1, .f32⟩
  | .hbm, ⟨88, _⟩ => ⟨S16x256x16x16, .f32⟩
  | .hbm, ⟨89, _⟩ => ⟨S16x256x16x16, .f32⟩
  | .hbm, ⟨90, _⟩ => ⟨S16x256x16x16, .f32⟩
  | .hbm, ⟨91, _⟩ => ⟨S_, .f32⟩
  | .hbm, ⟨92, _⟩ => ⟨S16x256x16, .f32⟩
  | .hbm, ⟨93, _⟩ => ⟨S16x256x16x1, .f32⟩
  | .hbm, ⟨94, _⟩ => ⟨S16x256x16x16, .f32⟩
  | .hbm, ⟨95, _⟩ => ⟨S16x256x16x16, .f32⟩
  | .hbm, ⟨96, _⟩ => ⟨S16x256x16x512, .f32⟩
  | .hbm, ⟨97, _⟩ => ⟨S16x256x1x512, .f32⟩
  | .hbm, ⟨98, _⟩ => ⟨S16x256x16x512, .f32⟩
  | .hbm, ⟨99, _⟩ => ⟨S16x256x16x512, .f32⟩
  | .hbm, ⟨100, _⟩ => ⟨S16x4096x512, .f32⟩
  | .hbm, ⟨101, _⟩ => ⟨S_, .f32⟩
  | .hbm, ⟨102, _⟩ => ⟨S16x256, .f32⟩
  | .hbm, ⟨103, _⟩ => ⟨S_, .f32⟩
  | .hbm, ⟨104, _⟩ => ⟨S16x256, .f32⟩
  | .hbm, ⟨105, _⟩ => ⟨S16x256, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_12 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_13 : Ref sig .tc := ⟨.hbm, 101, rfl⟩
abbrev main_v71 : Ref sig .tc := ⟨.hbm, 102, rfl⟩
abbrev main_cst_14 : Ref sig .tc := ⟨.hbm, 103, rfl⟩
abbrev main_v72 : Ref sig .tc := ⟨.hbm, 104, rfl⟩
abbrev main_v73 : Ref sig .tc := ⟨.hbm, 105, rfl⟩

abbrev nD : Nat := 1
abbrev τ : Topo := Topo.v7x

variable {F : FTy → Type} [FloatOps F]

class Facts₀ : Prop where
  shapeCasts_S16x4096x512_S16x256x16x512 : S16x4096x512.ShapeCasts S16x256x16x512
  reducesTo_S16x256x16x512_S16x256x512_d2 : S16x256x16x512.ReducesTo [2] S16x256x512
  h_S_ : 0 < S_.numel
  bcast_S_S16x256x512 : S_.BroadcastsInDim S16x256x512 (![] : Fin 0 → Fin S16x256x512.rank)
  bcast_S512_S1x1x512_2 : S512.BroadcastsInDim S1x1x512 (![2] : Fin 1 → Fin S1x1x512.rank)
  bcast_S1x1x512_S16x256x512_0_1_2 : S1x1x512.BroadcastsInDim S16x256x512 (![0, 1, 2] : Fin 3 → Fin S16x256x512.rank)
  bcast_S_S16x256x256 : S_.BroadcastsInDim S16x256x256 (![] : Fin 0 → Fin S16x256x256.rank)
  reducesTo_S16x256x256_S16x256_d2 : S16x256x256.ReducesTo [2] S16x256
  bcast_S_S16x256 : S_.BroadcastsInDim S16x256 (![] : Fin 0 → Fin S16x256.rank)
  bcast_S16x256_S16x256x1_0_1 : S16x256.BroadcastsInDim S16x256x1 (![0, 1] : Fin 2 → Fin S16x256x1.rank)
  bcast_S16x256x1_S16x256x256_0_1_2 : S16x256x1.BroadcastsInDim S16x256x256 (![0, 1, 2] : Fin 3 → Fin S16x256x256.rank)
  bcast_S512_S1x1x1x512_3 : S512.BroadcastsInDim S1x1x1x512 (![3] : Fin 1 → Fin S1x1x1x512.rank)
  bcast_S1x1x1x512_S16x256x16x512_0_1_2_3 : S1x1x1x512.BroadcastsInDim S16x256x16x512 (![0, 1, 2, 3] : Fin 4 → Fin S16x256x16x512.rank)
  bcast_S_S16x256x16x16 : S_.BroadcastsInDim S16x256x16x16 (![] : Fin 0 → Fin S16x256x16x16.rank)
  reducesTo_S16x256x16x16_S16x256x16_d3 : S16x256x16x16.ReducesTo [3] S16x256x16
  bcast_S_S16x256x16 : S_.BroadcastsInDim S16x256x16 (![] : Fin 0 → Fin S16x256x16.rank)
  bcast_S16x256x16_S16x256x16x1_0_1_2 : S16x256x16.BroadcastsInDim S16x256x16x1 (![0, 1, 2] : Fin 3 → Fin S16x256x16x1.rank)
  bcast_S16x256x16x1_S16x256x16x16_0_1_2_3 : S16x256x16x1.BroadcastsInDim S16x256x16x16 (![0, 1, 2, 3] : Fin 4 → Fin S16x256x16x16.rank)
  bcast_S16x256x512_S16x256x1x512_0_1_3 : S16x256x512.BroadcastsInDim S16x256x1x512 (![0, 1, 3] : Fin 3 → Fin S16x256x1x512.rank)
  bcast_S16x256x1x512_S16x256x16x512_0_1_2_3 : S16x256x1x512.BroadcastsInDim S16x256x16x512 (![0, 1, 2, 3] : Fin 4 → Fin S16x256x16x512.rank)
  shapeCasts_S16x256x16x512_S16x4096x512 : S16x256x16x512.ShapeCasts S16x4096x512
  reducesTo_S16x256x256_S16x256_d1 : S16x256x256.ReducesTo [1] S16x256
  dot_S16x256x512_S512x512_S16x256x512_2_1_01_0_n_n_wf : DotDims.WF S16x256x512 S512x512 S16x256x512 [2] [1] [0, 1] [0] [] []
  dot_S16x256x512_S16x256x512_S16x256x256_2_2_1_1_0_0_wf : DotDims.WF S16x256x512 S16x256x512 S16x256x256 [2] [2] [1] [1] [0] [0]
  dot_S16x256x256_S16x256x512_S16x256x512_2_1_1_2_0_0_wf : DotDims.WF S16x256x256 S16x256x512 S16x256x512 [2] [1] [1] [2] [0] [0]
  dot_S16x256x16x512_S512x512_S16x256x16x512_3_1_012_0_n_n_wf : DotDims.WF S16x256x16x512 S512x512 S16x256x16x512 [3] [1] [0, 1, 2] [0] [] []
  dot_S16x256x16x512_S16x256x16x512_S16x256x16x16_3_3_2_2_01_01_wf : DotDims.WF S16x256x16x512 S16x256x16x512 S16x256x16x16 [3] [3] [2] [2] [0, 1] [0, 1]
  dot_S16x256x16x16_S16x256x16x512_S16x256x16x512_3_2_2_3_01_01_wf : DotDims.WF S16x256x16x16 S16x256x16x512 S16x256x16x512 [3] [2] [2] [3] [0, 1] [0, 1]

variable [Facts₀]

def dot_S16x256x512_S512x512_S16x256x512_2_1_01_0_n_n : DotDims S16x256x512 S512x512 S16x256x512 where
  lhsContracting := [2]
  rhsContracting := [1]
  lhsNonContracting := [0, 1]
  rhsNonContracting := [0]
  lhsBatch := []
  rhsBatch := []
  wf := dot_S16x256x512_S512x512_S16x256x512_2_1_01_0_n_n_wf
def dot_S16x256x512_S16x256x512_S16x256x256_2_2_1_1_0_0 : DotDims S16x256x512 S16x256x512 S16x256x256 where
  lhsContracting := [2]
  rhsContracting := [2]
  lhsNonContracting := [1]
  rhsNonContracting := [1]
  lhsBatch := [0]
  rhsBatch := [0]
  wf := dot_S16x256x512_S16x256x512_S16x256x256_2_2_1_1_0_0_wf
def dot_S16x256x256_S16x256x512_S16x256x512_2_1_1_2_0_0 : DotDims S16x256x256 S16x256x512 S16x256x512 where
  lhsContracting := [2]
  rhsContracting := [1]
  lhsNonContracting := [1]
  rhsNonContracting := [2]
  lhsBatch := [0]
  rhsBatch := [0]
  wf := dot_S16x256x256_S16x256x512_S16x256x512_2_1_1_2_0_0_wf
def dot_S16x256x16x512_S512x512_S16x256x16x512_3_1_012_0_n_n : DotDims S16x256x16x512 S512x512 S16x256x16x512 where
  lhsContracting := [3]
  rhsContracting := [1]
  lhsNonContracting := [0, 1, 2]
  rhsNonContracting := [0]
  lhsBatch := []
  rhsBatch := []
  wf := dot_S16x256x16x512_S512x512_S16x256x16x512_3_1_012_0_n_n_wf
def dot_S16x256x16x512_S16x256x16x512_S16x256x16x16_3_3_2_2_01_01 : DotDims S16x256x16x512 S16x256x16x512 S16x256x16x16 where
  lhsContracting := [3]
  rhsContracting := [3]
  lhsNonContracting := [2]
  rhsNonContracting := [2]
  lhsBatch := [0, 1]
  rhsBatch := [0, 1]
  wf := dot_S16x256x16x512_S16x256x16x512_S16x256x16x16_3_3_2_2_01_01_wf
def dot_S16x256x16x16_S16x256x16x512_S16x256x16x512_3_2_2_3_01_01 : DotDims S16x256x16x16 S16x256x16x512 S16x256x16x512 where
  lhsContracting := [3]
  rhsContracting := [2]
  lhsNonContracting := [2]
  rhsNonContracting := [3]
  lhsBatch := [0, 1]
  rhsBatch := [0, 1]
  wf := dot_S16x256x16x16_S16x256x16x512_S16x256x16x512_3_2_2_3_01_01_wf

class Facts : Prop extends Facts₀ where

variable [Facts]
-- ==== Proof.Spec.lean ====
/-
  The mathematics of the two programs, over the extended reals, index by index.

  Sixteen arguments: four activations x[b, n, i] (16 batch members, 4096 tokens, 512 features), six weight
  matrices W[o, i] and six bias rows. A token n lies in patch n / 16 (256 patches of 16 tokens).

  Patch stage, per batch member: the mean of each patch's 16 tokens, three dense layers on the means
  (q, k, v), scores q·k / √512, a softmax over the 256 key patches, the weighted sum of the values
  (the patch context) and, as second result, the mean over the query patches of the softmax weights.

  Local stage: three dense layers on every token, and within each patch of 16 tokens an attention of the
  16 queries over the 16 keys; the first result adds the token's patch context to it.

  The reference computes the local attention patch by patch (rows of 16 scores). The kernel computes it
  for 16 patches at a time: a row of 256 scores whose entries outside the query's own patch are −∞, so
  that they weigh 0 in the softmax; and it adds the patch context through a 0/1 membership matrix.
  `out1K` is the kernel's form, `out1R` the reference's; `out2` is common to both.
-/
import Idealize.ShloMosaic.PureOps.Ideal
import Idealize.ShloMosaic.Lib.ValueIdx

noncomputable section

namespace Cert.Spec

open Idealize.ShloMosaic

/-- √512 as the f32 word both programs divide the scores by. -/
abbrev cScale : EReal := Ideal.ofBits .f32 0x41B504F3#32
/-- 16.0, the patch length the means divide by. -/
abbrev c16 : EReal := Ideal.ofBits .f32 0x41800000#32
/-- 256.0, the number of query patches the second result's mean divides by. -/
abbrev c256 : EReal := Ideal.ofBits .f32 0x43800000#32

abbrev Row := Fin 512 → EReal
abbrev Mat := Fin 512 → Fin 512 → EReal
abbrev Act := Fin 16 → Fin 4096 → Fin 512 → EReal

/-- Token `s` of patch `p`. -/
def tok (p : Fin 256) (s : Fin 16) : Fin 4096 := ⟨16 * p.val + s.val, by have := p.isLt; have := s.isLt; omega⟩

/-- Row `r` of the group `G` of 16 consecutive patches (256 tokens). -/
def gtok (G : Fin 16) (r : Fin 256) : Fin 4096 := ⟨256 * G.val + r.val, by have := G.isLt; have := r.isLt; omega⟩

/-- Patch `i` of the group `G`. -/
def gpatch (G : Fin 16) (i : Fin 16) : Fin 256 := ⟨16 * G.val + i.val, by have := G.isLt; have := i.isLt; omega⟩

/-- A dense layer on one row: `x · Wᵀ + b` at output feature `o` (`W` is [out, in]). -/
def lin (x : Row) (W : Mat) (bv : Row) : Row := fun o => (∑ i, x i * W o i) + bv o

/-- The scaled inner product of two rows. -/
def score (x y : Row) : EReal := Ideal.div (∑ e, x e * y e) cScale

/-- A row's maximum, from −∞. -/
def rowMax {n : ℕ} (s : Fin n → EReal) : EReal := (Finset.univ : Finset (Fin n)).fold max ⊥ s

/-- Softmax weight `j` of a row of scores: `exp (s j − M) / Σₖ exp (s k − M)`, `M` the row's maximum. -/
def smax {n : ℕ} (s : Fin n → EReal) (j : Fin n) : EReal :=
  Ideal.div (Ideal.exp (s j - rowMax s)) (∑ k, Ideal.exp (s k - rowMax s))

/-- One query's attention over `n` keys: the softmax-weighted sum of the values. -/
def attnRow {n : ℕ} (s : Fin n → EReal) (v : Fin n → EReal) : EReal := ∑ c, smax s c * v c

/-! ## One batch member's patch stage, from its 256 patch means -/

/-- The softmax weight of key patch `q` for query patch `p`. -/
def patchW (mq mk : Fin 256 → Row) (Wq : Mat) (bq : Row) (Wk : Mat) (bk : Row) (p q : Fin 256) : EReal :=
  smax (fun q' => score (lin (mq p) Wq bq) (lin (mk q') Wk bk)) q

/-- The patch context: the weighted sum of the value rows. -/
def patchCtx (mq mk mv : Fin 256 → Row) (Wq : Mat) (bq : Row) (Wk : Mat) (bk : Row) (Wv : Mat) (bv : Row)
    (p : Fin 256) (d : Fin 512) : EReal :=
  ∑ q, patchW mq mk Wq bq Wk bk p q * lin (mv q) Wv bv d

/-- The mean over the query patches of the weights of key patch `q`. -/
def patchWMean (mq mk : Fin 256 → Row) (Wq : Mat) (bq : Row) (Wk : Mat) (bk : Row) (q : Fin 256) : EReal :=
  Ideal.div (∑ p, patchW mq mk Wq bq Wk bk p q) c256

/-! ## One block of 2048 tokens (8 groups of 16 patches) of the kernel's local stage, from its projected rows -/

/-- Row `r` of group `g` of the block. -/
def btok (g : Fin 8) (r : Fin 256) : Fin 2048 := ⟨256 * g.val + r.val, by have := g.isLt; have := r.isLt; omega⟩
/-- Patch `i` of group `g` of the block. -/
def bpatch (g : Fin 8) (i : Fin 16) : Fin 128 := ⟨16 * g.val + i.val, by have := g.isLt; have := i.isLt; omega⟩

/-- The kernel's result at row `r` of group `g`: the masked attention over the group's 256 keys, plus the row's
    patch context through the 0/1 membership matrix. -/
def localBlkK (q k v : Fin 2048 → Row) (pc : Fin 128 → Row) (g : Fin 8) (r : Fin 256) (d : Fin 512) : EReal :=
  attnRow (fun c : Fin 256 => if r.val / 16 = c.val / 16 then score (q (btok g r)) (k (btok g c)) else ⊥)
      (fun c => v (btok g c) d)
    + ∑ i : Fin 16, (if r.val / 16 = i.val then (1 : EReal) else 0) * pc (bpatch g i) d

/-- Token `j` of the block `pb` of 2048 tokens. -/
def blkTok (pb : Fin 2) (j : Fin 2048) : Fin 4096 := ⟨2048 * pb.val + j.val, by have := pb.isLt; have := j.isLt; omega⟩
/-- Patch `i` of the block `pb` of 128 patches. -/
def blkPatch (pb : Fin 2) (i : Fin 128) : Fin 256 := ⟨128 * pb.val + i.val, by have := pb.isLt; have := i.isLt; omega⟩

/-- The sixteen arguments, as functions of coordinates. -/
structure Params where
  xq : Act
  xk1 : Act
  xk2 : Act
  xv : Act
  Wpq : Mat
  bpq : Row
  Wpk : Mat
  bpk : Row
  Wpv : Mat
  bpv : Row
  Wlq : Mat
  blq : Row
  Wlk : Mat
  blk : Row
  Wlv : Mat
  blv : Row

/-- Every entry of every argument is a real number. -/
structure Params.Finite (P : Params) : Prop where
  xq : ∀ b n i, ∃ r : ℝ, P.xq b n i = r
  xk1 : ∀ b n i, ∃ r : ℝ, P.xk1 b n i = r
  xk2 : ∀ b n i, ∃ r : ℝ, P.xk2 b n i = r
  xv : ∀ b n i, ∃ r : ℝ, P.xv b n i = r
  Wpq : ∀ o i, ∃ r : ℝ, P.Wpq o i = r
  bpq : ∀ o, ∃ r : ℝ, P.bpq o = r
  Wpk : ∀ o i, ∃ r : ℝ, P.Wpk o i = r
  bpk : ∀ o, ∃ r : ℝ, P.bpk o = r
  Wpv : ∀ o i, ∃ r : ℝ, P.Wpv o i = r
  bpv : ∀ o, ∃ r : ℝ, P.bpv o = r
  Wlq : ∀ o i, ∃ r : ℝ, P.Wlq o i = r
  blq : ∀ o, ∃ r : ℝ, P.blq o = r
  Wlk : ∀ o i, ∃ r : ℝ, P.Wlk o i = r
  blk : ∀ o, ∃ r : ℝ, P.blk o = r
  Wlv : ∀ o i, ∃ r : ℝ, P.Wlv o i = r
  blv : ∀ o, ∃ r : ℝ, P.blv o = r

/-- The mean over a patch's 16 tokens. -/
def pmean (x : Act) (b : Fin 16) (p : Fin 256) : Row := fun i => Ideal.div (∑ s : Fin 16, x b (tok p s) i) c16

namespace Params

variable (P : Params)

/-! ## The patch stage -/

/-- The softmax weight of key patch `q` for query patch `p`. -/
def pw (b : Fin 16) (p q : Fin 256) : EReal := patchW (pmean P.xq b) (pmean P.xk1 b) P.Wpq P.bpq P.Wpk P.bpk p q

/-- The patch context. -/
def pctx (b : Fin 16) (p : Fin 256) : Row :=
  patchCtx (pmean P.xq b) (pmean P.xk1 b) (pmean P.xv b) P.Wpq P.bpq P.Wpk P.bpk P.Wpv P.bpv p

/-- The second result: the mean over the query patches of the weights. -/
def out2 (b : Fin 16) (q : Fin 256) : EReal :=
  patchWMean (pmean P.xq b) (pmean P.xk1 b) P.Wpq P.bpq P.Wpk P.bpk q

/-! ## The local stage -/

def ql (b : Fin 16) (n : Fin 4096) : Row := lin (P.xq b n) P.Wlq P.blq
def kl (b : Fin 16) (n : Fin 4096) : Row := lin (P.xk2 b n) P.Wlk P.blk
def vl (b : Fin 16) (n : Fin 4096) : Row := lin (P.xv b n) P.Wlv P.blv

/-- The reference's local attention: query `s` of patch `p` over the patch's 16 keys. -/
def lctxR (b : Fin 16) (p : Fin 256) (s : Fin 16) (d : Fin 512) : EReal :=
  attnRow (fun t : Fin 16 => score (P.ql b (tok p s)) (P.kl b (tok p t))) (fun t => P.vl b (tok p t) d)

/-- The reference's first result at token `s` of patch `p`. -/
def out1R (b : Fin 16) (p : Fin 256) (s : Fin 16) (d : Fin 512) : EReal := P.pctx b p d + P.lctxR b p s d

/-- The kernel's masked row of 256 scores: −∞ outside the query's own patch. -/
def maskedScores (b : Fin 16) (G : Fin 16) (r : Fin 256) : Fin 256 → EReal := fun c =>
  if r.val / 16 = c.val / 16 then score (P.ql b (gtok G r)) (P.kl b (gtok G c)) else ⊥

/-- The kernel's local attention: row `r` of group `G` over the group's 256 keys, masked. -/
def lctxK (b : Fin 16) (G : Fin 16) (r : Fin 256) (d : Fin 512) : EReal :=
  attnRow (P.maskedScores b G r) (fun c => P.vl b (gtok G c) d)

/-- The kernel's patch context of row `r`, through the 0/1 membership matrix of the group's 16 patches. -/
def bcK (b : Fin 16) (G : Fin 16) (r : Fin 256) (d : Fin 512) : EReal :=
  ∑ i : Fin 16, (if r.val / 16 = i.val then (1 : EReal) else 0) * P.pctx b (gpatch G i) d

/-- The kernel's first result at row `r` of group `G`. -/
def out1K (b : Fin 16) (G : Fin 16) (r : Fin 256) (d : Fin 512) : EReal := P.lctxK b G r d + P.bcK b G r d

end Params

/-! ## The arguments' arrays as `Params` -/

open Idealize.ShloMosaic.ValueIdx

abbrev SAct : Shape := ⟨3, ![16, 4096, 512]⟩
abbrev SMat : Shape := ⟨2, ![512, 512]⟩
abbrev SRow : Shape := ⟨1, ![512]⟩

/-- The sixteen argument arrays read by coordinates. -/
def paramsOf (x0 x1 x2 x3 : SAct.Idx → EReal) (x4 : SMat.Idx → EReal) (x5 : SRow.Idx → EReal)
    (x6 : SMat.Idx → EReal) (x7 : SRow.Idx → EReal) (x8 : SMat.Idx → EReal) (x9 : SRow.Idx → EReal)
    (x10 : SMat.Idx → EReal) (x11 : SRow.Idx → EReal) (x12 : SMat.Idx → EReal) (x13 : SRow.Idx → EReal)
    (x14 : SMat.Idx → EReal) (x15 : SRow.Idx → EReal) : Params where
  xq b n i := x0 (ix3 b n i)
  xk1 b n i := x1 (ix3 b n i)
  xk2 b n i := x2 (ix3 b n i)
  xv b n i := x3 (ix3 b n i)
  Wpq o i := x4 (ix2 o i)
  bpq o := x5 (ix1 o)
  Wpk o i := x6 (ix2 o i)
  bpk o := x7 (ix1 o)
  Wpv o i := x8 (ix2 o i)
  bpv o := x9 (ix1 o)
  Wlq o i := x10 (ix2 o i)
  blq o := x11 (ix1 o)
  Wlk o i := x12 (ix2 o i)
  blk o := x13 (ix1 o)
  Wlv o i := x14 (ix2 o i)
  blv o := x15 (ix1 o)

end Cert.Spec

end
-- ==== Proof.ParamsK.lean ====
import proofs.«415515_j83915071029425_3_alg».proof.Proof.Gen.KernelIdeal.Frame
import proofs.«415515_j83915071029425_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen

namespace Cert.KernelIdeal.Values

/-- The kernel's sixteen argument arrays, as launched on core `c`, read by coordinates. -/
def paramsK (m : (ℓ : Loc nD τ sig) → Buf (Elt Ideal) ℓ) (c : Dev nD) : Cert.Spec.Params :=
  Cert.Spec.paramsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

end Cert.KernelIdeal.Values

end
-- ==== Proof.PatchBlock.lean ====
import proofs.«415515_j83915071029425_3_alg».proof.Proof.Gen.KernelIdeal.Frame
import proofs.«415515_j83915071029425_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen

namespace Cert.KernelIdeal.PatchBlock

/-! ### The projections' contraction: [256,512] by [512,512] -/

private theorem dProj_lhs0 (j : S256x512.Idx) (q : dot_S256x512_S512x512_S256x512_1_0_0_1_n_n.contr.Idx) :
    (dot_S256x512_S512x512_S256x512_1_0_0_1_n_n.lhsIdx j q 0).val = (j 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
private theorem dProj_lhs1 (j : S256x512.Idx) (q : dot_S256x512_S512x512_S256x512_1_0_0_1_n_n.contr.Idx) :
    (dot_S256x512_S512x512_S256x512_1_0_0_1_n_n.lhsIdx j q 1).val = (q ⟨0, by decide⟩).val :=
  dot_S256x512_S512x512_S256x512_1_0_0_1_n_n.lhsIdx_val_of_single rfl j q
private theorem dProj_rhs0 (j : S256x512.Idx) (q : dot_S256x512_S512x512_S256x512_1_0_0_1_n_n.contr.Idx) :
    (dot_S256x512_S512x512_S256x512_1_0_0_1_n_n.rhsIdx j q 0).val = (q ⟨0, by decide⟩).val :=
  dot_S256x512_S512x512_S256x512_1_0_0_1_n_n.rhsIdx_val_of_single rfl j q
private theorem dProj_rhs1 (j : S256x512.Idx) (q : dot_S256x512_S512x512_S256x512_1_0_0_1_n_n.contr.Idx) :
    (dot_S256x512_S512x512_S256x512_1_0_0_1_n_n.rhsIdx j q 1).val = (j 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- The product into the zero splat, at row `r` and column `c`: the sum over the contracted coordinate. -/
private theorem dProj_matmul {φ₁ φ₂ : FTy} (prec : Option ContractPrecision) (lhs : FVec Ideal S256x512 φ₁) (rhs : FVec Ideal S512x512 φ₂)
    (r : Fin 256) (c : Fin 512) :
    matmul dot_S256x512_S512x512_S256x512_1_0_0_1_n_n prec lhs rhs (constant S256x512 .f32 0x00000000#32) (ix2 r c)
      = ∑ k : Fin 512, lhs (ix2 r k) * rhs (ix2 k c) := by
  refine (Ideal.matmul_constant_zero_apply dot_S256x512_S512x512_S256x512_1_0_0_1_n_n prec lhs rhs (ix2 r c)).trans ?_
  rw [← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 r c) ((contrEquiv1 dot_S256x512_S512x512_S256x512_1_0_0_1_n_n 512 rfl rfl).symm k) = ix2 r k :=
    funext fun a => Fin.ext (by
      match a with
      | ⟨0, _⟩ => exact dProj_lhs0 _ _
      | ⟨1, _⟩ => exact (dProj_lhs1 _ _).trans hk)
  have er : dot_S256x512_S512x512_S256x512_1_0_0_1_n_n.rhsIdx (ix2 r c) ((contrEquiv1 dot_S256x512_S512x512_S256x512_1_0_0_1_n_n 512 rfl rfl).symm k) = ix2 k c :=
    funext fun a => Fin.ext (by
      match a with
      | ⟨0, _⟩ => exact (dProj_rhs0 _ _).trans hk
      | ⟨1, _⟩ => exact dProj_rhs1 _ _)
  rw [el, er]

/-! ### The scores' contraction: [256,512] by [512,256] -/

private theorem dScore_lhs0 (j : S256x256.Idx) (q : dot_S256x512_S512x256_S256x256_1_0_0_1_n_n.contr.Idx) :
    (dot_S256x512_S512x256_S256x256_1_0_0_1_n_n.lhsIdx j q 0).val = (j 0).val := by
  unfold DotDims.lhsIdx
  rw [dif_neg (show ¬(0 : Fin S256x512.rank) ∈ dot_S256x512_S512x256_S256x256_1_0_0_1_n_n.lhsBatch by decide), dif_pos (show (0 : Fin S256x512.rank) ∈ dot_S256x512_S512x256_S256x256_1_0_0_1_n_n.lhsNonContracting by decide)]
  rfl
private theorem dScore_lhs1 (j : S256x256.Idx) (q : dot_S256x512_S512x256_S256x256_1_0_0_1_n_n.contr.Idx) :
    (dot_S256x512_S512x256_S256x256_1_0_0_1_n_n.lhsIdx j q 1).val = (q ⟨0, by decide⟩).val :=
  dot_S256x512_S512x256_S256x256_1_0_0_1_n_n.lhsIdx_val_of_single rfl j q
private theorem dScore_rhs0 (j : S256x256.Idx) (q : dot_S256x512_S512x256_S256x256_1_0_0_1_n_n.contr.Idx) :
    (dot_S256x512_S512x256_S256x256_1_0_0_1_n_n.rhsIdx j q 0).val = (q ⟨0, by decide⟩).val :=
  dot_S256x512_S512x256_S256x256_1_0_0_1_n_n.rhsIdx_val_of_single rfl j q
private theorem dScore_rhs1 (j : S256x256.Idx) (q : dot_S256x512_S512x256_S256x256_1_0_0_1_n_n.contr.Idx) :
    (dot_S256x512_S512x256_S256x256_1_0_0_1_n_n.rhsIdx j q 1).val = (j 1).val := by
  unfold DotDims.rhsIdx
  rw [dif_neg (show ¬(1 : Fin S512x256.rank) ∈ dot_S256x512_S512x256_S256x256_1_0_0_1_n_n.rhsBatch by decide), dif_pos (show (1 : Fin S512x256.rank) ∈ dot_S256x512_S512x256_S256x256_1_0_0_1_n_n.rhsNonContracting by decide)]
  rfl

/-- The product into the zero splat, at row `r` and column `c`: the sum over the contracted coordinate. -/
private theorem dScore_matmul {φ₁ φ₂ : FTy} (prec : Option ContractPrecision) (lhs : FVec Ideal S256x512 φ₁) (rhs : FVec Ideal S512x256 φ₂)
    (r : Fin 256) (c : Fin 256) :
    matmul dot_S256x512_S512x256_S256x256_1_0_0_1_n_n prec lhs rhs (constant S256x256 .f32 0x00000000#32) (ix2 r c)
      = ∑ k : Fin 512, lhs (ix2 r k) * rhs (ix2 k c) := by
  refine (Ideal.matmul_constant_zero_apply dot_S256x512_S512x256_S256x256_1_0_0_1_n_n prec lhs rhs (ix2 r c)).trans ?_
  rw [← Equiv.sum_comp (contrEquiv1 dot_S256x512_S512x256_S256x256_1_0_0_1_n_n 512 rfl rfl).symm]
  refine Finset.sum_congr rfl fun k _ => ?_
  have hk := contrEquiv1_symm_val dot_S256x512_S512x256_S256x256_1_0_0_1_n_n 512 rfl rfl k
  have el : dot_S256x512_S512x256_S256x256_1_0_0_1_n_n.lhsIdx (ix2 r c) ((contrEquiv1 dot_S256x512_S512x256_S256x256_1_0_0_1_n_n 512 rfl rfl).symm k) = ix2 r k :=
    funext fun a => Fin.ext (by
      match a with
      | ⟨0, _⟩ => exact dScore_lhs0 _ _
      | ⟨1, _⟩ => exact (dScore_lhs1 _ _).trans hk)
  have er : dot_S256x512_S512x256_S256x256_1_0_0_1_n_n.rhsIdx (ix2 r c) ((contrEquiv1 dot_S256x512_S512x256_S256x256_1_0_0_1_n_n 512 rfl rfl).symm k) = ix2 k c :=
    funext fun a => Fin.ext (by
      match a with
      | ⟨0, _⟩ => exact (dScore_rhs0 _ _).trans hk
      | ⟨1, _⟩ => exact dScore_rhs1 _ _)
  rw [el, er]

/-! ### The context's contraction: [256,256] by [256,512] -/

private theorem dCtx_lhs0 (j : S256x512.Idx) (q : dot_S256x256_S256x512_S256x512_1_0_0_1_n_n.contr.Idx) :
    (dot_S256x256_S256x512_S256x512_1_0_0_1_n_n.lhsIdx j q 0).val = (j 0).val := by
  unfold DotDims.lhsIdx
  rw [dif_neg (show ¬(0 : Fin S256x256.rank) ∈ dot_S256x256_S256x512_S256x512_1_0_0_1_n_n.lhsBatch by decide), dif_pos (show (0 : Fin S256x256.rank) ∈ dot_S256x256_S256x512_S256x512_1_0_0_1_n_n.lhsNonContracting by decide)]
  rfl
private theorem dCtx_lhs1 (j : S256x512.Idx) (q : dot_S256x256_S256x512_S256x512_1_0_0_1_n_n.contr.Idx) :
    (dot_S256x256_S256x512_S256x512_1_0_0_1_n_n.lhsIdx j q 1).val = (q ⟨0, by decide⟩).val :=
  dot_S256x256_S256x512_S256x512_1_0_0_1_n_n.lhsIdx_val_of_single rfl j q
private theorem dCtx_rhs0 (j : S256x512.Idx) (q : dot_S256x256_S256x512_S256x512_1_0_0_1_n_n.contr.Idx) :
    (dot_S256x256_S256x512_S256x512_1_0_0_1_n_n.rhsIdx j q 0).val = (q ⟨0, by decide⟩).val :=
  dot_S256x256_S256x512_S256x512_1_0_0_1_n_n.rhsIdx_val_of_single rfl j q
private theorem dCtx_rhs1 (j : S256x512.Idx) (q : dot_S256x256_S256x512_S256x512_1_0_0_1_n_n.contr.Idx) :
    (dot_S256x256_S256x512_S256x512_1_0_0_1_n_n.rhsIdx j q 1).val = (j 1).val := by
  unfold DotDims.rhsIdx
  rw [dif_neg (show ¬(1 : Fin S256x512.rank) ∈ dot_S256x256_S256x512_S256x512_1_0_0_1_n_n.rhsBatch by decide), dif_pos (show (1 : Fin S256x512.rank) ∈ dot_S256x256_S256x512_S256x512_1_0_0_1_n_n.rhsNonContracting by decide)]
  rfl

/-- The product into the zero splat, at row `r` and column `c`: the sum over the contracted coordinate. -/
private theorem dCtx_matmul {φ₁ φ₂ : FTy} (prec : Option ContractPrecision) (lhs : FVec Ideal S256x256 φ₁) (rhs : FVec Ideal S256x512 φ₂)
    (r : Fin 256) (c : Fin 512) :
    matmul dot_S256x256_S256x512_S256x512_1_0_0_1_n_n prec lhs rhs (constant S256x512 .f32 0x00000000#32) (ix2 r c)
      = ∑ k : Fin 256, lhs (ix2 r k) * rhs (ix2 k c) := by
  refine (Ideal.matmul_constant_zero_apply dot_S256x256_S256x512_S256x512_1_0_0_1_n_n prec lhs rhs (ix2 r c)).trans ?_
  rw [← Equiv.sum_comp (contrEquiv1 dot_S256x256_S256x512_S256x512_1_0_0_1_n_n 256 rfl rfl).symm]
  refine Finset.sum_congr rfl fun k _ => ?_
  have hk := contrEquiv1_symm_val dot_S256x256_S256x512_S256x512_1_0_0_1_n_n 256 rfl rfl k
  have el : dot_S256x256_S256x512_S256x512_1_0_0_1_n_n.lhsIdx (ix2 r c) ((contrEquiv1 dot_S256x256_S256x512_S256x512_1_0_0_1_n_n 256 rfl rfl).symm k) = ix2 r k :=
    funext fun a => Fin.ext (by
      match a with
      | ⟨0, _⟩ => exact dCtx_lhs0 _ _
      | ⟨1, _⟩ => exact (dCtx_lhs1 _ _).trans hk)
  have er : dot_S256x256_S256x512_S256x512_1_0_0_1_n_n.rhsIdx (ix2 r c) ((contrEquiv1 dot_S256x256_S256x512_S256x512_1_0_0_1_n_n 256 rfl rfl).symm k) = ix2 k c :=
    funext fun a => Fin.ext (by
      match a with
      | ⟨0, _⟩ => exact (dCtx_rhs0 _ _).trans hk
      | ⟨1, _⟩ => exact dCtx_rhs1 _ _)
  rw [el, er]

/-! ## Small layout facts: a column of 256 values -/

section Layout
variable {α : Type}

/-- An `[a]` array cast to `[a, 1]` reads, at `(i, u)`, the operand at `i`, whatever the unit coordinate `u`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array cast to `[1, 1, a]` reads, at `(u, v, i)`, the operand at `i`. -/
private theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv, Nat.zero_mul, Nat.zero_add])

/-- An `[a, 1]` column broadcast to `[a, b]` reads, at `(p, c)`, the column at `(p, 0)`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions of a 256 × 256 array along one axis -/

/-- The f32 word of −∞ is the least extended real. -/
private theorem ofBits_negInf : Ideal.ofBits .f32 0xFF800000#32 = (⊥ : EReal) := by simp [Ideal.ofBits, Ideal.ieee]

/-- Row `p` with column `k` put back. -/
private theorem lift_row (h : S256x256.Reduces [1] S256) (p : Fin 256) (k : Fin 256) : h.lift (ix1 p) k = ix2 p k :=
  funext fun c => Fin.ext (by
    match c with
    | ⟨0, _⟩ => rfl
    | ⟨1, _⟩ => rfl)

/-- Column `q` with row `k` put back. -/
private theorem lift_col (h : S256x256.Reduces [0] S256) (q : Fin 256) (k : Fin 256) : h.lift (ix1 q) k = ix2 k q :=
  funext fun c => Fin.ext (by
    match c with
    | ⟨0, _⟩ => rfl
    | ⟨1, _⟩ => rfl)

/-- The maximum along a row, from the word of −∞. -/
private theorem rowMax_apply (s : FVec Ideal S256x256 .f32) (h : S256x256.Reduces [1] S256) (hφ : FKind.Formats .f32)
    (hacc : (0xFF800000#32 : BitVec FTy.f32.bits) = FKind.maximumf.neutral .f32 hφ) (p : Fin 256) :
    multiReduction .maximumf [1] S256 s 0xFF800000#32 h hφ hacc (ix1 p) = Cert.Spec.rowMax fun q => s (ix2 p q) := by
  rw [Ideal.multiReduction_maximumf_single]
  unfold Cert.Spec.rowMax
  show (Finset.univ : Finset (Fin 256)).fold max (Ideal.ofBits .f32 0xFF800000#32) (s ∘ h.lift (ix1 p)) = _
  rw [ofBits_negInf]
  exact congrArg (fun f : Fin 256 → EReal => (Finset.univ : Finset (Fin 256)).fold max ⊥ f)
    (funext fun k => congrArg s (lift_row h p k))

/-- The sum along a row. -/
private theorem rowSum_apply (s : FVec Ideal S256x256 .f32) (h : S256x256.Reduces [1] S256) (hφ : FKind.Formats .f32)
    (hacc : (0x00000000#32 : BitVec FTy.f32.bits) = FKind.add.neutral .f32 hφ) (p : Fin 256) :
    multiReduction .add [1] S256 s 0x00000000#32 h hφ hacc (ix1 p) = ∑ q : Fin 256, s (ix2 p q) := by
  rw [Ideal.multiReduction_add_single]
  exact Finset.sum_congr rfl fun k _ => congrArg s (lift_row h p k)

/-- The sum down a column. -/
private theorem colSum_apply (s : FVec Ideal S256x256 .f32) (h : S256x256.Reduces [0] S256) (hφ : FKind.Formats .f32)
    (hacc : (0x00000000#32 : BitVec FTy.f32.bits) = FKind.add.neutral .f32 hφ) (q : Fin 256) :
    multiReduction .add [0] S256 s 0x00000000#32 h hφ hacc (ix1 q) = ∑ p : Fin 256, s (ix2 p q) := by
  rw [Ideal.multiReduction_add_single]
  exact Finset.sum_congr rfl fun k _ => congrArg s (lift_col h q k)

/-! ## The softmax of a row of scores -/

/-- The exponential of a row's entry less the row's maximum: the maximum is taken from −∞, joined with −∞ again,
    stood up as a column and broadcast along the row. -/
private theorem expShift_apply (s : FVec Ideal S256x256 .f32) (h : S256x256.Reduces [1] S256) (hφ : FKind.Formats .f32)
    (hacc : (0xFF800000#32 : BitVec FTy.f32.bits) = FKind.maximumf.neutral .f32 hφ)
    (h1 : S256.ShapeCasts S256x1) (h2 : S256x1.Broadcasts S256x256) (p q : Fin 256) :
    (exp (subf s (broadcastTo S256x256 (shapeCast S256x1
        (maximumf (broadcast S256 (FloatOps.ofBits (F := Ideal) .f32 0xFF800000#32))
          (multiReduction .maximumf [1] S256 s 0xFF800000#32 h hφ hacc)) h1) h2))
      : S256x256.Idx → EReal) (ix2 p q)
      = Ideal.exp (s (ix2 p q) - Cert.Spec.rowMax fun q' => s (ix2 p q')) := by
  show Ideal.exp (s (ix2 p q) - broadcastTo S256x256 _ h2 (ix2 p q)) = _
  rw [broadcastTo_a1_ab_apply, shapeCast_a_a1_apply, maximumf_apply, broadcast_apply, rowMax_apply]
  show Ideal.exp (s (ix2 p q) - max (Ideal.ofBits .f32 0xFF800000#32) _) = _
  rw [ofBits_negInf, max_bot_left]

/-- An entry divided by its row's sum, the sum stood up as a column and broadcast along the row. -/
private theorem normalize_apply (E : FVec Ideal S256x256 .f32) (h : S256x256.Reduces [1] S256) (hφ : FKind.Formats .f32)
    (hacc : (0x00000000#32 : BitVec FTy.f32.bits) = FKind.add.neutral .f32 hφ)
    (h1 : S256.ShapeCasts S256x1) (h2 : S256x1.Broadcasts S256x256) (p q : Fin 256) :
    (divf E (broadcastTo S256x256 (shapeCast S256x1 (multiReduction .add [1] S256 E 0x00000000#32 h hφ hacc) h1) h2)
      : S256x256.Idx → EReal) (ix2 p q)
      = Ideal.div (E (ix2 p q)) (∑ k : Fin 256, E (ix2 p k)) := by
  rw [divf_apply, broadcastTo_a1_ab_apply, shapeCast_a_a1_apply, rowSum_apply]

/-- The weights: row `p` of the products, each divided by √512, through the softmax. -/
private theorem pay1_apply (v31 : FVec Ideal S256x256 .f32) (p q : Fin 256) :
    (k0_pay1 (F := Ideal) v31 (k0_pay6 (F := Ideal)) : S256x256.Idx → EReal) (ix2 p q)
      = Cert.Spec.smax (fun q' => Ideal.div (v31 (ix2 p q')) Cert.Spec.cScale) q := by
  unfold k0_pay1
  refine (normalize_apply _ _ _ _ _ _ p q).trans ?_
  unfold Cert.Spec.smax
  have hE : ∀ k : Fin 256, _ = Ideal.exp (Ideal.div (v31 (ix2 p k)) Cert.Spec.cScale
      - Cert.Spec.rowMax fun q' => Ideal.div (v31 (ix2 p q')) Cert.Spec.cScale) := fun k =>
    expShift_apply (divf v31 (k0_pay6 (F := Ideal))) Facts₀.reduces_S256x256_S256 (.inl rfl) rfl
      Facts₀.shapeCasts_S256_S256x1 Facts₀.broadcasts_S256x1_S256x256 p k
  exact congrArg₂ Ideal.div (hE q) (Finset.sum_congr rfl fun k _ => hE k)

/-! ## A dense layer on the 256 rows of a block -/

/-- Row `q` of a block through a dense layer, at output feature `o`: the block's leading unit axis dropped, the
    format change the identity on the extended reals, the product with the weights (stored [in, out]) and the
    bias row broadcast down the rows. -/
private theorem dense_apply (x : Vec Ideal S1x256x512 .f32) (w : Vec Ideal S512x512 .bf16) (b : Vec Ideal S1x512 .f32)
    (h1 : S1x256x512.ShapeCasts S256x512) (h2 : FTy.bits .bf16 < FTy.bits .f32) (h3 : S512x512.ShapeCasts S512x512)
    (h4 : S1x512.ShapeCasts S1x512) (h5 : S1x512.Broadcasts S256x512) (q : Fin 256) (o : Fin 512) :
    (addf (matmul dot_S256x512_S512x512_S256x512_1_0_0_1_n_n none
          (truncf .bf16 (shapeCast S256x512 x h1 : FVec Ideal S256x512 .f32) h2)
          (shapeCast S512x512 w h3 : FVec Ideal S512x512 .bf16) (constant S256x512 .f32 0x00000000#32))
        (broadcastTo S256x512 (shapeCast S1x512 b h4 : FVec Ideal S1x512 .f32) h5) : S256x512.Idx → EReal) (ix2 q o)
      = Cert.Spec.lin (fun i => x (ix3 (0 : Fin 1) q i)) (fun o i => w (ix2 i o)) (fun o => b (ix2 (0 : Fin 1) o)) o := by
  rw [addf_apply, dProj_matmul, broadcastTo_1b_ab_apply, shapeCast_self, shapeCast_self]
  unfold Cert.Spec.lin
  refine congrArg (· + b (ix2 (0 : Fin 1) o)) (Finset.sum_congr rfl fun i _ => ?_)
  rw [truncf_apply, shapeCast_1ab_ab_apply]

/-- The value rows. -/
private theorem pay4_apply (v6 : Vec Ideal S1x256x512 .f32) (v17 : Vec Ideal S512x512 .bf16) (v19 : Vec Ideal S1x512 .f32)
    (q : Fin 256) (o : Fin 512) :
    (k0_pay4 (F := Ideal) v6 v17 v19 : S256x512.Idx → EReal) (ix2 q o)
      = Cert.Spec.lin (fun i => v6 (ix3 (0 : Fin 1) q i)) (fun o i => v17 (ix2 i o)) (fun o => v19 (ix2 (0 : Fin 1) o)) o := by
  unfold k0_pay4
  exact dense_apply v6 v17 v19 _ _ _ _ _ q o

/-- The products of the query rows with the key rows: the keys transposed, then the contraction over the features. -/
private theorem pay5_apply (v0 v3 : Vec Ideal S1x256x512 .f32) (v9 : Vec Ideal S512x512 .bf16) (v11 : Vec Ideal S1x512 .f32)
    (v13 : Vec Ideal S512x512 .bf16) (v15 : Vec Ideal S1x512 .f32) (p q : Fin 256) :
    (k0_pay5 (F := Ideal) v0 v3 v9 v11 v13 v15 : S256x256.Idx → EReal) (ix2 p q)
      = ∑ e : Fin 512,
          Cert.Spec.lin (fun i => v0 (ix3 (0 : Fin 1) p i)) (fun o i => v9 (ix2 i o)) (fun o => v11 (ix2 (0 : Fin 1) o)) e
          * Cert.Spec.lin (fun i => v3 (ix3 (0 : Fin 1) q i)) (fun o i => v13 (ix2 i o)) (fun o => v15 (ix2 (0 : Fin 1) o)) e := by
  unfold k0_pay5
  rw [dScore_matmul]
  refine Finset.sum_congr rfl fun e _ => ?_
  rw [transpose_ix2_apply, dense_apply, dense_apply]

/-! ## The two stores -/

private theorem zeros3 : (![0, 0, 0] : Fin 3 → Nat) = fun _ => 0 := funext fun a => by fin_cases a <;> rfl
private theorem zeros2 : (![0, 0] : Fin 2 → Nat) = fun _ => 0 := funext fun a => by fin_cases a <;> rfl

/-- What the patch-attention body leaves in the context window's buffer, at patch `p` and feature `d`. -/
theorem out0_9_apply (x0 x1 x2 : Vec Ideal S1x256x512 .f32) (x3 : Vec Ideal S512x512 .bf16) (x4 : Vec Ideal S1x512 .f32) (x5 : Vec Ideal S512x512 .bf16) (x6 : Vec Ideal S1x512 .f32) (x7 : Vec Ideal S512x512 .bf16) (x8 : Vec Ideal S1x512 .f32) (p : Fin 256) (d : Fin 512) :
    (out0_9 (F := Ideal) x0 x1 x2 x3 x4 x5 x6 x7 x8 : S1x256x512.Idx → EReal) (ix3 (0 : Fin 1) p d)
      = Cert.Spec.patchCtx (fun p i => x0 (ix3 (0 : Fin 1) p i)) (fun p i => x1 (ix3 (0 : Fin 1) p i)) (fun p i => x2 (ix3 (0 : Fin 1) p i))
          (fun o i => x3 (ix2 i o)) (fun o => x4 (ix2 (0 : Fin 1) o)) (fun o i => x5 (ix2 i o)) (fun o => x6 (ix2 (0 : Fin 1) o))
          (fun o i => x7 (ix2 i o)) (fun o => x8 (ix2 (0 : Fin 1) o)) p d := by
  unfold out0_9
  rw [View.canon_unit_zero (S := S1x256x512) zeros3]
  simp only [View.ld_unit_zero (S := S1x256x512) zeros3, View.ld_unit_zero (S := S512x512) zeros2,
    View.ld_unit_zero (S := S1x512) zeros2]
  unfold k0_pay2
  rw [shapeCast_ab_1ab_apply, dCtx_matmul]
  unfold Cert.Spec.patchCtx Cert.Spec.patchW
  refine Finset.sum_congr rfl fun q _ => ?_
  rw [pay1_apply, pay4_apply]
  simp only [pay5_apply]
  rfl

/-- What it leaves in the weights window's buffer, at key patch `q`. -/
theorem out0_10_apply (x0 x1 x2 : Vec Ideal S1x256x512 .f32) (x3 : Vec Ideal S512x512 .bf16) (x4 : Vec Ideal S1x512 .f32) (x5 : Vec Ideal S512x512 .bf16) (x6 : Vec Ideal S1x512 .f32) (x7 : Vec Ideal S512x512 .bf16) (x8 : Vec Ideal S1x512 .f32) (q : Fin 256) :
    (out0_10 (F := Ideal) x0 x1 x2 x3 x4 x5 x6 x7 x8 : S1x1x256.Idx → EReal) (ix3 (0 : Fin 1) (0 : Fin 1) q)
      = Cert.Spec.patchWMean (fun p i => x0 (ix3 (0 : Fin 1) p i)) (fun p i => x1 (ix3 (0 : Fin 1) p i))
          (fun o i => x3 (ix2 i o)) (fun o => x4 (ix2 (0 : Fin 1) o)) (fun o i => x5 (ix2 i o)) (fun o => x6 (ix2 (0 : Fin 1) o)) q := by
  unfold out0_10
  rw [View.canon_unit_zero (S := S1x1x256) zeros3]
  simp only [View.ld_unit_zero (S := S1x256x512) zeros3, View.ld_unit_zero (S := S512x512) zeros2,
    View.ld_unit_zero (S := S1x512) zeros2]
  unfold k0_pay3
  rw [shapeCast_a_11a_apply, divf_apply, broadcast_apply]
  unfold Cert.Spec.patchWMean Cert.Spec.patchW
  refine congrArg₂ Ideal.div ((colSum_apply _ _ _ _ q).trans (Finset.sum_congr rfl fun p _ => ?_)) rfl
  rw [pay1_apply]
  simp only [pay5_apply]
  rfl

end Cert.KernelIdeal.PatchBlock

end
-- ==== Proof.Region0Array.lean ====
import proofs.«415515_j83915071029425_3_alg».proof.Proof.Gen.KernelIdeal.Frame
import proofs.«415515_j83915071029425_3_alg».proof.Proof.Spec
import proofs.«415515_j83915071029425_3_alg».proof.Proof.PatchBlock
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen

namespace Cert.KernelIdeal.Region0

variable (V : (c : Dev nD) → (b : Ref sig .tc) → Buf (Elt Ideal) ((c : Thread nD τ).loc b))

/-! ## The grid and the windows' index maps

The grid has 16 points, one per batch member. At point `t` the windows of the three mean arrays and of the two
results sit at block (t, 0, 0); the weight and bias windows are the whole arrays, at block (0, 0). -/

/-- The grid has 16 points. -/
theorem N0 : cfg0.N = 16 := by decide

/-- The index maps over the grid: the member-blocked windows sit at block (t, 0, 0). -/
theorem idx_member : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_9.index t 0 = t.val ∧ win0_9.index t 1 = 0 ∧ win0_9.index t 2 = 0)
    ∧ (win0_10.index t 0 = t.val ∧ win0_10.index t 1 = 0 ∧ win0_10.index t 2 = 0) :=
  (by decide +kernel : ∀ t : Fin grid0.N, _)

/-- The weight and bias windows are whole: block (0, 0) at every point. -/
theorem idx_whole : ∀ t : Fin cfg0.N,
    (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0) :=
  (by decide +kernel : ∀ t : Fin grid0.N, _)

/-! ## Each input block read at an index

A block's coordinate on an axis is its block index times the block's extent plus the coordinate inside the block. -/

/-- The block of the first mean array at point `t`, at patch `p` and feature `i`, is the array at member `t`. -/
theorem blk0_apply (c : Dev nD) (t : Fin cfg0.N) (b : Fin 16) (hb : b.val = t.val) (p : Fin 256) (i : Fin 512) :
    (iblk0 (F := Ideal) V c 0 t : S1x256x512.Idx → EReal) (ix3 (0 : Fin 1) p i) = (V c main_v3 : S16x256x512.Idx → EReal) (ix3 b p i) := by
  unfold iblk0
  rw [View.read_apply]
  show (V c main_v3 : S16x256x512.Idx → EReal) _ = _
  congr 1
  funext a
  apply Fin.ext
  have h := (idx_member t).1
  match a with
  | ⟨0, _⟩ => show win0_0.index t 0 * 1 + 1 * 0 = b.val; omega
  | ⟨1, _⟩ => show win0_0.index t 1 * 256 + 1 * p.val = p.val; omega
  | ⟨2, _⟩ => show win0_0.index t 2 * 512 + 1 * i.val = i.val; omega

/-- The block of the second mean array at point `t` is the array at member `t`. -/
theorem blk1_apply (c : Dev nD) (t : Fin cfg0.N) (b : Fin 16) (hb : b.val = t.val) (p : Fin 256) (i : Fin 512) :
    (iblk0 (F := Ideal) V c 1 t : S1x256x512.Idx → EReal) (ix3 (0 : Fin 1) p i) = (V c main_v7 : S16x256x512.Idx → EReal) (ix3 b p i) := by
  unfold iblk0
  rw [View.read_apply]
  show (V c main_v7 : S16x256x512.Idx → EReal) _ = _
  congr 1
  funext a
  apply Fin.ext
  have h := (idx_member t).2.1
  match a with
  | ⟨0, _⟩ => show win0_1.index t 0 * 1 + 1 * 0 = b.val; omega
  | ⟨1, _⟩ => show win0_1.index t 1 * 256 + 1 * p.val = p.val; omega
  | ⟨2, _⟩ => show win0_1.index t 2 * 512 + 1 * i.val = i.val; omega

/-- The block of the third mean array at point `t` is the array at member `t`. -/
theorem blk2_apply (c : Dev nD) (t : Fin cfg0.N) (b : Fin 16) (hb : b.val = t.val) (p : Fin 256) (i : Fin 512) :
    (iblk0 (F := Ideal) V c 2 t : S1x256x512.Idx → EReal) (ix3 (0 : Fin 1) p i) = (V c main_v11 : S16x256x512.Idx → EReal) (ix3 b p i) := by
  unfold iblk0
  rw [View.read_apply]
  show (V c main_v11 : S16x256x512.Idx → EReal) _ = _
  congr 1
  funext a
  apply Fin.ext
  have h := (idx_member t).2.2.1
  match a with
  | ⟨0, _⟩ => show win0_2.index t 0 * 1 + 1 * 0 = b.val; omega
  | ⟨1, _⟩ => show win0_2.index t 1 * 256 + 1 * p.val = p.val; omega
  | ⟨2, _⟩ => show win0_2.index t 2 * 512 + 1 * i.val = i.val; omega

/-- The first weight window's block is the whole matrix, at every point. -/
theorem blk3_apply (c : Dev nD) (t : Fin cfg0.N) (i : Fin 512) (o : Fin 512) :
    (iblk0 (F := Ideal) V c 3 t : S512x512.Idx → EReal) (ix2 i o) = (V c main_v13 : S512x512.Idx → EReal) (ix2 i o) := by
  unfold iblk0
  rw [View.read_apply]
  show (V c main_v13 : S512x512.Idx → EReal) _ = _
  congr 1
  funext a
  apply Fin.ext
  have h := (idx_whole t).1
  match a with
  | ⟨0, _⟩ => show win0_3.index t 0 * 512 + 1 * i.val = i.val; omega
  | ⟨1, _⟩ => show win0_3.index t 1 * 512 + 1 * o.val = o.val; omega

/-- The first bias window's block is the whole row, at every point. -/
theorem blk4_apply (c : Dev nD) (t : Fin cfg0.N) (o : Fin 512) :
    (iblk0 (F := Ideal) V c 4 t : S1x512.Idx → EReal) (ix2 (0 : Fin 1) o) = (V c main_v18 : S1x512.Idx → EReal) (ix2 (0 : Fin 1) o) := by
  unfold iblk0
  rw [View.read_apply]
  show (V c main_v18 : S1x512.Idx → EReal) _ = _
  congr 1
  funext a
  apply Fin.ext
  have h := (idx_whole t).2.1
  match a with
  | ⟨0, _⟩ => show win0_4.index t 0 * 1 + 1 * 0 = 0; omega
  | ⟨1, _⟩ => show win0_4.index t 1 * 512 + 1 * o.val = o.val; omega

/-- The second weight window's block is the whole matrix, at every point. -/
theorem blk5_apply (c : Dev nD) (t : Fin cfg0.N) (i : Fin 512) (o : Fin 512) :
    (iblk0 (F := Ideal) V c 5 t : S512x512.Idx → EReal) (ix2 i o) = (V c main_v15 : S512x512.Idx → EReal) (ix2 i o) := by
  unfold iblk0
  rw [View.read_apply]
  show (V c main_v15 : S512x512.Idx → EReal) _ = _
  congr 1
  funext a
  apply Fin.ext
  have h := (idx_whole t).2.2.1
  match a with
  | ⟨0, _⟩ => show win0_5.index t 0 * 512 + 1 * i.val = i.val; omega
  | ⟨1, _⟩ => show win0_5.index t 1 * 512 + 1 * o.val = o.val; omega

/-- The second bias window's block is the whole row, at every point. -/
theorem blk6_apply (c : Dev nD) (t : Fin cfg0.N) (o : Fin 512) :
    (iblk0 (F := Ideal) V c 6 t : S1x512.Idx → EReal) (ix2 (0 : Fin 1) o) = (V c main_v19 : S1x512.Idx → EReal) (ix2 (0 : Fin 1) o) := by
  unfold iblk0
  rw [View.read_apply]
  show (V c main_v19 : S1x512.Idx → EReal) _ = _
  congr 1
  funext a
  apply Fin.ext
  have h := (idx_whole t).2.2.2.1
  match a with
  | ⟨0, _⟩ => show win0_6.index t 0 * 1 + 1 * 0 = 0; omega
  | ⟨1, _⟩ => show win0_6.index t 1 * 512 + 1 * o.val = o.val; omega

/-- The third weight window's block is the whole matrix, at every point. -/
theorem blk7_apply (c : Dev nD) (t : Fin cfg0.N) (i : Fin 512) (o : Fin 512) :
    (iblk0 (F := Ideal) V c 7 t : S512x512.Idx → EReal) (ix2 i o) = (V c main_v17 : S512x512.Idx → EReal) (ix2 i o) := by
  unfold iblk0
  rw [View.read_apply]
  show (V c main_v17 : S512x512.Idx → EReal) _ = _
  congr 1
  funext a
  apply Fin.ext
  have h := (idx_whole t).2.2.2.2.1
  match a with
  | ⟨0, _⟩ => show win0_7.index t 0 * 512 + 1 * i.val = i.val; omega
  | ⟨1, _⟩ => show win0_7.index t 1 * 512 + 1 * o.val = o.val; omega

/-- The third bias window's block is the whole row, at every point. -/
theorem blk8_apply (c : Dev nD) (t : Fin cfg0.N) (o : Fin 512) :
    (iblk0 (F := Ideal) V c 8 t : S1x512.Idx → EReal) (ix2 (0 : Fin 1) o) = (V c main_v20 : S1x512.Idx → EReal) (ix2 (0 : Fin 1) o) := by
  unfold iblk0
  rw [View.read_apply]
  show (V c main_v20 : S1x512.Idx → EReal) _ = _
  congr 1
  funext a
  apply Fin.ext
  have h := (idx_whole t).2.2.2.2.2
  match a with
  | ⟨0, _⟩ => show win0_8.index t 0 * 1 + 1 * 0 = 0; omega
  | ⟨1, _⟩ => show win0_8.index t 1 * 512 + 1 * o.val = o.val; omega

/-! ## The two result arrays as functions of the arrays the region found -/

/-- The patch-context array as one function of the arrays the region found. -/
def G9 (c : Dev nD) : S16x256x512.Idx → EReal := fun j =>
  Cert.Spec.patchCtx
    (fun p i => (V c main_v3 : S16x256x512.Idx → EReal) (ix3 (j 0) p i))
    (fun p i => (V c main_v7 : S16x256x512.Idx → EReal) (ix3 (j 0) p i))
    (fun p i => (V c main_v11 : S16x256x512.Idx → EReal) (ix3 (j 0) p i))
    (fun o i => (V c main_v13 : S512x512.Idx → EReal) (ix2 i o)) (fun o => (V c main_v18 : S1x512.Idx → EReal) (ix2 (0 : Fin 1) o))
    (fun o i => (V c main_v15 : S512x512.Idx → EReal) (ix2 i o)) (fun o => (V c main_v19 : S1x512.Idx → EReal) (ix2 (0 : Fin 1) o))
    (fun o i => (V c main_v17 : S512x512.Idx → EReal) (ix2 i o)) (fun o => (V c main_v20 : S1x512.Idx → EReal) (ix2 (0 : Fin 1) o)) (j 1) (j 2)

/-- The mean-weights array as one function of the arrays the region found. -/
def G10 (c : Dev nD) : S16x1x256.Idx → EReal := fun j =>
  Cert.Spec.patchWMean
    (fun p i => (V c main_v3 : S16x256x512.Idx → EReal) (ix3 (j 0) p i))
    (fun p i => (V c main_v7 : S16x256x512.Idx → EReal) (ix3 (j 0) p i))
    (fun o i => (V c main_v13 : S512x512.Idx → EReal) (ix2 i o)) (fun o => (V c main_v18 : S1x512.Idx → EReal) (ix2 (0 : Fin 1) o))
    (fun o i => (V c main_v15 : S512x512.Idx → EReal) (ix2 i o)) (fun o => (V c main_v19 : S1x512.Idx → EReal) (ix2 (0 : Fin 1) o)) (j 2)

/-- The patch context depends on its arguments only through their entries. -/
private theorem patchCtx_congr {mq mq' mk mk' mv mv' : Fin 256 → Cert.Spec.Row} {Wq Wq' Wk Wk' Wv Wv' : Cert.Spec.Mat}
    {bq bq' bk bk' bv bv' : Cert.Spec.Row}
    (h0 : ∀ p i, mq p i = mq' p i) (h1 : ∀ p i, mk p i = mk' p i) (h2 : ∀ p i, mv p i = mv' p i)
    (h3 : ∀ o i, Wq o i = Wq' o i) (h4 : ∀ o, bq o = bq' o) (h5 : ∀ o i, Wk o i = Wk' o i) (h6 : ∀ o, bk o = bk' o)
    (h7 : ∀ o i, Wv o i = Wv' o i) (h8 : ∀ o, bv o = bv' o) (p : Fin 256) (d : Fin 512) :
    Cert.Spec.patchCtx mq mk mv Wq bq Wk bk Wv bv p d = Cert.Spec.patchCtx mq' mk' mv' Wq' bq' Wk' bk' Wv' bv' p d := by
  obtain rfl : mq = mq' := funext fun p => funext fun i => h0 p i
  obtain rfl : mk = mk' := funext fun p => funext fun i => h1 p i
  obtain rfl : mv = mv' := funext fun p => funext fun i => h2 p i
  obtain rfl : Wq = Wq' := funext fun o => funext fun i => h3 o i
  obtain rfl : bq = bq' := funext fun o => h4 o
  obtain rfl : Wk = Wk' := funext fun o => funext fun i => h5 o i
  obtain rfl : bk = bk' := funext fun o => h6 o
  obtain rfl : Wv = Wv' := funext fun o => funext fun i => h7 o i
  obtain rfl : bv = bv' := funext fun o => h8 o
  rfl

/-- The mean of the weights depends on its arguments only through their entries. -/
private theorem patchWMean_congr {mq mq' mk mk' : Fin 256 → Cert.Spec.Row} {Wq Wq' Wk Wk' : Cert.Spec.Mat}
    {bq bq' bk bk' : Cert.Spec.Row}
    (h0 : ∀ p i, mq p i = mq' p i) (h1 : ∀ p i, mk p i = mk' p i)
    (h3 : ∀ o i, Wq o i = Wq' o i) (h4 : ∀ o, bq o = bq' o) (h5 : ∀ o i, Wk o i = Wk' o i) (h6 : ∀ o, bk o = bk' o)
    (q : Fin 256) :
    Cert.Spec.patchWMean mq mk Wq bq Wk bk q = Cert.Spec.patchWMean mq' mk' Wq' bq' Wk' bk' q := by
  obtain rfl : mq = mq' := funext fun p => funext fun i => h0 p i
  obtain rfl : mk = mk' := funext fun p => funext fun i => h1 p i
  obtain rfl : Wq = Wq' := funext fun o => funext fun i => h3 o i
  obtain rfl : bq = bq' := funext fun o => h4 o
  obtain rfl : Wk = Wk' := funext fun o => funext fun i => h5 o i
  obtain rfl : bk = bk' := funext fun o => h6 o
  rfl

/-- An index of a block with one member is (0, p, d). -/
private theorem eq_ix3_unit {n1 n2 : Nat} (y : (⟨3, ![1, n1, n2]⟩ : Shape).Idx) : y = ix3 (0 : Fin 1) (y 1) (y 2) := by
  funext a
  match a with
  | ⟨0, _⟩ => exact Subsingleton.elim (α := Fin 1) _ _
  | ⟨1, _⟩ => rfl
  | ⟨2, _⟩ => rfl

/-- An index of a block with one member and one row is (0, 0, q). -/
private theorem eq_ix3_unit2 {n2 : Nat} (y : (⟨3, ![1, 1, n2]⟩ : Shape).Idx) : y = ix3 (0 : Fin 1) (0 : Fin 1) (y 2) := by
  funext a
  match a with
  | ⟨0, _⟩ => exact Subsingleton.elim (α := Fin 1) _ _
  | ⟨1, _⟩ => exact Subsingleton.elim (α := Fin 1) _ _
  | ⟨2, _⟩ => rfl

/-! ## What each point writes back is its block of those functions -/

/-- What point `t` writes back to the context array is block `t` of the patch context: the body's result on the
    point's blocks, each block read off its array. -/
theorem flushed9_eq (c : Dev nD) (t : Fin cfg0.N) :
    (dat0 (F := Ideal) V c).flushed 9 t = ((cfg0.win 9).blk t).view.read (Elt Ideal) (G9 V c) := by
  show (cfg0.win 9).cut (grid0.coords t) ((dat0 (F := Ideal) V c).after 9 t) = _
  rw [after0_9]
  funext y
  rw [View.read_apply]
  obtain ⟨p, d, rfl⟩ : ∃ (p : Fin 256) (d : Fin 512), (y : S1x256x512.Idx) = ix3 (0 : Fin 1) p d :=
    ⟨_, _, eq_ix3_unit (y : S1x256x512.Idx)⟩
  have ht : t.val < 16 := N0 ▸ t.isLt
  have hemb : (((cfg0.win 9).blk t).view.emb (ix3 (0 : Fin 1) p d) : S16x256x512.Idx) = ix3 (⟨t.val, ht⟩ : Fin 16) p d := by
    funext a
    apply Fin.ext
    have h := (idx_member t).2.2.2.1
    match a with
    | ⟨0, _⟩ => show win0_9.index t 0 * 1 + 1 * 0 = t.val; omega
    | ⟨1, _⟩ => show win0_9.index t 1 * 256 + 1 * p.val = p.val; omega
    | ⟨2, _⟩ => show win0_9.index t 2 * 512 + 1 * d.val = d.val; omega
  show (out0_9 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) : S1x256x512.Idx → EReal) (ix3 (0 : Fin 1) p d)
    = G9 V c (((cfg0.win 9).blk t).view.emb (ix3 (0 : Fin 1) p d) : S16x256x512.Idx)
  rw [hemb, PatchBlock.out0_9_apply]
  exact patchCtx_congr (fun p i => blk0_apply V c t _ rfl p i) (fun p i => blk1_apply V c t _ rfl p i) (fun p i => blk2_apply V c t _ rfl p i)
    (fun o i => blk3_apply V c t i o) (fun o => blk4_apply V c t o) (fun o i => blk5_apply V c t i o) (fun o => blk6_apply V c t o)
    (fun o i => blk7_apply V c t i o) (fun o => blk8_apply V c t o) p d

/-- What point `t` writes back to the mean-weights array is block `t` of the mean of the weights. -/
theorem flushed10_eq (c : Dev nD) (t : Fin cfg0.N) :
    (dat0 (F := Ideal) V c).flushed 10 t = ((cfg0.win 10).blk t).view.read (Elt Ideal) (G10 V c) := by
  show (cfg0.win 10).cut (grid0.coords t) ((dat0 (F := Ideal) V c).after 10 t) = _
  rw [after0_10]
  funext y
  rw [View.read_apply]
  obtain ⟨q, rfl⟩ : ∃ (q : Fin 256), (y : S1x1x256.Idx) = ix3 (0 : Fin 1) (0 : Fin 1) q :=
    ⟨_, eq_ix3_unit2 (y : S1x1x256.Idx)⟩
  have ht : t.val < 16 := N0 ▸ t.isLt
  have hemb : (((cfg0.win 10).blk t).view.emb (ix3 (0 : Fin 1) (0 : Fin 1) q) : S16x1x256.Idx) = ix3 (⟨t.val, ht⟩ : Fin 16) (0 : Fin 1) q := by
    funext a
    apply Fin.ext
    have h := (idx_member t).2.2.2.2
    match a with
    | ⟨0, _⟩ => show win0_10.index t 0 * 1 + 1 * 0 = t.val; omega
    | ⟨1, _⟩ => show win0_10.index t 1 * 1 + 1 * 0 = 0; omega
    | ⟨2, _⟩ => show win0_10.index t 2 * 256 + 1 * q.val = q.val; omega
  show (out0_10 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) : S1x1x256.Idx → EReal) (ix3 (0 : Fin 1) (0 : Fin 1) q)
    = G10 V c (((cfg0.win 10).blk t).view.emb (ix3 (0 : Fin 1) (0 : Fin 1) q) : S16x1x256.Idx)
  rw [hemb, PatchBlock.out0_10_apply]
  exact patchWMean_congr (fun p i => blk0_apply V c t _ rfl p i) (fun p i => blk1_apply V c t _ rfl p i)
    (fun o i => blk3_apply V c t i o) (fun o => blk4_apply V c t o) (fun o i => blk5_apply V c t i o) (fun o => blk6_apply V c t o) q

/-! ## The blocks cover the arrays -/

/-- Every index of the context array lies in the block of the point of its batch member. -/
theorem cover9 (j : S16x256x512.Idx) : ∃ t : Fin cfg0.N, (cfg0.win 9).flush t = true ∧ j ∈ ((cfg0.win 9).blk t).view.set := by
  have h0 : (j 0).val < 16 := (j 0).isLt
  have h1 : (j 1).val < 256 := (j 1).isLt
  have h2 : (j 2).val < 512 := (j 2).isLt
  obtain ⟨t, ht⟩ : ∃ t : Fin cfg0.N, t.val = (j 0).val := ⟨⟨(j 0).val, N0.symm ▸ h0⟩, rfl⟩
  refine ⟨t, flush0_9 t, ?_⟩
  show j ∈ ((View.whole main_v21_0).slice (win0_9.rect t)).set
  rw [View.set_slice_whole, Rect.mem_set_unit]
  intro a
  have h := (idx_member t).2.2.2.1
  match a with
  | ⟨0, _⟩ => show win0_9.index t 0 * 1 ≤ (j 0).val ∧ (j 0).val < win0_9.index t 0 * 1 + 1; omega
  | ⟨1, _⟩ => show win0_9.index t 1 * 256 ≤ (j 1).val ∧ (j 1).val < win0_9.index t 1 * 256 + 256; omega
  | ⟨2, _⟩ => show win0_9.index t 2 * 512 ≤ (j 2).val ∧ (j 2).val < win0_9.index t 2 * 512 + 512; omega

/-- Every index of the mean-weights array lies in the block of the point of its batch member. -/
theorem cover10 (j : S16x1x256.Idx) : ∃ t : Fin cfg0.N, (cfg0.win 10).flush t = true ∧ j ∈ ((cfg0.win 10).blk t).view.set := by
  have h0 : (j 0).val < 16 := (j 0).isLt
  have h1 : (j 1).val < 1 := (j 1).isLt
  have h2 : (j 2).val < 256 := (j 2).isLt
  obtain ⟨t, ht⟩ : ∃ t : Fin cfg0.N, t.val = (j 0).val := ⟨⟨(j 0).val, N0.symm ▸ h0⟩, rfl⟩
  refine ⟨t, flush0_10 t, ?_⟩
  show j ∈ ((View.whole main_v21_1).slice (win0_10.rect t)).set
  rw [View.set_slice_whole, Rect.mem_set_unit]
  intro a
  have h := (idx_member t).2.2.2.2
  match a with
  | ⟨0, _⟩ => show win0_10.index t 0 * 1 ≤ (j 0).val ∧ (j 0).val < win0_10.index t 0 * 1 + 1; omega
  | ⟨1, _⟩ => show win0_10.index t 1 * 1 ≤ (j 1).val ∧ (j 1).val < win0_10.index t 1 * 1 + 1; omega
  | ⟨2, _⟩ => show win0_10.index t 2 * 256 ≤ (j 2).val ∧ (j 2).val < win0_10.index t 2 * 256 + 256; omega

/-- The context array after the region is the patch context of the arrays it found. -/
theorem final9 (c : Dev nD) : (dat0 (F := Ideal) V c).arrAt 9 cfg0.N = G9 V c :=
  (dat0 (F := Ideal) V c).arrAt_eq_of_cover 9 (G9 V c) (fun t _ => flushed9_eq V c t) cover9

/-- The mean-weights array after the region is the mean of the weights of the arrays it found. -/
theorem final10 (c : Dev nD) : (dat0 (F := Ideal) V c).arrAt 10 cfg0.N = G10 V c :=
  (dat0 (F := Ideal) V c).arrAt_eq_of_cover 10 (G10 V c) (fun t _ => flushed10_eq V c t) cover10

/-- The patch-context array after region 0, at batch member `b`, patch `p`, feature `d`: the patch attention of
    the member's means, read off the arrays the region found (block `b` of each input window is member `b`). -/
theorem ctx_apply (c : Dev nD) (b : Fin 16) (p : Fin 256) (d : Fin 512) :
    ((dat0 (F := Ideal) V c).arrAt 9 cfg0.N : S16x256x512.Idx → EReal) (ix3 b p d)
      = Cert.Spec.patchCtx
          (fun p i => (V c main_v3 : S16x256x512.Idx → EReal) (ix3 b p i))
          (fun p i => (V c main_v7 : S16x256x512.Idx → EReal) (ix3 b p i))
          (fun p i => (V c main_v11 : S16x256x512.Idx → EReal) (ix3 b p i))
          (fun o i => (V c main_v13 : S512x512.Idx → EReal) (ix2 i o)) (fun o => (V c main_v18 : S1x512.Idx → EReal) (ix2 (0 : Fin 1) o))
          (fun o i => (V c main_v15 : S512x512.Idx → EReal) (ix2 i o)) (fun o => (V c main_v19 : S1x512.Idx → EReal) (ix2 (0 : Fin 1) o))
          (fun o i => (V c main_v17 : S512x512.Idx → EReal) (ix2 i o)) (fun o => (V c main_v20 : S1x512.Idx → EReal) (ix2 (0 : Fin 1) o)) p d := by
  rw [final9]
  rfl

/-- The mean-weights array after region 0, at batch member `b` and key patch `q`. -/
theorem pw_apply (c : Dev nD) (b : Fin 16) (q : Fin 256) :
    ((dat0 (F := Ideal) V c).arrAt 10 cfg0.N : S16x1x256.Idx → EReal) (ix3 b (0 : Fin 1) q)
      = Cert.Spec.patchWMean
          (fun p i => (V c main_v3 : S16x256x512.Idx → EReal) (ix3 b p i))
          (fun p i => (V c main_v7 : S16x256x512.Idx → EReal) (ix3 b p i))
          (fun o i => (V c main_v13 : S512x512.Idx → EReal) (ix2 i o)) (fun o => (V c main_v18 : S1x512.Idx → EReal) (ix2 (0 : Fin 1) o))
          (fun o i => (V c main_v15 : S512x512.Idx → EReal) (ix2 i o)) (fun o => (V c main_v19 : S1x512.Idx → EReal) (ix2 (0 : Fin 1) o)) q := by
  rw [final10]
  rfl

end Cert.KernelIdeal.Region0

end
-- ==== Proof.Mask.lean ====
import proofs.«415515_j83915071029425_3_alg».proof.Proof.Gen.KernelIdeal.Frame
import proofs.«415515_j83915071029425_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen

namespace Cert.KernelIdeal.Mask

/-- The floor division by 16 of a 32-bit word as the program spells it: the quotient rounded toward zero,
    lowered by one where the signs of dividend and divisor differ and the remainder is not zero. -/
private def fdiv16 (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 16#32 0#32)) (Scalar.extui (Scalar.cmpi .slt 16#32 0#32))))
      (IntOp.cmpi .ne (IntOp.remsi .vector x 16#32) 0#32))
    (IntOp.subi (IntOp.divsi .vector x 16#32) 1#32)
    (IntOp.divsi .vector x 16#32)

/-- On the words 0 … 255 the correction never fires and the quotient is the natural one. -/
private theorem fdiv16_ofNat : ∀ r : Fin 256, fdiv16 (BitVec.ofNat 32 r.val) = BitVec.ofNat 32 (r.val / 16) := by
  decide +kernel

/-- The row quotient: at (r, c) the row coordinate's word divided by 16, in the program's spelling. -/
private theorem pay7_apply (r c : Fin 256) :
    (k1_pay7 : S256x256.Idx → BitVec 32) (ix2 r c) = fdiv16 (BitVec.ofNat 32 r.val) := by
  have h : iota .tc S256x256 32 [0] iota_S256x256_d0_w32 (ix2 r c) = BitVec.ofNat 32 r.val :=
    iota_single_apply _ _ _ _ _ _
  show fdiv16 (iota .tc S256x256 32 [0] iota_S256x256_d0_w32 (ix2 r c)) = _
  rw [h]

/-- Two quotients below 16 are the same 32-bit word exactly when they are the same number. -/
private theorem ofNat_eq_iff {a b : Nat} (ha : a < 16) (hb : b < 16) :
    BitVec.ofNat 32 a = BitVec.ofNat 32 b ↔ a = b := by
  constructor
  · intro h
    have h' := congrArg BitVec.toNat h
    simp only [BitVec.toNat_ofNat] at h'
    omega
  · intro h; rw [h]

/-- The equality test of two such words is the bit 1 exactly when the numbers agree. -/
private theorem cmpi_eq_ofNat {a b : Nat} (ha : a < 16) (hb : b < 16) :
    IntOp.cmpi .eq (BitVec.ofNat 32 a) (BitVec.ofNat 32 b) = if a = b then 1#1 else 0#1 := by
  unfold IntOp.cmpi
  by_cases h : a = b
  · subst h
    rw [if_pos rfl]
    show BitVec.ofBool (BitVec.ofNat 32 a == BitVec.ofNat 32 a) = 1#1
    rw [beq_self_eq_true]
    rfl
  · have h' : BitVec.ofNat 32 a ≠ BitVec.ofNat 32 b := fun e => h ((ofNat_eq_iff ha hb).1 e)
    rw [if_neg h]
    show BitVec.ofBool (BitVec.ofNat 32 a == BitVec.ofNat 32 b) = 0#1
    rw [beq_eq_false_iff_ne.2 h']
    rfl

/-- The block-diagonal mask: row `r` and column `c` of the 256×256 tile lie in the same patch of 16. -/
theorem mask_apply (r c : Fin 256) :
    (k1_pay11 k1_pay7 k1_pay8 k1_pay9 k1_pay10 : S256x256.Idx → BitVec 1) (ix2 r c) = if r.val / 16 = c.val / 16 then 1#1 else 0#1 := by
  have hc : iota .tc S256x256 32 [1] iota_S256x256_d1_w32 (ix2 r c) = BitVec.ofNat 32 c.val :=
    iota_single_apply _ _ _ _ _ _
  have e : (k1_pay11 k1_pay7 k1_pay8 k1_pay9 k1_pay10 : S256x256.Idx → BitVec 1) (ix2 r c)
      = IntOp.cmpi .eq ((k1_pay7 : S256x256.Idx → BitVec 32) (ix2 r c))
          (fdiv16 (iota .tc S256x256 32 [1] iota_S256x256_d1_w32 (ix2 r c))) := rfl
  rw [e, hc, pay7_apply, fdiv16_ofNat, fdiv16_ofNat]
  exact cmpi_eq_ofNat (by have := r.isLt; omega) (by have := c.isLt; omega)

/-- The conversion to f32 reads the word as a signed integer, exactly: the widened bit 1 is the number 1. -/
private theorem sitofp_one : FloatOps.sitofp (F := Ideal) .f32 (BitVec.setWidth 32 1#1) = (1 : EReal) := by
  show (((BitVec.setWidth 32 1#1).toInt : ℝ) : EReal) = 1
  have h : (BitVec.setWidth 32 1#1).toInt = 1 := by decide
  rw [h]; norm_num

/-- … and the widened bit 0 is the number 0. -/
private theorem sitofp_zero : FloatOps.sitofp (F := Ideal) .f32 (BitVec.setWidth 32 0#1) = (0 : EReal) := by
  show (((BitVec.setWidth 32 0#1).toInt : ℝ) : EReal) = 0
  have h : (BitVec.setWidth 32 0#1).toInt = 0 := by decide
  rw [h]; norm_num

/-- The membership matrix: 1 where token `r` of the group lies in its patch `i`, else 0. -/
theorem member_apply (r : Fin 256) (i : Fin 16) :
    (k1_pay12 (F := Ideal) : S256x16.Idx → EReal) (ix2 r i) = if r.val / 16 = i.val then (1 : EReal) else 0 := by
  have hr : iota .tc S256x16 32 [0] iota_S256x16_d0_w32 (ix2 r i) = BitVec.ofNat 32 r.val :=
    iota_single_apply _ _ _ _ _ _
  have hi : iota .tc S256x16 32 [1] iota_S256x16_d1_w32 (ix2 r i) = BitVec.ofNat 32 i.val :=
    iota_single_apply _ _ _ _ _ _
  have e : (k1_pay12 (F := Ideal) : S256x16.Idx → EReal) (ix2 r i)
      = FloatOps.sitofp (F := Ideal) .f32
          ((IntOp.cmpi .eq (fdiv16 (iota .tc S256x16 32 [0] iota_S256x16_d0_w32 (ix2 r i)))
            (iota .tc S256x16 32 [1] iota_S256x16_d1_w32 (ix2 r i))).setWidth 32) := rfl
  rw [e, hr, hi, fdiv16_ofNat, cmpi_eq_ofNat (by have := r.isLt; omega) i.isLt]
  by_cases h : r.val / 16 = i.val
  · rw [if_pos h, if_pos h]
    exact sitofp_one
  · rw [if_neg h, if_neg h]
    exact sitofp_zero

end Cert.KernelIdeal.Mask

end
-- ==== Proof.Proj.lean ====
import proofs.«415515_j83915071029425_3_alg».proof.Proof.Gen.KernelIdeal.Frame
import proofs.«415515_j83915071029425_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen

namespace Cert.KernelIdeal.Proj

/-! ## The product's dimension numbers, axis by axis

The product contracts the left operand's axis 1 with the right operand's axis 0; the left operand's axis 0 is the
result's axis 0 and the right operand's axis 1 is the result's axis 1. -/

/-- The left index keeps the result's row. -/
private theorem lhs_axis0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl

/-- The left index's column is the contraction position. -/
private theorem lhs_axis1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q

/-- The right index's row is the contraction position. -/
private theorem rhs_axis0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q

/-- The right index keeps the result's column. -/
private theorem rhs_axis1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The product into a zero accumulator, at row `j` and column `o`: the sum over the 512 contracted positions. -/
private theorem matmul_zero_ix2 (x : FVec Ideal S2048x512 .bf16) (w : FVec Ideal S512x512 .bf16) (j : Fin 2048) (o : Fin 512) :
    (matmul dot_S2048x512_S512x512_S2048x512_1_0_0_1_n_n none x w (constant S2048x512 .f32 0x00000000#32) : S2048x512.Idx → EReal) (ix2 j o)
      = ∑ i : Fin 512, x (ix2 j i) * w (ix2 i o) := by
  refine (Ideal.matmul_constant_zero_apply dot_S2048x512_S512x512_S2048x512_1_0_0_1_n_n none x w (ix2 j o)).trans ?_
  rw [← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 j o)
      ((contrEquiv1 dot_S2048x512_S512x512_S2048x512_1_0_0_1_n_n 512 rfl rfl).symm k) = ix2 j k :=
    funext fun a => Fin.ext (by
      match a with
      | ⟨0, _⟩ => exact lhs_axis0 _ _
      | ⟨1, _⟩ => exact (lhs_axis1 _ _).trans hk)
  have er : dot_S2048x512_S512x512_S2048x512_1_0_0_1_n_n.rhsIdx (ix2 j o)
      ((contrEquiv1 dot_S2048x512_S512x512_S2048x512_1_0_0_1_n_n 512 rfl rfl).symm k) = ix2 k o :=
    funext fun a => Fin.ext (by
      match a with
      | ⟨0, _⟩ => exact (rhs_axis0 _ _).trans hk
      | ⟨1, _⟩ => exact rhs_axis1 _ _)
  rw [el, er]

/-- The left operand of a projection: the activation block with its unit axis dropped, rounded to the narrow format
    (the identity on the extended reals). -/
private theorem lhs_apply (v : Vec Ideal S1x2048x512 .f32) (j : Fin 2048) (i : Fin 512) :
    (truncf .bf16 (shapeCast S2048x512 v shapeCasts_S1x2048x512_S2048x512 : FVec Ideal S2048x512 .f32) bitsLt_bf16_f32
        : S2048x512.Idx → EReal) (ix2 j i) = v (ix3 (0 : Fin 1) j i) :=
  (truncf_apply (ψ := .bf16) (shapeCast S2048x512 v shapeCasts_S1x2048x512_S2048x512 : FVec Ideal S2048x512 .f32) bitsLt_bf16_f32 (ix2 j i)).trans
    (shapeCast_1ab_ab_apply v shapeCasts_S1x2048x512_S2048x512 j i)

/-- The bias row broadcast over the 2048 rows. -/
private theorem bias_apply (b : Vec Ideal S1x512 .f32) (j : Fin 2048) (o : Fin 512) :
    (broadcastTo S2048x512 (shapeCast S1x512 b shapeCasts_S1x512_S1x512 : FVec Ideal S1x512 .f32) broadcasts_S1x512_S2048x512
        : S2048x512.Idx → EReal) (ix2 j o) = b (ix2 (0 : Fin 1) o) := by
  rw [shapeCast_self]
  exact broadcastTo_1b_ab_apply b broadcasts_S1x512_S2048x512 j o

/-- The product of a projection, at row `j` and column `o`. -/
private theorem prod_apply (v : Vec Ideal S1x2048x512 .f32) (w : Vec Ideal S512x512 .bf16) (j : Fin 2048) (o : Fin 512) :
    (matmul dot_S2048x512_S512x512_S2048x512_1_0_0_1_n_n none
        (truncf .bf16 (shapeCast S2048x512 v shapeCasts_S1x2048x512_S2048x512 : FVec Ideal S2048x512 .f32) bitsLt_bf16_f32)
        (shapeCast S512x512 w shapeCasts_S512x512_S512x512 : FVec Ideal S512x512 .bf16)
        (constant S2048x512 .f32 0x00000000#32) : S2048x512.Idx → EReal) (ix2 j o)
      = ∑ i : Fin 512, v (ix3 (0 : Fin 1) j i) * w (ix2 i o) := by
  rw [shapeCast_self]
  refine (matmul_zero_ix2 _ w j o).trans ?_
  exact Finset.sum_congr rfl fun i _ => congrArg (· * w (ix2 i o)) (lhs_apply v j i)

/-- The query projection of the block's token `j` at output feature `o`. -/
theorem pay2_apply (v0 : Vec Ideal S1x2048x512 .f32) (v11 : Vec Ideal S512x512 .bf16) (v13 : Vec Ideal S1x512 .f32) (j : Fin 2048) (o : Fin 512) :
    (k1_pay2 (F := Ideal) v0 v11 v13 : S2048x512.Idx → EReal) (ix2 j o)
      = Cert.Spec.lin (fun i => v0 (ix3 (0 : Fin 1) j i)) (fun o i => v11 (ix2 i o)) (fun o => v13 (ix2 (0 : Fin 1) o)) o := by
  unfold k1_pay2 Cert.Spec.lin
  refine (addf_apply _ _ _).trans ?_
  exact congrArg₂ (· + ·) (prod_apply v0 v11 j o) (bias_apply v13 j o)

/-- The key projection. -/
theorem pay3_apply (v3 : Vec Ideal S1x2048x512 .f32) (v15 : Vec Ideal S512x512 .bf16) (v17 : Vec Ideal S1x512 .f32) (j : Fin 2048) (o : Fin 512) :
    (k1_pay3 (F := Ideal) v3 v15 v17 : S2048x512.Idx → EReal) (ix2 j o)
      = Cert.Spec.lin (fun i => v3 (ix3 (0 : Fin 1) j i)) (fun o i => v15 (ix2 i o)) (fun o => v17 (ix2 (0 : Fin 1) o)) o := by
  unfold k1_pay3 Cert.Spec.lin
  refine (addf_apply _ _ _).trans ?_
  exact congrArg₂ (· + ·) (prod_apply v3 v15 j o) (bias_apply v17 j o)

/-- The value projection (its product and its bias row are two payloads, added by a third). -/
theorem pay6_apply (v6 : Vec Ideal S1x2048x512 .f32) (v19 : Vec Ideal S512x512 .bf16) (v21 : Vec Ideal S1x512 .f32) (j : Fin 2048) (o : Fin 512) :
    (k1_pay6 (F := Ideal) (k1_pay4 v6 v19) (k1_pay5 v21) : S2048x512.Idx → EReal) (ix2 j o)
      = Cert.Spec.lin (fun i => v6 (ix3 (0 : Fin 1) j i)) (fun o i => v19 (ix2 i o)) (fun o => v21 (ix2 (0 : Fin 1) o)) o := by
  unfold k1_pay6 k1_pay4 k1_pay5 Cert.Spec.lin
  refine (addf_apply _ _ _).trans ?_
  exact congrArg₂ (· + ·) (prod_apply v6 v19 j o) (bias_apply v21 j o)

/-- The block's patch contexts with the leading unit axis dropped. -/
theorem pay1_apply (v9 : Vec Ideal S1x128x512 .f32) (i : Fin 128) (d : Fin 512) :
    (k1_pay1 (F := Ideal) v9 : S128x512.Idx → EReal) (ix2 i d) = v9 (ix3 (0 : Fin 1) i d) := by
  unfold k1_pay1
  exact shapeCast_1ab_ab_apply v9 shapeCasts_S1x128x512_S128x512 i d

end Cert.KernelIdeal.Proj

end
-- ==== Proof.Group.lean ====
import proofs.«415515_j83915071029425_3_alg».proof.Proof.Gen.KernelIdeal.Frame
import proofs.«415515_j83915071029425_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open Idealize.ShloMosaic Idealize.ShloMosaic.TcCoe Idealize.SL.Sem Idealize.ShloMosaic.ValueIdx
open Cert.KernelIdeal Cert.KernelIdeal.Gen

namespace Cert.KernelIdeal.Group

/-! ### Queries times transposed keys: [256, 512] × [512, 256] -/

private theorem qk_lhs0 (i : S256x256.Idx) (q : dot_S256x512_S512x256_S256x256_1_0_0_1_n_n.contr.Idx) :
    (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide), dif_pos (show (0 : Fin S256x512.rank) ∈ dot_S256x512_S512x256_S256x256_1_0_0_1_n_n.lhsNonContracting by decide)]
  rfl
private theorem qk_lhs1 (i : S256x256.Idx) (q : dot_S256x512_S512x256_S256x256_1_0_0_1_n_n.contr.Idx) :
    (dot_S256x512_S512x256_S256x256_1_0_0_1_n_n.lhsIdx i q 1).val = (q ⟨0, by decide⟩).val :=
  dot_S256x512_S512x256_S256x256_1_0_0_1_n_n.lhsIdx_val_of_single rfl i q
private theorem qk_rhs0 (i : S256x256.Idx) (q : dot_S256x512_S512x256_S256x256_1_0_0_1_n_n.contr.Idx) :
    (dot_S256x512_S512x256_S256x256_1_0_0_1_n_n.rhsIdx i q 0).val = (q ⟨0, by decide⟩).val :=
  dot_S256x512_S512x256_S256x256_1_0_0_1_n_n.rhsIdx_val_of_single rfl i q
private theorem qk_rhs1 (i : S256x256.Idx) (q : dot_S256x512_S512x256_S256x256_1_0_0_1_n_n.contr.Idx) :
    (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide), dif_pos (show (1 : Fin S512x256.rank) ∈ dot_S256x512_S512x256_S256x256_1_0_0_1_n_n.rhsNonContracting by decide)]
  rfl

/-- Into a zero accumulator the product at `(r, c)` is the sum over the 512 contracted coordinates of
    `A (r, k) · B (k, c)`. -/
private theorem qk_apply (prec : Option ContractPrecision) (A : FVec Ideal S256x512 .f32) (B : FVec Ideal S512x256 .f32)
    (r : Fin 256) (c : Fin 256) :
    matmul dot_S256x512_S512x256_S256x256_1_0_0_1_n_n prec A B (constant S256x256 .f32 0x00000000#32) (ix2 r c)
      = ∑ k : Fin 512, A (ix2 r k) * B (ix2 k c) := by
  refine (Ideal.matmul_constant_zero_apply dot_S256x512_S512x256_S256x256_1_0_0_1_n_n prec A B (ix2 r c)).trans ?_
  rw [← Equiv.sum_comp (contrEquiv1 dot_S256x512_S512x256_S256x256_1_0_0_1_n_n 512 rfl rfl).symm]
  refine Finset.sum_congr rfl fun k _ => ?_
  have hk := contrEquiv1_symm_val dot_S256x512_S512x256_S256x256_1_0_0_1_n_n 512 rfl rfl k
  have el : dot_S256x512_S512x256_S256x256_1_0_0_1_n_n.lhsIdx (ix2 r c) ((contrEquiv1 dot_S256x512_S512x256_S256x256_1_0_0_1_n_n 512 rfl rfl).symm k) = ix2 r k :=
    funext fun a => Fin.ext (by
      match a with
      | ⟨0, _⟩ => exact qk_lhs0 _ _
      | ⟨1, _⟩ => exact (qk_lhs1 _ _).trans hk)
  have er : dot_S256x512_S512x256_S256x256_1_0_0_1_n_n.rhsIdx (ix2 r c) ((contrEquiv1 dot_S256x512_S512x256_S256x256_1_0_0_1_n_n 512 rfl rfl).symm k) = ix2 k c :=
    funext fun a => Fin.ext (by
      match a with
      | ⟨0, _⟩ => exact (qk_rhs0 _ _).trans hk
      | ⟨1, _⟩ => exact qk_rhs1 _ _)
  rw [el, er]

/-! ### Weights times values: [256, 256] × [256, 512] -/

private theorem pv_lhs0 (i : S256x512.Idx) (q : dot_S256x256_S256x512_S256x512_1_0_0_1_n_n.contr.Idx) :
    (dot_S256x256_S256x512_S256x512_1_0_0_1_n_n.lhsIdx i q 0).val = (i 0).val := by
  unfold DotDims.lhsIdx
  rw [dif_neg (show ¬(0 : Fin S256x256.rank) ∈ dot_S256x256_S256x512_S256x512_1_0_0_1_n_n.lhsBatch by decide), dif_pos (show (0 : Fin S256x256.rank) ∈ dot_S256x256_S256x512_S256x512_1_0_0_1_n_n.lhsNonContracting by decide)]
  rfl
private theorem pv_lhs1 (i : S256x512.Idx) (q : dot_S256x256_S256x512_S256x512_1_0_0_1_n_n.contr.Idx) :
    (dot_S256x256_S256x512_S256x512_1_0_0_1_n_n.lhsIdx i q 1).val = (q ⟨0, by decide⟩).val :=
  dot_S256x256_S256x512_S256x512_1_0_0_1_n_n.lhsIdx_val_of_single rfl i q
private theorem pv_rhs0 (i : S256x512.Idx) (q : dot_S256x256_S256x512_S256x512_1_0_0_1_n_n.contr.Idx) :
    (dot_S256x256_S256x512_S256x512_1_0_0_1_n_n.rhsIdx i q 0).val = (q ⟨0, by decide⟩).val :=
  dot_S256x256_S256x512_S256x512_1_0_0_1_n_n.rhsIdx_val_of_single rfl i q
private theorem pv_rhs1 (i : S256x512.Idx) (q : dot_S256x256_S256x512_S256x512_1_0_0_1_n_n.contr.Idx) :
    (dot_S256x256_S256x512_S256x512_1_0_0_1_n_n.rhsIdx i q 1).val = (i 1).val := by
  unfold DotDims.rhsIdx
  rw [dif_neg (show ¬(1 : Fin S256x512.rank) ∈ dot_S256x256_S256x512_S256x512_1_0_0_1_n_n.rhsBatch by decide), dif_pos (show (1 : Fin S256x512.rank) ∈ dot_S256x256_S256x512_S256x512_1_0_0_1_n_n.rhsNonContracting by decide)]
  rfl

/-- Into a zero accumulator the product at `(r, c)` is the sum over the 256 contracted coordinates of
    `A (r, k) · B (k, c)`. -/
private theorem pv_apply (prec : Option ContractPrecision) (A : FVec Ideal S256x256 .f32) (B : FVec Ideal S256x512 .f32)
    (r : Fin 256) (c : Fin 512) :
    matmul dot_S256x256_S256x512_S256x512_1_0_0_1_n_n prec A B (constant S256x512 .f32 0x00000000#32) (ix2 r c)
      = ∑ k : Fin 256, A (ix2 r k) * B (ix2 k c) := by
  refine (Ideal.matmul_constant_zero_apply dot_S256x256_S256x512_S256x512_1_0_0_1_n_n prec A B (ix2 r c)).trans ?_
  rw [← Equiv.sum_comp (contrEquiv1 dot_S256x256_S256x512_S256x512_1_0_0_1_n_n 256 rfl rfl).symm]
  refine Finset.sum_congr rfl fun k _ => ?_
  have hk := contrEquiv1_symm_val dot_S256x256_S256x512_S256x512_1_0_0_1_n_n 256 rfl rfl k
  have el : dot_S256x256_S256x512_S256x512_1_0_0_1_n_n.lhsIdx (ix2 r c) ((contrEquiv1 dot_S256x256_S256x512_S256x512_1_0_0_1_n_n 256 rfl rfl).symm k) = ix2 r k :=
    funext fun a => Fin.ext (by
      match a with
      | ⟨0, _⟩ => exact pv_lhs0 _ _
      | ⟨1, _⟩ => exact (pv_lhs1 _ _).trans hk)
  have er : dot_S256x256_S256x512_S256x512_1_0_0_1_n_n.rhsIdx (ix2 r c) ((contrEquiv1 dot_S256x256_S256x512_S256x512_1_0_0_1_n_n 256 rfl rfl).symm k) = ix2 k c :=
    funext fun a => Fin.ext (by
      match a with
      | ⟨0, _⟩ => exact (pv_rhs0 _ _).trans hk
      | ⟨1, _⟩ => exact pv_rhs1 _ _)
  rw [el, er]

/-! ### Membership times patch contexts: [256, 16] × [16, 512] -/

private theorem ep_lhs0 (i : S256x512.Idx) (q : dot_S256x16_S16x512_S256x512_1_0_0_1_n_n.contr.Idx) :
    (dot_S256x16_S16x512_S256x512_1_0_0_1_n_n.lhsIdx i q 0).val = (i 0).val := by
  unfold DotDims.lhsIdx
  rw [dif_neg (show ¬(0 : Fin S256x16.rank) ∈ dot_S256x16_S16x512_S256x512_1_0_0_1_n_n.lhsBatch by decide), dif_pos (show (0 : Fin S256x16.rank) ∈ dot_S256x16_S16x512_S256x512_1_0_0_1_n_n.lhsNonContracting by decide)]
  rfl
private theorem ep_lhs1 (i : S256x512.Idx) (q : dot_S256x16_S16x512_S256x512_1_0_0_1_n_n.contr.Idx) :
    (dot_S256x16_S16x512_S256x512_1_0_0_1_n_n.lhsIdx i q 1).val = (q ⟨0, by decide⟩).val :=
  dot_S256x16_S16x512_S256x512_1_0_0_1_n_n.lhsIdx_val_of_single rfl i q
private theorem ep_rhs0 (i : S256x512.Idx) (q : dot_S256x16_S16x512_S256x512_1_0_0_1_n_n.contr.Idx) :
    (dot_S256x16_S16x512_S256x512_1_0_0_1_n_n.rhsIdx i q 0).val = (q ⟨0, by decide⟩).val :=
  dot_S256x16_S16x512_S256x512_1_0_0_1_n_n.rhsIdx_val_of_single rfl i q
private theorem ep_rhs1 (i : S256x512.Idx) (q : dot_S256x16_S16x512_S256x512_1_0_0_1_n_n.contr.Idx) :
    (dot_S256x16_S16x512_S256x512_1_0_0_1_n_n.rhsIdx i q 1).val = (i 1).val := by
  unfold DotDims.rhsIdx
  rw [dif_neg (show ¬(1 : Fin S16x512.rank) ∈ dot_S256x16_S16x512_S256x512_1_0_0_1_n_n.rhsBatch by decide), dif_pos (show (1 : Fin S16x512.rank) ∈ dot_S256x16_S16x512_S256x512_1_0_0_1_n_n.rhsNonContracting by decide)]
  rfl

/-- Into a zero accumulator the product at `(r, c)` is the sum over the 16 contracted coordinates of
    `A (r, k) · B (k, c)`. -/
private theorem ep_apply (prec : Option ContractPrecision) (A : FVec Ideal S256x16 .f32) (B : FVec Ideal S16x512 .f32)
    (r : Fin 256) (c : Fin 512) :
    matmul dot_S256x16_S16x512_S256x512_1_0_0_1_n_n prec A B (constant S256x512 .f32 0x00000000#32) (ix2 r c)
      = ∑ k : Fin 16, A (ix2 r k) * B (ix2 k c) := by
  refine (Ideal.matmul_constant_zero_apply dot_S256x16_S16x512_S256x512_1_0_0_1_n_n prec A B (ix2 r c)).trans ?_
  rw [← Equiv.sum_comp (contrEquiv1 dot_S256x16_S16x512_S256x512_1_0_0_1_n_n 16 rfl rfl).symm]
  refine Finset.sum_congr rfl fun k _ => ?_
  have hk := contrEquiv1_symm_val dot_S256x16_S16x512_S256x512_1_0_0_1_n_n 16 rfl rfl k
  have el : dot_S256x16_S16x512_S256x512_1_0_0_1_n_n.lhsIdx (ix2 r c) ((contrEquiv1 dot_S256x16_S16x512_S256x512_1_0_0_1_n_n 16 rfl rfl).symm k) = ix2 r k :=
    funext fun a => Fin.ext (by
      match a with
      | ⟨0, _⟩ => exact ep_lhs0 _ _
      | ⟨1, _⟩ => exact (ep_lhs1 _ _).trans hk)
  have er : dot_S256x16_S16x512_S256x512_1_0_0_1_n_n.rhsIdx (ix2 r c) ((contrEquiv1 dot_S256x16_S16x512_S256x512_1_0_0_1_n_n 16 rfl rfl).symm k) = ix2 k c :=
    funext fun a => Fin.ext (by
      match a with
      | ⟨0, _⟩ => exact (ep_rhs0 _ _).trans hk
      | ⟨1, _⟩ => exact ep_rhs1 _ _)
  rw [el, er]

/-! ### A row of the [256, 256] array: its maximum and its sum, and a column of row values spread back over the row -/

/-- The index over row `r` with coordinate `k` inserted on the reduced axis is `(r, k)`. -/
private theorem lift_row (r : Fin 256) (k : Fin (S256x256.size 1)) :
    reduces_S256x256_S256.lift (ix1 r) k = (ix2 r (show Fin 256 from k) : S256x256.Idx) := by
  funext c
  apply Fin.ext
  show reduces_S256x256_S256.liftVal (ix1 r) k.val c = _
  unfold Shape.Reduces.liftVal
  match c with
  | ⟨0, _⟩ => rfl
  | ⟨1, _⟩ => rfl

/-- The word `0xFF800000` is −∞. -/
private theorem negInf_word : Ideal.ofBits .f32 0xFF800000#32 = (⊥ : EReal) := by
  simp [Ideal.ofBits, Ideal.ieee]

/-- The maximum reduction along a row is the row's maximum from −∞. -/
private theorem rowMax_apply (x : FVec Ideal S256x256 .f32) (r : Fin 256) :
    multiReduction .maximumf [1] S256 x 0xFF800000#32 reduces_S256x256_S256 (.inl rfl) rfl (ix1 r)
      = Cert.Spec.rowMax (fun c : Fin 256 => x (ix2 r c)) := by
  refine (Ideal.multiReduction_maximumf_single x 0xFF800000#32 reduces_S256x256_S256 (.inl rfl) rfl (ix1 r)).trans ?_
  show Finset.fold max (Ideal.ofBits .f32 0xFF800000#32) (fun k : Fin 256 => x (reduces_S256x256_S256.lift (ix1 r) k))
      (Finset.univ : Finset (Fin 256)) = Finset.fold max ⊥ (fun c : Fin 256 => x (ix2 r c)) Finset.univ
  rw [negInf_word]
  exact congrArg (fun f : Fin 256 → EReal => Finset.fold max ⊥ f Finset.univ) (funext fun k => congrArg x (lift_row r k))

/-- The add reduction along a row is the row's sum. -/
private theorem rowSum_apply (x : FVec Ideal S256x256 .f32) (r : Fin 256) :
    multiReduction .add [1] S256 x 0x00000000#32 reduces_S256x256_S256 (.inl rfl) rfl (ix1 r)
      = ∑ c : Fin 256, x (ix2 r c) := by
  refine (Ideal.multiReduction_add_single x 0x00000000#32 reduces_S256x256_S256 (.inl rfl) rfl (ix1 r)).trans ?_
  show ∑ k : Fin 256, x (reduces_S256x256_S256.lift (ix1 r) k) = _
  exact Finset.sum_congr rfl fun k _ => congrArg x (lift_row r k)

/-- A vector of 256 row values cast to a column [256, 1] and spread over [256, 256] reads, at `(r, c)`, the value of row `r`. -/
private theorem col_apply (v : FVec Ideal S256 .f32) (r c : Fin 256) :
    broadcastTo S256x256 (shapeCast S256x1 v shapeCasts_S256_S256x1) broadcasts_S256x1_S256x256 (ix2 r c) = v (ix1 r) := by
  refine (broadcastTo_apply _ broadcasts_S256x1_S256x256 (ix2 r c) (ix2 r (0 : Fin 1)) (fun a => ?_)).trans ?_
  · match a with
    | ⟨0, _⟩ => show r.val = if (256 : Nat) = 1 then 0 else r.val; rw [if_neg (by decide)]
    | ⟨1, _⟩ => show (0 : Nat) = if (1 : Nat) = 1 then 0 else c.val; rw [if_pos rfl]
  · refine shapeCast_apply v shapeCasts_S256_S256x1 (ix2 r (0 : Fin 1)) (ix1 r) ?_
    rw [Shape.rowMajor_val_one, Shape.rowMajor_val_two]
    show r.val = r.val * 1 + 0
    omega

/-! ### The masked, scaled scores -/

/-- The table gives the name `neg_big` the value −∞. -/
private theorem neg_big : Named.named (F := Ideal) κ "neg_big" (φ := .f32) 0xFF333332#32 = (⊥ : EReal) :=
  IdealRules.named_const.ideal_named_scalar _ _ _ _ rfl

/-- At `(r, c)`: the scaled inner product of query row `r` and key row `c` where the mask is set, −∞ where it is clear. -/
private theorem scores_apply (qg kg : FVec Ideal S256x512 .f32) (msk : IVec S256x256 1) (r c : Fin 256) :
    select msk
        (divf (matmul dot_S256x512_S512x256_S256x256_1_0_0_1_n_n (some .fp32) qg
            (transpose S512x256 [1, 0] kg transposes_S256x512_p1_0_S512x256) (constant S256x256 .f32 0x00000000#32))
          (broadcast S256x256 (Scalar.ofBits .f32 0x41B504F3#32)))
        (broadcast S256x256 (Named.named (F := Ideal) κ "neg_big" (φ := .f32) 0xFF333332#32)) (ix2 r c)
      = Scalar.select (msk (ix2 r c)) (Cert.Spec.score (fun e => qg (ix2 r e)) (fun e => kg (ix2 c e))) (⊥ : EReal) := by
  show Scalar.select (msk (ix2 r c))
      (Ideal.div (matmul dot_S256x512_S512x256_S256x256_1_0_0_1_n_n (some .fp32) qg
            (transpose S512x256 [1, 0] kg transposes_S256x512_p1_0_S512x256) (constant S256x256 .f32 0x00000000#32) (ix2 r c))
        (Ideal.ofBits .f32 0x41B504F3#32))
      (Named.named (F := Ideal) κ "neg_big" (φ := .f32) 0xFF333332#32) = _
  rw [qk_apply, neg_big]
  have hs : (∑ k : Fin 512, qg (ix2 r k) * transpose S512x256 [1, 0] kg transposes_S256x512_p1_0_S512x256 (ix2 k c))
      = ∑ e : Fin 512, qg (ix2 r e) * kg (ix2 c e) :=
    Finset.sum_congr rfl fun e _ => congrArg (qg (ix2 r e) * ·) (transpose_ix2_apply kg _ e c)
  rw [hs]
  rfl

/-! ### The softmax along a row -/

/-- The column of row maxima spread back over the rows (the body takes the maximum with −∞ once more). -/
private abbrev maxCol (X : FVec Ideal S256x256 .f32) : FVec Ideal S256x256 .f32 :=
  broadcastTo S256x256
    (shapeCast S256x1
      (maximumf (broadcast S256 (Scalar.ofBits .f32 0xFF800000#32))
        (multiReduction .maximumf [1] S256 X 0xFF800000#32 reduces_S256x256_S256 (.inl rfl) rfl))
      shapeCasts_S256_S256x1)
    broadcasts_S256x1_S256x256

private theorem maxCol_apply (X : FVec Ideal S256x256 .f32) (r c : Fin 256) :
    maxCol X (ix2 r c) = Cert.Spec.rowMax (fun k : Fin 256 => X (ix2 r k)) := by
  refine (col_apply _ r c).trans ?_
  show max (Ideal.ofBits .f32 0xFF800000#32)
      (multiReduction .maximumf [1] S256 X 0xFF800000#32 reduces_S256x256_S256 (.inl rfl) rfl (ix1 r)) = _
  rw [negInf_word, rowMax_apply, max_bot_left]

/-- The exponentials of the scores less their row's maximum. -/
private abbrev expShift (X : FVec Ideal S256x256 .f32) : FVec Ideal S256x256 .f32 := exp (subf X (maxCol X))

private theorem expShift_apply (X : FVec Ideal S256x256 .f32) (r c : Fin 256) :
    expShift X (ix2 r c) = Ideal.exp (X (ix2 r c) - Cert.Spec.rowMax (fun k : Fin 256 => X (ix2 r k))) := by
  show Ideal.exp (X (ix2 r c) - maxCol X (ix2 r c)) = _
  rw [maxCol_apply]

/-- Each exponential over its row's sum of exponentials: the softmax weights. -/
private abbrev weights (X : FVec Ideal S256x256 .f32) : FVec Ideal S256x256 .f32 :=
  divf (expShift X)
    (broadcastTo S256x256
      (shapeCast S256x1
        (multiReduction .add [1] S256 (expShift X) 0x00000000#32 reduces_S256x256_S256 (.inl rfl) rfl)
        shapeCasts_S256_S256x1)
      broadcasts_S256x1_S256x256)

private theorem weights_apply (X : FVec Ideal S256x256 .f32) (r c : Fin 256) :
    weights X (ix2 r c) = Cert.Spec.smax (fun k : Fin 256 => X (ix2 r k)) c := by
  show Ideal.div (expShift X (ix2 r c))
      (broadcastTo S256x256
        (shapeCast S256x1
          (multiReduction .add [1] S256 (expShift X) 0x00000000#32 reduces_S256x256_S256 (.inl rfl) rfl)
          shapeCasts_S256_S256x1)
        broadcasts_S256x1_S256x256 (ix2 r c)) = _
  rw [col_apply, rowSum_apply, expShift_apply]
  unfold Cert.Spec.smax
  exact congrArg (Ideal.div _) (Finset.sum_congr rfl fun k _ => expShift_apply X r k)

variable {F : FTy → Type} [FloatOps F] [Named F]

/-- One group of 16 patches of the local-attention body, as one function of the group's 256 projected query,
    key and value rows, its 16 patch-context rows, the block-diagonal mask and the membership matrix: the
    scaled scores `q · kᵀ`, −∞ where the mask is clear, a softmax along each row, the weighted sum of the
    values, plus the membership matrix times the patch contexts; with a leading unit axis added. -/
def grp (qg kg vg : FVec F S256x512 .f32) (pg : FVec F S16x512 .f32) (msk : IVec S256x256 1) (E : FVec F S256x16 .f32) :
    FVec F S1x256x512 .f32 :=
  have v115 : FVec F S512x256 .f32 := transpose S512x256 [1, 0] kg transposes_S256x512_p1_0_S512x256
  have cst_43 : FVec F S256x256 .f32 := constant S256x256 .f32 0x00000000#32
  have v116 : FVec F S256x256 .f32 := matmul dot_S256x512_S512x256_S256x256_1_0_0_1_n_n (some .fp32) qg v115 cst_43
  have cst_44 : F .f32 := Scalar.ofBits .f32 0x41B504F3#32
  have v117 : FVec F S256x256 .f32 := broadcast S256x256 cst_44
  have v118 : FVec F S256x256 .f32 := divf v116 v117
  have cst_45 : F .f32 := Named.named κ "neg_big" 0xFF333332#32
  have v119 : FVec F S256x256 .f32 := broadcast S256x256 cst_45
  have v120 : FVec F S256x256 .f32 := select msk v118 v119
  have v121 : FVec F S256 .f32 := multiReduction .maximumf [1] S256 v120 0xFF800000#32 reduces_S256x256_S256 (.inl rfl) rfl
  have cst_47 : F .f32 := Scalar.ofBits .f32 0xFF800000#32
  have v122 : FVec F S256 .f32 := broadcast S256 cst_47
  have v123 : FVec F S256 .f32 := maximumf v122 v121
  have v124 : FVec F S256x1 .f32 := shapeCast S256x1 v123 shapeCasts_S256_S256x1
  have v125 : FVec F S256x256 .f32 := broadcastTo S256x256 v124 broadcasts_S256x1_S256x256
  have v126 : FVec F S256x256 .f32 := subf v120 v125
  have v127 : FVec F S256x256 .f32 := exp v126
  have v128 : FVec F S256 .f32 := multiReduction .add [1] S256 v127 0x00000000#32 reduces_S256x256_S256 (.inl rfl) rfl
  have v129 : FVec F S256x1 .f32 := shapeCast S256x1 v128 shapeCasts_S256_S256x1
  have v130 : FVec F S256x256 .f32 := broadcastTo S256x256 v129 broadcasts_S256x1_S256x256
  have v131 : FVec F S256x256 .f32 := divf v127 v130
  have cst_49 : FVec F S256x512 .f32 := constant S256x512 .f32 0x00000000#32
  have v132 : FVec F S256x512 .f32 := matmul dot_S256x256_S256x512_S256x512_1_0_0_1_n_n (some .fp32) v131 vg cst_49
  have cst_50 : FVec F S256x512 .f32 := constant S256x512 .f32 0x00000000#32
  have v134 : FVec F S256x512 .f32 := matmul dot_S256x16_S16x512_S256x512_1_0_0_1_n_n none E pg cst_50
  have v135 : FVec F S256x512 .f32 := addf v132 v134
  shapeCast S1x256x512 v135 shapeCasts_S256x512_S1x256x512

/-- The group at row `r` and feature `d`, at the extended reals: the row's attention over the 256 keys with the
    scores the mask clears at −∞, plus the membership row times the patch contexts. -/
theorem grp_apply (qg kg vg : FVec Ideal S256x512 .f32) (pg : FVec Ideal S16x512 .f32) (msk : IVec S256x256 1) (E : FVec Ideal S256x16 .f32)
    (r : Fin 256) (d : Fin 512) :
    (grp (F := Ideal) qg kg vg pg msk E : S1x256x512.Idx → EReal) (ix3 (0 : Fin 1) r d)
      = Cert.Spec.attnRow (fun c : Fin 256 => Scalar.select (msk (ix2 r c))
            (Cert.Spec.score (fun e => qg (ix2 r e)) (fun e => kg (ix2 c e))) (⊥ : EReal))
          (fun c => vg (ix2 c d))
        + ∑ i : Fin 16, E (ix2 r i) * pg (ix2 i d) := by
  unfold grp
  -- the leading unit axis, then the sum of the two products at (r, d)
  refine (shapeCast_ab_1ab_apply _ shapeCasts_S256x512_S1x256x512 0 r d).trans ?_
  refine (addf_apply _ _ (ix2 r d)).trans ?_
  refine congrArg₂ (· + ·) ?_ (ep_apply none E pg r d)
  -- the weights times the values: a sum over the 256 keys
  refine (pv_apply (some .fp32) _ vg r d).trans ?_
  unfold Cert.Spec.attnRow
  refine Finset.sum_congr rfl fun c _ => congrArg (· * vg (ix2 c d)) ?_
  -- the weight of key c is the softmax of row r's masked scores
  refine (weights_apply _ r c).trans ?_
  exact congrArg (fun s : Fin 256 → EReal => Cert.Spec.smax s c) (funext fun k => scores_apply qg kg msk r k)

end Cert.KernelIdeal.Group

end
-- ==== Proof.LocalBlock.lean ====
import proofs.«415515_j83915071029425_3_alg».proof.Proof.Gen.KernelIdeal.Frame
import proofs.«415515_j83915071029425_3_alg».proof.Proof.Spec
import proofs.«415515_j83915071029425_3_alg».proof.Proof.Mask
import proofs.«415515_j83915071029425_3_alg».proof.Proof.Proj
import proofs.«415515_j83915071029425_3_alg».proof.Proof.Group
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen

namespace Cert.KernelIdeal.LocalBlock

/-! ## Reading the eight stored pieces at an index -/

/-- The buffer's index `(0, j, d)` is local index `(0, r, d)` of the 256-row rectangle that starts at row `off`, when `j = off + r`. -/
private theorem emb_row (off : Nat) (inb : ∀ a, (![0, off, 0] : Fin 3 → Nat) a + S1x256x512.size a ≤ S1x2048x512.size a)
    (r : Fin 256) (d : Fin 512) (j : Fin 2048) (hj : j.val = off + r.val) :
    (ix3 (0 : Fin 1) j d : S1x2048x512.Idx)
      = (Rect.unit (s := S1x2048x512) ![0, off, 0] S1x256x512.size inb).emb (ix3 (0 : Fin 1) r d) := by
  funext a
  match a with
  | ⟨0, _⟩ => exact Fin.ext (by show (0 : Nat) = 0 + 1 * 0; omega)
  | ⟨1, _⟩ => exact Fin.ext (by show j.val = off + 1 * r.val; omega)
  | ⟨2, _⟩ => exact Fin.ext (by show d.val = 0 + 1 * d.val; omega)

/-- A row outside `[off, off + 256)` is not in that rectangle. -/
private theorem not_mem_row (off : Nat) (inb : ∀ a, (![0, off, 0] : Fin 3 → Nat) a + S1x256x512.size a ≤ S1x2048x512.size a)
    (d : Fin 512) (j : Fin 2048) (hj : j.val < off ∨ off + 256 ≤ j.val) :
    (ix3 (0 : Fin 1) j d : S1x2048x512.Idx) ∉ (Rect.unit (s := S1x2048x512) ![0, off, 0] S1x256x512.size inb).set := by
  intro h
  have h1 : off ≤ j.val ∧ j.val < off + 256 := (Rect.mem_set_unit.mp h) (1 : Fin 3)
  omega

/-- A newest piece whose rows miss row `j` is passed over. -/
private theorem skip (off : Nat) (inb : ∀ a, (![0, off, 0] : Fin 3 → Nat) a + S1x256x512.size a ≤ S1x2048x512.size a)
    (w : Vec Ideal S1x256x512 .f32) (L : List (View.Piece (Elt Ideal) S1x2048x512 .f32)) (d : Fin 512) (j : Fin 2048)
    (hj : j.val < off ∨ off + 256 ≤ j.val) :
    View.canon ((⟨Rect.unit (s := S1x2048x512) ![0, off, 0] S1x256x512.size inb, w⟩ : View.Piece (Elt Ideal) S1x2048x512 .f32) :: L) (ix3 (0 : Fin 1) j d)
      = View.canon L (ix3 (0 : Fin 1) j d) :=
  View.canon_cons_of_not_mem _ L (not_mem_row off inb d j hj)

/-- A newest piece whose rows hold row `j = off + r` is read at its local row `r`. -/
private theorem hit (off : Nat) (inb : ∀ a, (![0, off, 0] : Fin 3 → Nat) a + S1x256x512.size a ≤ S1x2048x512.size a)
    (w : Vec Ideal S1x256x512 .f32) (L : List (View.Piece (Elt Ideal) S1x2048x512 .f32)) (r : Fin 256) (d : Fin 512) (j : Fin 2048)
    (hj : j.val = off + r.val) :
    View.canon ((⟨Rect.unit (s := S1x2048x512) ![0, off, 0] S1x256x512.size inb, w⟩ : View.Piece (Elt Ideal) S1x2048x512 .f32) :: L) (ix3 (0 : Fin 1) j d)
      = w (ix3 (0 : Fin 1) r d) := by
  rw [emb_row off inb r d j hj]
  exact View.canon_cons_emb (Rect.unit (s := S1x2048x512) ![0, off, 0] S1x256x512.size inb) w L (ix3 (0 : Fin 1) r d)

/-- The eight stores, last first, read at row `r` of group `g`: the group's own store at its local row. -/
private theorem canon_at (p0 p1 p2 p3 p4 p5 p6 p7 : Vec Ideal S1x256x512 .f32) (g : Fin 8) (r : Fin 256) (d : Fin 512) :
    View.canon ([⟨r1_11, p7⟩, ⟨r1_10, p6⟩, ⟨r1_9, p5⟩, ⟨r1_8, p4⟩, ⟨r1_7, p3⟩, ⟨r1_6, p2⟩, ⟨r1_5, p1⟩, ⟨r1_4, p0⟩] : List (View.Piece (Elt Ideal) S1x2048x512 .f32))
        (ix3 (0 : Fin 1) (Cert.Spec.btok g r) d)
      = (match g with
          | ⟨0, _⟩ => p0 | ⟨1, _⟩ => p1 | ⟨2, _⟩ => p2 | ⟨3, _⟩ => p3
          | ⟨4, _⟩ => p4 | ⟨5, _⟩ => p5 | ⟨6, _⟩ => p6 | ⟨7, _⟩ => p7
          | ⟨n + 8, h⟩ => absurd h (by omega)) (ix3 (0 : Fin 1) r d) := by
  have hr := r.isLt
  match g with
  | ⟨0, _⟩ =>
    have e : (Cert.Spec.btok ⟨0, by omega⟩ r).val = 256 * 0 + r.val := rfl
    exact (skip 1792 _ p7 _ d _ (by omega)).trans <| (skip 1536 _ p6 _ d _ (by omega)).trans <| (skip 1280 _ p5 _ d _ (by omega)).trans <|
      (skip 1024 _ p4 _ d _ (by omega)).trans <| (skip 768 _ p3 _ d _ (by omega)).trans <| (skip 512 _ p2 _ d _ (by omega)).trans <|
      (skip 256 _ p1 _ d _ (by omega)).trans <| hit 0 _ p0 _ r d _ (by omega)
  | ⟨1, _⟩ =>
    have e : (Cert.Spec.btok ⟨1, by omega⟩ r).val = 256 * 1 + r.val := rfl
    exact (skip 1792 _ p7 _ d _ (by omega)).trans <| (skip 1536 _ p6 _ d _ (by omega)).trans <| (skip 1280 _ p5 _ d _ (by omega)).trans <|
      (skip 1024 _ p4 _ d _ (by omega)).trans <| (skip 768 _ p3 _ d _ (by omega)).trans <| (skip 512 _ p2 _ d _ (by omega)).trans <|
      hit 256 _ p1 _ r d _ (by omega)
  | ⟨2, _⟩ =>
    have e : (Cert.Spec.btok ⟨2, by omega⟩ r).val = 256 * 2 + r.val := rfl
    exact (skip 1792 _ p7 _ d _ (by omega)).trans <| (skip 1536 _ p6 _ d _ (by omega)).trans <| (skip 1280 _ p5 _ d _ (by omega)).trans <|
      (skip 1024 _ p4 _ d _ (by omega)).trans <| (skip 768 _ p3 _ d _ (by omega)).trans <| hit 512 _ p2 _ r d _ (by omega)
  | ⟨3, _⟩ =>
    have e : (Cert.Spec.btok ⟨3, by omega⟩ r).val = 256 * 3 + r.val := rfl
    exact (skip 1792 _ p7 _ d _ (by omega)).trans <| (skip 1536 _ p6 _ d _ (by omega)).trans <| (skip 1280 _ p5 _ d _ (by omega)).trans <|
      (skip 1024 _ p4 _ d _ (by omega)).trans <| hit 768 _ p3 _ r d _ (by omega)
  | ⟨4, _⟩ =>
    have e : (Cert.Spec.btok ⟨4, by omega⟩ r).val = 256 * 4 + r.val := rfl
    exact (skip 1792 _ p7 _ d _ (by omega)).trans <| (skip 1536 _ p6 _ d _ (by omega)).trans <| (skip 1280 _ p5 _ d _ (by omega)).trans <|
      hit 1024 _ p4 _ r d _ (by omega)
  | ⟨5, _⟩ =>
    have e : (Cert.Spec.btok ⟨5, by omega⟩ r).val = 256 * 5 + r.val := rfl
    exact (skip 1792 _ p7 _ d _ (by omega)).trans <| (skip 1536 _ p6 _ d _ (by omega)).trans <| hit 1280 _ p5 _ r d _ (by omega)
  | ⟨6, _⟩ =>
    have e : (Cert.Spec.btok ⟨6, by omega⟩ r).val = 256 * 6 + r.val := rfl
    exact (skip 1792 _ p7 _ d _ (by omega)).trans <| hit 1536 _ p6 _ r d _ (by omega)
  | ⟨7, _⟩ =>
    have e : (Cert.Spec.btok ⟨7, by omega⟩ r).val = 256 * 7 + r.val := rfl
    exact hit 1792 _ p7 _ r d _ (by omega)
  | ⟨n + 8, h⟩ => exact absurd h (by omega)

/-! ## One group, from the block's projected rows -/

/-- A select on a decided bit is the conditional. -/
private theorem select_ite {α : Type} (c : Prop) [Decidable c] (a b : α) :
    Scalar.select (if c then 1#1 else 0#1) a b = if c then a else b := by
  by_cases h : c
  · rw [if_pos h, if_pos h]; exact select_one a b
  · rw [if_neg h, if_neg h]; exact select_zero a b

/-- The group function on the slices of the block's rows that start at row `256 g` (patch contexts: at row `16 g`),
    with the block-diagonal mask and the membership matrix, at row `r` and feature `d`: the block's local stage. -/
private theorem grp_slice_apply (q k v : FVec Ideal S2048x512 .f32) (pc : FVec Ideal S128x512 .f32)
    (off offp : Nat) (hs : S2048x512.Slices ![off, 0] S256x512) (hp : S128x512.Slices ![offp, 0] S16x512)
    (g : Fin 8) (hoff : off = 256 * g.val) (hoffp : offp = 16 * g.val) (r : Fin 256) (d : Fin 512) :
    (Group.grp (F := Ideal) (extractStridedSlice S256x512 ![off, 0] q hs) (extractStridedSlice S256x512 ![off, 0] k hs)
        (extractStridedSlice S256x512 ![off, 0] v hs) (extractStridedSlice S16x512 ![offp, 0] pc hp)
        (k1_pay11 k1_pay7 k1_pay8 k1_pay9 k1_pay10) (k1_pay12 (F := Ideal)) : S1x256x512.Idx → EReal) (ix3 (0 : Fin 1) r d)
      = Cert.Spec.localBlkK (fun j o => q (ix2 j o)) (fun j o => k (ix2 j o)) (fun j o => v (ix2 j o))
          (fun i o => pc (ix2 i o)) g r d := by
  have hrow : ∀ (X : FVec Ideal S2048x512 .f32) (c : Fin 256) (e : Fin 512),
      extractStridedSlice S256x512 ![off, 0] X hs (ix2 c e) = X (ix2 (Cert.Spec.btok g c) e) := fun X c e =>
    slice2_axis0_apply off X hs c e (Cert.Spec.btok g c) (by show 256 * g.val + c.val = off + c.val; omega)
  have hpat : ∀ (i : Fin 16) (e : Fin 512),
      extractStridedSlice S16x512 ![offp, 0] pc hp (ix2 i e) = pc (ix2 (Cert.Spec.bpatch g i) e) := fun i e =>
    slice2_axis0_apply offp pc hp i e (Cert.Spec.bpatch g i) (by show 16 * g.val + i.val = offp + i.val; omega)
  refine (Group.grp_apply _ _ _ _ _ _ r d).trans ?_
  unfold Cert.Spec.localBlkK
  refine congrArg₂ (· + ·) (congrArg₂ Cert.Spec.attnRow (funext fun c => ?_) (funext fun c => hrow v c d))
    (Finset.sum_congr rfl fun i _ => ?_)
  · rw [Mask.mask_apply r c, select_ite]
    refine congrArg (fun s => if r.val / 16 = c.val / 16 then s else (⊥ : EReal)) ?_
    exact congrArg₂ Cert.Spec.score (funext fun e => hrow q r e) (funext fun e => hrow k c e)
  · rw [Mask.member_apply r i, hpat i d]

/-! ## The eight stored payloads are the group function on the block's slices

Each is the same sequence of operations, cut into differently many named stages: equal by unfolding the names. -/

/-- The store of group 0 (rows 0 to 255). -/
private theorem pay_g0 (pc : FVec Ideal S128x512 .f32) (q k v : FVec Ideal S2048x512 .f32) (E : FVec Ideal S256x16 .f32) :
    k1_pay16 pc E (k1_pay13 v) (k1_pay14 q k k1_pay7 k1_pay8 k1_pay9 k1_pay10) (k1_pay15 q k k1_pay7 k1_pay8 k1_pay9 k1_pay10)
      = Group.grp (F := Ideal)
        (extractStridedSlice S256x512 ![0, 0] q slices_S2048x512_o0_0_S256x512)
        (extractStridedSlice S256x512 ![0, 0] k slices_S2048x512_o0_0_S256x512)
        (extractStridedSlice S256x512 ![0, 0] v slices_S2048x512_o0_0_S256x512)
        (extractStridedSlice S16x512 ![0, 0] pc slices_S128x512_o0_0_S16x512) (k1_pay11 k1_pay7 k1_pay8 k1_pay9 k1_pay10) E := rfl

/-- The store of group 1 (rows 256 to 511). -/
private theorem pay_g1 (pc : FVec Ideal S128x512 .f32) (q k v : FVec Ideal S2048x512 .f32) (m : IVec S256x256 1) (E : FVec Ideal S256x16 .f32) :
    k1_pay17 pc q k v m E
      = Group.grp (F := Ideal)
        (extractStridedSlice S256x512 ![256, 0] q slices_S2048x512_o256_0_S256x512)
        (extractStridedSlice S256x512 ![256, 0] k slices_S2048x512_o256_0_S256x512)
        (extractStridedSlice S256x512 ![256, 0] v slices_S2048x512_o256_0_S256x512)
        (extractStridedSlice S16x512 ![16, 0] pc slices_S128x512_o16_0_S16x512) m E := rfl

/-- The store of group 2 (rows 512 to 767). -/
private theorem pay_g2 (pc : FVec Ideal S128x512 .f32) (q k v : FVec Ideal S2048x512 .f32) (m : IVec S256x256 1) (E : FVec Ideal S256x16 .f32) :
    k1_pay18 pc q k v m E
      = Group.grp (F := Ideal)
        (extractStridedSlice S256x512 ![512, 0] q slices_S2048x512_o512_0_S256x512)
        (extractStridedSlice S256x512 ![512, 0] k slices_S2048x512_o512_0_S256x512)
        (extractStridedSlice S256x512 ![512, 0] v slices_S2048x512_o512_0_S256x512)
        (extractStridedSlice S16x512 ![32, 0] pc slices_S128x512_o32_0_S16x512) m E := rfl

/-- The store of group 3 (rows 768 to 1023). -/
private theorem pay_g3 (pc : FVec Ideal S128x512 .f32) (q k v : FVec Ideal S2048x512 .f32) (m : IVec S256x256 1) (E : FVec Ideal S256x16 .f32) :
    k1_pay21 pc E (k1_pay19 v) (k1_pay20 q k m)
      = Group.grp (F := Ideal)
        (extractStridedSlice S256x512 ![768, 0] q slices_S2048x512_o768_0_S256x512)
        (extractStridedSlice S256x512 ![768, 0] k slices_S2048x512_o768_0_S256x512)
        (extractStridedSlice S256x512 ![768, 0] v slices_S2048x512_o768_0_S256x512)
        (extractStridedSlice S16x512 ![48, 0] pc slices_S128x512_o48_0_S16x512) m E := rfl

/-- The store of group 4 (rows 1024 to 1279). -/
private theorem pay_g4 (pc : FVec Ideal S128x512 .f32) (q k v : FVec Ideal S2048x512 .f32) (m : IVec S256x256 1) (E : FVec Ideal S256x16 .f32) :
    k1_pay22 pc q k v m E
      = Group.grp (F := Ideal)
        (extractStridedSlice S256x512 ![1024, 0] q slices_S2048x512_o1024_0_S256x512)
        (extractStridedSlice S256x512 ![1024, 0] k slices_S2048x512_o1024_0_S256x512)
        (extractStridedSlice S256x512 ![1024, 0] v slices_S2048x512_o1024_0_S256x512)
        (extractStridedSlice S16x512 ![64, 0] pc slices_S128x512_o64_0_S16x512) m E := rfl

/-- The store of group 5 (rows 1280 to 1535). -/
private theorem pay_g5 (pc : FVec Ideal S128x512 .f32) (q k v : FVec Ideal S2048x512 .f32) (m : IVec S256x256 1) (E : FVec Ideal S256x16 .f32) :
    k1_pay26 pc m E (k1_pay23 q) (k1_pay24 k) (k1_pay25 v)
      = Group.grp (F := Ideal)
        (extractStridedSlice S256x512 ![1280, 0] q slices_S2048x512_o1280_0_S256x512)
        (extractStridedSlice S256x512 ![1280, 0] k slices_S2048x512_o1280_0_S256x512)
        (extractStridedSlice S256x512 ![1280, 0] v slices_S2048x512_o1280_0_S256x512)
        (extractStridedSlice S16x512 ![80, 0] pc slices_S128x512_o80_0_S16x512) m E := rfl

/-- The store of group 6 (rows 1536 to 1791). -/
private theorem pay_g6 (pc : FVec Ideal S128x512 .f32) (q k v : FVec Ideal S2048x512 .f32) (m : IVec S256x256 1) (E : FVec Ideal S256x16 .f32) :
    k1_pay30 pc E (k1_pay27 v) (k1_pay28 q k m) (k1_pay29 q k m)
      = Group.grp (F := Ideal)
        (extractStridedSlice S256x512 ![1536, 0] q slices_S2048x512_o1536_0_S256x512)
        (extractStridedSlice S256x512 ![1536, 0] k slices_S2048x512_o1536_0_S256x512)
        (extractStridedSlice S256x512 ![1536, 0] v slices_S2048x512_o1536_0_S256x512)
        (extractStridedSlice S16x512 ![96, 0] pc slices_S128x512_o96_0_S16x512) m E := rfl

/-- The store of group 7 (rows 1792 to 2047). -/
private theorem pay_g7 (pc : FVec Ideal S128x512 .f32) (q k v : FVec Ideal S2048x512 .f32) (m : IVec S256x256 1) (E : FVec Ideal S256x16 .f32) :
    k1_pay31 pc q k v m E
      = Group.grp (F := Ideal)
        (extractStridedSlice S256x512 ![1792, 0] q slices_S2048x512_o1792_0_S256x512)
        (extractStridedSlice S256x512 ![1792, 0] k slices_S2048x512_o1792_0_S256x512)
        (extractStridedSlice S256x512 ![1792, 0] v slices_S2048x512_o1792_0_S256x512)
        (extractStridedSlice S16x512 ![112, 0] pc slices_S128x512_o112_0_S16x512) m E := rfl

/-! ## The window's buffer after the body -/

/-- The block's projected rows and patch contexts, row by row: the three dense layers and the contexts as given. -/
private theorem rows_eq (x0 x1 x2 : Vec Ideal S1x2048x512 .f32) (x3 : Vec Ideal S1x128x512 .f32) (x4 : Vec Ideal S512x512 .bf16) (x5 : Vec Ideal S1x512 .f32) (x6 : Vec Ideal S512x512 .bf16) (x7 : Vec Ideal S1x512 .f32) (x8 : Vec Ideal S512x512 .bf16) (x9 : Vec Ideal S1x512 .f32) (g : Fin 8) (r : Fin 256) (d : Fin 512) :
    Cert.Spec.localBlkK
        (fun j o => (k1_pay2 (F := Ideal) x0 x4 x5 : S2048x512.Idx → EReal) (ix2 j o))
        (fun j o => (k1_pay3 (F := Ideal) x1 x6 x7 : S2048x512.Idx → EReal) (ix2 j o))
        (fun j o => (k1_pay6 (F := Ideal) (k1_pay4 x2 x8) (k1_pay5 x9) : S2048x512.Idx → EReal) (ix2 j o))
        (fun i o => (k1_pay1 (F := Ideal) x3 : S128x512.Idx → EReal) (ix2 i o)) g r d
      = Cert.Spec.localBlkK
          (fun j => Cert.Spec.lin (fun i => x0 (ix3 (0 : Fin 1) j i)) (fun o i => x4 (ix2 i o)) (fun o => x5 (ix2 (0 : Fin 1) o)))
          (fun j => Cert.Spec.lin (fun i => x1 (ix3 (0 : Fin 1) j i)) (fun o i => x6 (ix2 i o)) (fun o => x7 (ix2 (0 : Fin 1) o)))
          (fun j => Cert.Spec.lin (fun i => x2 (ix3 (0 : Fin 1) j i)) (fun o i => x8 (ix2 i o)) (fun o => x9 (ix2 (0 : Fin 1) o)))
          (fun i d => x3 (ix3 (0 : Fin 1) i d)) g r d := by
  have e1 : (fun (j : Fin 2048) (o : Fin 512) => (k1_pay2 (F := Ideal) x0 x4 x5 : S2048x512.Idx → EReal) (ix2 j o))
      = fun j => Cert.Spec.lin (fun i => x0 (ix3 (0 : Fin 1) j i)) (fun o i => x4 (ix2 i o)) (fun o => x5 (ix2 (0 : Fin 1) o)) :=
    funext fun j => funext fun o => Proj.pay2_apply x0 x4 x5 j o
  have e2 : (fun (j : Fin 2048) (o : Fin 512) => (k1_pay3 (F := Ideal) x1 x6 x7 : S2048x512.Idx → EReal) (ix2 j o))
      = fun j => Cert.Spec.lin (fun i => x1 (ix3 (0 : Fin 1) j i)) (fun o i => x6 (ix2 i o)) (fun o => x7 (ix2 (0 : Fin 1) o)) :=
    funext fun j => funext fun o => Proj.pay3_apply x1 x6 x7 j o
  have e3 : (fun (j : Fin 2048) (o : Fin 512) => (k1_pay6 (F := Ideal) (k1_pay4 x2 x8) (k1_pay5 x9) : S2048x512.Idx → EReal) (ix2 j o))
      = fun j => Cert.Spec.lin (fun i => x2 (ix3 (0 : Fin 1) j i)) (fun o i => x8 (ix2 i o)) (fun o => x9 (ix2 (0 : Fin 1) o)) :=
    funext fun j => funext fun o => Proj.pay6_apply x2 x8 x9 j o
  have e4 : (fun (i : Fin 128) (o : Fin 512) => (k1_pay1 (F := Ideal) x3 : S128x512.Idx → EReal) (ix2 i o))
      = fun i d => x3 (ix3 (0 : Fin 1) i d) :=
    funext fun i => funext fun o => Proj.pay1_apply x3 i o
  rw [e1, e2, e3, e4]

/-- What the local-attention body leaves in the output window's buffer, at row `r` of group `g` and feature `d`. -/
theorem out1_10_apply (x0 x1 x2 : Vec Ideal S1x2048x512 .f32) (x3 : Vec Ideal S1x128x512 .f32) (x4 : Vec Ideal S512x512 .bf16) (x5 : Vec Ideal S1x512 .f32) (x6 : Vec Ideal S512x512 .bf16) (x7 : Vec Ideal S1x512 .f32) (x8 : Vec Ideal S512x512 .bf16) (x9 : Vec Ideal S1x512 .f32) (g : Fin 8) (r : Fin 256) (d : Fin 512) :
    (out1_10 (F := Ideal) x0 x1 x2 x3 x4 x5 x6 x7 x8 x9 : S1x2048x512.Idx → EReal) (ix3 (0 : Fin 1) (Cert.Spec.btok g r) d)
      = Cert.Spec.localBlkK
          (fun j => Cert.Spec.lin (fun i => x0 (ix3 (0 : Fin 1) j i)) (fun o i => x4 (ix2 i o)) (fun o => x5 (ix2 (0 : Fin 1) o)))
          (fun j => Cert.Spec.lin (fun i => x1 (ix3 (0 : Fin 1) j i)) (fun o i => x6 (ix2 i o)) (fun o => x7 (ix2 (0 : Fin 1) o)))
          (fun j => Cert.Spec.lin (fun i => x2 (ix3 (0 : Fin 1) j i)) (fun o i => x8 (ix2 i o)) (fun o => x9 (ix2 (0 : Fin 1) o)))
          (fun i d => x3 (ix3 (0 : Fin 1) i d)) g r d := by
  have hz3 : (![0, 0, 0] : Fin 3 → Nat) = fun _ => 0 := by
    funext a; match a with | ⟨0, _⟩ => rfl | ⟨1, _⟩ => rfl | ⟨2, _⟩ => rfl
  have hz2 : (![0, 0] : Fin 2 → Nat) = fun _ => 0 := by
    funext a; match a with | ⟨0, _⟩ => rfl | ⟨1, _⟩ => rfl
  unfold out1_10
  simp only [View.ld_unit_zero (S := S1x2048x512) hz3, View.ld_unit_zero (S := S1x128x512) hz3,
    View.ld_unit_zero (S := S512x512) hz2, View.ld_unit_zero (S := S1x512) hz2]
  refine (canon_at _ _ _ _ _ _ _ _ g r d).trans ?_
  refine Eq.trans ?_ (rows_eq x0 x1 x2 x3 x4 x5 x6 x7 x8 x9 g r d)
  match g with
  | ⟨0, _⟩ =>
    exact (congrFun (pay_g0 _ _ _ _ _) _).trans
      (grp_slice_apply _ _ _ _ 0 0 _ _ ⟨0, by omega⟩ rfl rfl r d)
  | ⟨1, _⟩ =>
    exact (congrFun (pay_g1 _ _ _ _ _ _) _).trans
      (grp_slice_apply _ _ _ _ 256 16 _ _ ⟨1, by omega⟩ rfl rfl r d)
  | ⟨2, _⟩ =>
    exact (congrFun (pay_g2 _ _ _ _ _ _) _).trans
      (grp_slice_apply _ _ _ _ 512 32 _ _ ⟨2, by omega⟩ rfl rfl r d)
  | ⟨3, _⟩ =>
    exact (congrFun (pay_g3 _ _ _ _ _ _) _).trans
      (grp_slice_apply _ _ _ _ 768 48 _ _ ⟨3, by omega⟩ rfl rfl r d)
  | ⟨4, _⟩ =>
    exact (congrFun (pay_g4 _ _ _ _ _ _) _).trans
      (grp_slice_apply _ _ _ _ 1024 64 _ _ ⟨4, by omega⟩ rfl rfl r d)
  | ⟨5, _⟩ =>
    exact (congrFun (pay_g5 _ _ _ _ _ _) _).trans
      (grp_slice_apply _ _ _ _ 1280 80 _ _ ⟨5, by omega⟩ rfl rfl r d)
  | ⟨6, _⟩ =>
    exact (congrFun (pay_g6 _ _ _ _ _ _) _).trans
      (grp_slice_apply _ _ _ _ 1536 96 _ _ ⟨6, by omega⟩ rfl rfl r d)
  | ⟨7, _⟩ =>
    exact (congrFun (pay_g7 _ _ _ _ _ _) _).trans
      (grp_slice_apply _ _ _ _ 1792 112 _ _ ⟨7, by omega⟩ rfl rfl r d)
  | ⟨n + 8, h⟩ => exact absurd h (by omega)

end Cert.KernelIdeal.LocalBlock

end
-- ==== Proof.Region1Array.lean ====
import proofs.«415515_j83915071029425_3_alg».proof.Proof.Gen.KernelIdeal.Frame
import proofs.«415515_j83915071029425_3_alg».proof.Proof.Spec
import proofs.«415515_j83915071029425_3_alg».proof.Proof.LocalBlock
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen

namespace Cert.KernelIdeal.Region1

variable (V : (c : Dev nD) → (b : Ref sig .tc) → Buf (Elt Ideal) ((c : Thread nD τ).loc b))

/-- The grid point of batch member `b` and block `pb`: the grid is 16 × 2, the block axis the inner one. -/
private def pt (b : Fin 16) (pb : Fin 2) : Fin cfg1.N := ⟨2 * b.val + pb.val, by rw [show cfg1.N = 32 from N_1]; omega⟩

/-! ## The input windows' blocks, read off their arrays

A block's coordinate on an axis is the block index times the block's size plus the coordinate inside the block; the
block indices are decided over the 32 points. -/

private theorem idx0 : ∀ t : Fin cfg1.N, win1_0.index t (0 : Fin 3) = t.val / 2 ∧ win1_0.index t (1 : Fin 3) = t.val % 2 ∧ win1_0.index t (2 : Fin 3) = 0 :=
  (by decide +kernel : ∀ t : Fin grid1.N, _)

/-- Block (b, pb) of window 0 is tokens 2048·pb … of member `b` of its array. -/
private theorem blk0_apply (c : Dev nD) (b : Fin 16) (pb : Fin 2) (j : Fin 2048) (i : Fin 512) :
    (iblk1 V c 0 (pt b pb) : S1x2048x512.Idx → EReal) (ix3 (0 : Fin 1) j i) = (V c main_arg0 : S16x4096x512.Idx → EReal) (ix3 b (Cert.Spec.blkTok pb j) i) := by
  obtain ⟨e0, e1, e2⟩ := idx0 (pt b pb)
  have hb := b.isLt
  have hpb := pb.isLt
  unfold iblk1
  rw [View.read_apply]
  show (V c main_arg0 : S16x4096x512.Idx → EReal) _ = (V c main_arg0 : S16x4096x512.Idx → EReal) _
  congr 1
  funext a
  apply Fin.ext
  match a with
  | ⟨0, _⟩ =>
    show win1_0.index (pt b pb) (0 : Fin 3) * 1 + 1 * 0 = b.val
    rw [e0]; show (2 * b.val + pb.val) / 2 * 1 + 1 * 0 = b.val; omega
  | ⟨1, _⟩ =>
    show win1_0.index (pt b pb) (1 : Fin 3) * 2048 + 1 * j.val = 2048 * pb.val + j.val
    rw [e1]; show (2 * b.val + pb.val) % 2 * 2048 + 1 * j.val = 2048 * pb.val + j.val; omega
  | ⟨2, _⟩ =>
    show win1_0.index (pt b pb) (2 : Fin 3) * 512 + 1 * i.val = i.val
    rw [e2]; omega

private theorem idx1 : ∀ t : Fin cfg1.N, win1_1.index t (0 : Fin 3) = t.val / 2 ∧ win1_1.index t (1 : Fin 3) = t.val % 2 ∧ win1_1.index t (2 : Fin 3) = 0 :=
  (by decide +kernel : ∀ t : Fin grid1.N, _)

/-- Block (b, pb) of window 1 is tokens 2048·pb … of member `b` of its array. -/
private theorem blk1_apply (c : Dev nD) (b : Fin 16) (pb : Fin 2) (j : Fin 2048) (i : Fin 512) :
    (iblk1 V c 1 (pt b pb) : S1x2048x512.Idx → EReal) (ix3 (0 : Fin 1) j i) = (V c main_arg2 : S16x4096x512.Idx → EReal) (ix3 b (Cert.Spec.blkTok pb j) i) := by
  obtain ⟨e0, e1, e2⟩ := idx1 (pt b pb)
  have hb := b.isLt
  have hpb := pb.isLt
  unfold iblk1
  rw [View.read_apply]
  show (V c main_arg2 : S16x4096x512.Idx → EReal) _ = (V c main_arg2 : S16x4096x512.Idx → EReal) _
  congr 1
  funext a
  apply Fin.ext
  match a with
  | ⟨0, _⟩ =>
    show win1_1.index (pt b pb) (0 : Fin 3) * 1 + 1 * 0 = b.val
    rw [e0]; show (2 * b.val + pb.val) / 2 * 1 + 1 * 0 = b.val; omega
  | ⟨1, _⟩ =>
    show win1_1.index (pt b pb) (1 : Fin 3) * 2048 + 1 * j.val = 2048 * pb.val + j.val
    rw [e1]; show (2 * b.val + pb.val) % 2 * 2048 + 1 * j.val = 2048 * pb.val + j.val; omega
  | ⟨2, _⟩ =>
    show win1_1.index (pt b pb) (2 : Fin 3) * 512 + 1 * i.val = i.val
    rw [e2]; omega

private theorem idx2 : ∀ t : Fin cfg1.N, win1_2.index t (0 : Fin 3) = t.val / 2 ∧ win1_2.index t (1 : Fin 3) = t.val % 2 ∧ win1_2.index t (2 : Fin 3) = 0 :=
  (by decide +kernel : ∀ t : Fin grid1.N, _)

/-- Block (b, pb) of window 2 is tokens 2048·pb … of member `b` of its array. -/
private theorem blk2_apply (c : Dev nD) (b : Fin 16) (pb : Fin 2) (j : Fin 2048) (i : Fin 512) :
    (iblk1 V c 2 (pt b pb) : S1x2048x512.Idx → EReal) (ix3 (0 : Fin 1) j i) = (V c main_arg3 : S16x4096x512.Idx → EReal) (ix3 b (Cert.Spec.blkTok pb j) i) := by
  obtain ⟨e0, e1, e2⟩ := idx2 (pt b pb)
  have hb := b.isLt
  have hpb := pb.isLt
  unfold iblk1
  rw [View.read_apply]
  show (V c main_arg3 : S16x4096x512.Idx → EReal) _ = (V c main_arg3 : S16x4096x512.Idx → EReal) _
  congr 1
  funext a
  apply Fin.ext
  match a with
  | ⟨0, _⟩ =>
    show win1_2.index (pt b pb) (0 : Fin 3) * 1 + 1 * 0 = b.val
    rw [e0]; show (2 * b.val + pb.val) / 2 * 1 + 1 * 0 = b.val; omega
  | ⟨1, _⟩ =>
    show win1_2.index (pt b pb) (1 : Fin 3) * 2048 + 1 * j.val = 2048 * pb.val + j.val
    rw [e1]; show (2 * b.val + pb.val) % 2 * 2048 + 1 * j.val = 2048 * pb.val + j.val; omega
  | ⟨2, _⟩ =>
    show win1_2.index (pt b pb) (2 : Fin 3) * 512 + 1 * i.val = i.val
    rw [e2]; omega

private theorem idx3 : ∀ t : Fin cfg1.N, win1_3.index t (0 : Fin 3) = t.val / 2 ∧ win1_3.index t (1 : Fin 3) = t.val % 2 ∧ win1_3.index t (2 : Fin 3) = 0 :=
  (by decide +kernel : ∀ t : Fin grid1.N, _)

/-- Block (b, pb) of the patch contexts is patches 128·pb … of member `b`. -/
private theorem blk3_apply (c : Dev nD) (b : Fin 16) (pb : Fin 2) (p : Fin 128) (i : Fin 512) :
    (iblk1 V c 3 (pt b pb) : S1x128x512.Idx → EReal) (ix3 (0 : Fin 1) p i) = (V c main_v21_0 : S16x256x512.Idx → EReal) (ix3 b (Cert.Spec.blkPatch pb p) i) := by
  obtain ⟨e0, e1, e2⟩ := idx3 (pt b pb)
  have hb := b.isLt
  have hpb := pb.isLt
  unfold iblk1
  rw [View.read_apply]
  show (V c main_v21_0 : S16x256x512.Idx → EReal) _ = (V c main_v21_0 : S16x256x512.Idx → EReal) _
  congr 1
  funext a
  apply Fin.ext
  match a with
  | ⟨0, _⟩ =>
    show win1_3.index (pt b pb) (0 : Fin 3) * 1 + 1 * 0 = b.val
    rw [e0]; show (2 * b.val + pb.val) / 2 * 1 + 1 * 0 = b.val; omega
  | ⟨1, _⟩ =>
    show win1_3.index (pt b pb) (1 : Fin 3) * 128 + 1 * p.val = 128 * pb.val + p.val
    rw [e1]; show (2 * b.val + pb.val) % 2 * 128 + 1 * p.val = 128 * pb.val + p.val; omega
  | ⟨2, _⟩ =>
    show win1_3.index (pt b pb) (2 : Fin 3) * 512 + 1 * i.val = i.val
    rw [e2]; omega

private theorem idx4 : ∀ t : Fin cfg1.N, win1_4.index t (0 : Fin 2) = 0 ∧ win1_4.index t (1 : Fin 2) = 0 :=
  (by decide +kernel : ∀ t : Fin grid1.N, _)

/-- Window 4's block is its whole array at every point. -/
private theorem blk4_apply (c : Dev nD) (t : Fin cfg1.N) (i o : Fin 512) :
    (iblk1 V c 4 t : S512x512.Idx → EReal) (ix2 i o) = (V c main_v24 : S512x512.Idx → EReal) (ix2 i o) := by
  obtain ⟨e0, e1⟩ := idx4 t
  unfold iblk1
  rw [View.read_apply]
  show (V c main_v24 : S512x512.Idx → EReal) _ = (V c main_v24 : S512x512.Idx → EReal) _
  congr 1
  funext a
  apply Fin.ext
  match a with
  | ⟨0, _⟩ =>
    show win1_4.index t (0 : Fin 2) * 512 + 1 * i.val = i.val
    rw [e0]; omega
  | ⟨1, _⟩ =>
    show win1_4.index t (1 : Fin 2) * 512 + 1 * o.val = o.val
    rw [e1]; omega

private theorem idx5 : ∀ t : Fin cfg1.N, win1_5.index t (0 : Fin 2) = 0 ∧ win1_5.index t (1 : Fin 2) = 0 :=
  (by decide +kernel : ∀ t : Fin grid1.N, _)

/-- Window 5's block is its whole array at every point. -/
private theorem blk5_apply (c : Dev nD) (t : Fin cfg1.N) (o : Fin 512) :
    (iblk1 V c 5 t : S1x512.Idx → EReal) (ix2 (0 : Fin 1) o) = (V c main_v29 : S1x512.Idx → EReal) (ix2 (0 : Fin 1) o) := by
  obtain ⟨e0, e1⟩ := idx5 t
  unfold iblk1
  rw [View.read_apply]
  show (V c main_v29 : S1x512.Idx → EReal) _ = (V c main_v29 : S1x512.Idx → EReal) _
  congr 1
  funext a
  apply Fin.ext
  match a with
  | ⟨0, _⟩ =>
    show win1_5.index t (0 : Fin 2) * 1 + 1 * 0 = 0
    rw [e0]
  | ⟨1, _⟩ =>
    show win1_5.index t (1 : Fin 2) * 512 + 1 * o.val = o.val
    rw [e1]; omega

private theorem idx6 : ∀ t : Fin cfg1.N, win1_6.index t (0 : Fin 2) = 0 ∧ win1_6.index t (1 : Fin 2) = 0 :=
  (by decide +kernel : ∀ t : Fin grid1.N, _)

/-- Window 6's block is its whole array at every point. -/
private theorem blk6_apply (c : Dev nD) (t : Fin cfg1.N) (i o : Fin 512) :
    (iblk1 V c 6 t : S512x512.Idx → EReal) (ix2 i o) = (V c main_v26 : S512x512.Idx → EReal) (ix2 i o) := by
  obtain ⟨e0, e1⟩ := idx6 t
  unfold iblk1
  rw [View.read_apply]
  show (V c main_v26 : S512x512.Idx → EReal) _ = (V c main_v26 : S512x512.Idx → EReal) _
  congr 1
  funext a
  apply Fin.ext
  match a with
  | ⟨0, _⟩ =>
    show win1_6.index t (0 : Fin 2) * 512 + 1 * i.val = i.val
    rw [e0]; omega
  | ⟨1, _⟩ =>
    show win1_6.index t (1 : Fin 2) * 512 + 1 * o.val = o.val
    rw [e1]; omega

private theorem idx7 : ∀ t : Fin cfg1.N, win1_7.index t (0 : Fin 2) = 0 ∧ win1_7.index t (1 : Fin 2) = 0 :=
  (by decide +kernel : ∀ t : Fin grid1.N, _)

/-- Window 7's block is its whole array at every point. -/
private theorem blk7_apply (c : Dev nD) (t : Fin cfg1.N) (o : Fin 512) :
    (iblk1 V c 7 t : S1x512.Idx → EReal) (ix2 (0 : Fin 1) o) = (V c main_v30 : S1x512.Idx → EReal) (ix2 (0 : Fin 1) o) := by
  obtain ⟨e0, e1⟩ := idx7 t
  unfold iblk1
  rw [View.read_apply]
  show (V c main_v30 : S1x512.Idx → EReal) _ = (V c main_v30 : S1x512.Idx → EReal) _
  congr 1
  funext a
  apply Fin.ext
  match a with
  | ⟨0, _⟩ =>
    show win1_7.index t (0 : Fin 2) * 1 + 1 * 0 = 0
    rw [e0]
  | ⟨1, _⟩ =>
    show win1_7.index t (1 : Fin 2) * 512 + 1 * o.val = o.val
    rw [e1]; omega

private theorem idx8 : ∀ t : Fin cfg1.N, win1_8.index t (0 : Fin 2) = 0 ∧ win1_8.index t (1 : Fin 2) = 0 :=
  (by decide +kernel : ∀ t : Fin grid1.N, _)

/-- Window 8's block is its whole array at every point. -/
private theorem blk8_apply (c : Dev nD) (t : Fin cfg1.N) (i o : Fin 512) :
    (iblk1 V c 8 t : S512x512.Idx → EReal) (ix2 i o) = (V c main_v28 : S512x512.Idx → EReal) (ix2 i o) := by
  obtain ⟨e0, e1⟩ := idx8 t
  unfold iblk1
  rw [View.read_apply]
  show (V c main_v28 : S512x512.Idx → EReal) _ = (V c main_v28 : S512x512.Idx → EReal) _
  congr 1
  funext a
  apply Fin.ext
  match a with
  | ⟨0, _⟩ =>
    show win1_8.index t (0 : Fin 2) * 512 + 1 * i.val = i.val
    rw [e0]; omega
  | ⟨1, _⟩ =>
    show win1_8.index t (1 : Fin 2) * 512 + 1 * o.val = o.val
    rw [e1]; omega

private theorem idx9 : ∀ t : Fin cfg1.N, win1_9.index t (0 : Fin 2) = 0 ∧ win1_9.index t (1 : Fin 2) = 0 :=
  (by decide +kernel : ∀ t : Fin grid1.N, _)

/-- Window 9's block is its whole array at every point. -/
private theorem blk9_apply (c : Dev nD) (t : Fin cfg1.N) (o : Fin 512) :
    (iblk1 V c 9 t : S1x512.Idx → EReal) (ix2 (0 : Fin 1) o) = (V c main_v31 : S1x512.Idx → EReal) (ix2 (0 : Fin 1) o) := by
  obtain ⟨e0, e1⟩ := idx9 t
  unfold iblk1
  rw [View.read_apply]
  show (V c main_v31 : S1x512.Idx → EReal) _ = (V c main_v31 : S1x512.Idx → EReal) _
  congr 1
  funext a
  apply Fin.ext
  match a with
  | ⟨0, _⟩ =>
    show win1_9.index t (0 : Fin 2) * 1 + 1 * 0 = 0
    rw [e0]
  | ⟨1, _⟩ =>
    show win1_9.index t (1 : Fin 2) * 512 + 1 * o.val = o.val
    rw [e1]; omega

/-! ## The result window: each point writes its own block -/

private theorem idx10 : ∀ t : Fin cfg1.N, win1_10.index t (0 : Fin 3) = t.val / 2 ∧ win1_10.index t (1 : Fin 3) = t.val % 2 ∧ win1_10.index t (2 : Fin 3) = 0 :=
  (by decide +kernel : ∀ t : Fin grid1.N, _)

/-- Distinct points write distinct blocks: the block index (t / 2, t % 2, 0) determines t. -/
private theorem idx_inj10 (t t' : Fin cfg1.N) (h : win1_10.index t = win1_10.index t') : t = t' := by
  obtain ⟨e0, e1, _⟩ := idx10 t
  obtain ⟨e0', e1', _⟩ := idx10 t'
  have h0 : win1_10.index t (0 : Fin 3) = win1_10.index t' (0 : Fin 3) := congrFun h 0
  have h1 : win1_10.index t (1 : Fin 3) = win1_10.index t' (1 : Fin 3) := congrFun h 1
  apply Fin.ext
  omega

private theorem disjoint10 : ∀ t t' : Fin cfg1.N, (cfg1.win 10).flush t = true → (cfg1.win 10).flush t' = true → t ≠ t' →
    Disjoint ((cfg1.win 10).blk t).view.set ((cfg1.win 10).blk t').view.set :=
  fun t t' _ _ hne => (cfg1.win 10).disjoint_blk fun h => hne (idx_inj10 t t' h)

/-- An element under point `t`'s block ends at what the body left in the staging buffer at `t`: no other point writes there. -/
private theorem out_at (c : Dev nD) (t : Fin cfg1.N) (y : S1x2048x512.Idx) :
    ((dat1 (F := Ideal) V c).arrAt 10 cfg1.N : S16x4096x512.Idx → EReal) (((cfg1.win 10).blk t).view.emb y)
      = (out1_10 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) : S1x2048x512.Idx → EReal) y := by
  refine ((dat1 (F := Ideal) V c).arrAt_emb_eq_flushed 10 disjoint10 t (flush1_10 t) y).trans ?_
  show ((cfg1.win 10).cut (grid1.coords t) ((dat1 (F := Ideal) V c).after 10 t)) y = _
  rw [after1_10]
  rfl

/-- Row `r` of group `g` of block `pb` of member `b`, in the array, is that row of the block of the point (b, pb). -/
private theorem emb10 (b : Fin 16) (pb : Fin 2) (j : Fin 2048) (d : Fin 512) :
    (ix3 b (Cert.Spec.blkTok pb j) d : S16x4096x512.Idx) = ((cfg1.win 10).blk (pt b pb)).view.emb (ix3 (0 : Fin 1) j d) := by
  obtain ⟨e0, e1, e2⟩ := idx10 (pt b pb)
  have hb := b.isLt
  have hpb := pb.isLt
  funext a
  apply Fin.ext
  match a with
  | ⟨0, _⟩ =>
    show b.val = win1_10.index (pt b pb) (0 : Fin 3) * 1 + 1 * 0
    rw [e0]; show b.val = (2 * b.val + pb.val) / 2 * 1 + 1 * 0; omega
  | ⟨1, _⟩ =>
    show 2048 * pb.val + j.val = win1_10.index (pt b pb) (1 : Fin 3) * 2048 + 1 * j.val
    rw [e1]; show 2048 * pb.val + j.val = (2 * b.val + pb.val) % 2 * 2048 + 1 * j.val; omega
  | ⟨2, _⟩ =>
    show d.val = win1_10.index (pt b pb) (2 : Fin 3) * 512 + 1 * d.val
    rw [e2]; omega

/-- The result array after region 1, at batch member `b`, row `r` of group `g` of the block `pb` of 2048
    tokens, feature `d`: the block's local stage, read off the arrays the region found (block (b, pb) of
    each activation window is tokens 2048·pb … of member `b`; of the patch contexts, patches 128·pb …). -/
theorem out_apply (c : Dev nD) (b : Fin 16) (pb : Fin 2) (g : Fin 8) (r : Fin 256) (d : Fin 512) :
    ((dat1 (F := Ideal) V c).arrAt 10 cfg1.N : S16x4096x512.Idx → EReal) (ix3 b (Cert.Spec.blkTok pb (Cert.Spec.btok g r)) d)
      = Cert.Spec.localBlkK
          (fun j => Cert.Spec.lin (fun i => (V c main_arg0 : S16x4096x512.Idx → EReal) (ix3 b (Cert.Spec.blkTok pb j) i))
            (fun o i => (V c main_v24 : S512x512.Idx → EReal) (ix2 i o)) (fun o => (V c main_v29 : S1x512.Idx → EReal) (ix2 (0 : Fin 1) o)))
          (fun j => Cert.Spec.lin (fun i => (V c main_arg2 : S16x4096x512.Idx → EReal) (ix3 b (Cert.Spec.blkTok pb j) i))
            (fun o i => (V c main_v26 : S512x512.Idx → EReal) (ix2 i o)) (fun o => (V c main_v30 : S1x512.Idx → EReal) (ix2 (0 : Fin 1) o)))
          (fun j => Cert.Spec.lin (fun i => (V c main_arg3 : S16x4096x512.Idx → EReal) (ix3 b (Cert.Spec.blkTok pb j) i))
            (fun o i => (V c main_v28 : S512x512.Idx → EReal) (ix2 i o)) (fun o => (V c main_v31 : S1x512.Idx → EReal) (ix2 (0 : Fin 1) o)))
          (fun i d => (V c main_v21_0 : S16x256x512.Idx → EReal) (ix3 b (Cert.Spec.blkPatch pb i) d)) g r d := by
  rw [emb10 b pb (Cert.Spec.btok g r) d, out_at V c (pt b pb) (ix3 (0 : Fin 1) (Cert.Spec.btok g r) d)]
  refine (LocalBlock.out1_10_apply _ _ _ _ _ _ _ _ _ _ g r d).trans ?_
  simp only [blk0_apply V c b pb, blk1_apply V c b pb, blk2_apply V c b pb, blk3_apply V c b pb, blk4_apply V c (pt b pb),
    blk5_apply V c (pt b pb), blk6_apply V c (pt b pb), blk7_apply V c (pt b pb), blk8_apply V c (pt b pb), blk9_apply V c (pt b pb)]

end Cert.KernelIdeal.Region1

end
-- ==== Proof.HostGlue.lean ====
import proofs.«415515_j83915071029425_3_alg».proof.Proof.Gen.KernelIdeal.Frame
import proofs.«415515_j83915071029425_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen

namespace Cert.KernelIdeal.HostGlue

variable (m : (ℓ : Loc nD τ sig) → Buf (Elt Ideal) ℓ) (ρ : Dev nD → PrngReg)

/-! ## The operations' composed terms, read at an index -/

/-- The mean of each patch's 16 tokens as the host computes it: the [16, 4096, 512] array regrouped as
    [16, 256, 16, 512], summed over the token axis from zero, divided by the constant 16. -/
private def meanTerm (x : S16x4096x512.Idx → EReal) : S16x256x512.Idx → EReal :=
  Host.divf (F := Ideal) (φ := .f32)
    (Host.reduceAdd (shapeCast S16x256x16x512 x shapeCasts_S16x4096x512_S16x256x16x512 : FVec Ideal S16x256x16x512 .f32)
      (constant (F := Ideal) S_ .f32 0x00000000#32) reducesTo_S16x256x16x512_S16x256x512_d2 h_S_)
    (broadcastInDim S16x256x512 ![] bcast_S_S16x256x512 (constant (F := Ideal) S_ .f32 0x41800000#32))

/-- At (b, p, i) that term is the patch mean: the quotient reads elementwise, the sum over the dropped axis is
    0 + ∑ₛ of the regrouped array at (b, p, s, i), and (b, p, s, i) has the row-major position of (b, 16·p + s, i). -/
private theorem meanTerm_apply (x : S16x4096x512.Idx → EReal) (b : Fin 16) (p : Fin 256) (i : Fin 512) :
    meanTerm x (ix3 b p i) = Cert.Spec.pmean (fun b n k => x (ix3 b n k)) b p i := by
  unfold meanTerm
  rw [hostDivf_apply, hostReduceAdd_apply,
    Ideal.hostReduceAdd_single reducesTo_S16x256x16x512_S16x256x512_d2 (by decide), broadcastInDim_scalar_apply]
  unfold Cert.Spec.pmean
  refine congrArg₂ Ideal.div ?_ rfl
  rw [constant_apply, Ideal.ofBits_zero_f32, zero_add]
  refine Finset.sum_congr rfl fun k _ => ?_
  refine shapeCast_apply x _ _ (ix3 b (Cert.Spec.tok p k) i) ?_
  rw [Shape.rowMajor_val_three, Shape.rowMajor_val_four]
  show (b.val * 4096 + (16 * p.val + k.val)) * 512 + i.val = ((b.val * 256 + p.val) * 16 + k.val) * 512 + i.val
  omega

/-- A weight matrix as a region finds it: transposed, then narrowed to bf16 (no change of value over the extended reals). -/
private def wT (x : S512x512.Idx → EReal) : S512x512.Idx → EReal :=
  (truncf (F := Ideal) .bf16 (transpose S512x512 [1, 0] x transposes_S512x512_S512x512_1_0 : FVec Ideal S512x512 .f32) bitsLt_bf16_f32 : FVec Ideal S512x512 .bf16)

private theorem wT_apply (x : S512x512.Idx → EReal) (i o : Fin 512) : wT x (ix2 i o) = x (ix2 o i) := by
  unfold wT
  rw [truncf_apply]
  exact transpose_ix2_apply x transposes_S512x512_S512x512_1_0 i o

/-- A bias row as a region finds it: the [512] vector as a [1, 512] array. -/
private def bRow (x : S512.Idx → EReal) : S1x512.Idx → EReal :=
  shapeCast S1x512 x shapeCasts_S512_S1x512

private theorem bRow_apply (x : S512.Idx → EReal) (o : Fin 512) : bRow x (ix2 (0 : Fin 1) o) = x (ix1 o) := by
  unfold bRow
  exact shapeCast_a_1a_apply x shapeCasts_S512_S1x512 0 o

/-! ## The first stretch of operations, over any entry contents -/

section Ops0
variable (Vv : Valuation τ sig (Elt Ideal))

private theorem ops0_v3 : (StableHlo.after hostOps0 Vv (Proc.devRef .tc main_v3) : S16x256x512.Idx → EReal)
    = meanTerm (Vv (Proc.devRef .tc main_arg0)) := by
  dsimp only [hostOps0]; after_results; rfl
private theorem ops0_v7 : (StableHlo.after hostOps0 Vv (Proc.devRef .tc main_v7) : S16x256x512.Idx → EReal)
    = meanTerm (Vv (Proc.devRef .tc main_arg1)) := by
  dsimp only [hostOps0]; after_results; rfl
private theorem ops0_v11 : (StableHlo.after hostOps0 Vv (Proc.devRef .tc main_v11) : S16x256x512.Idx → EReal)
    = meanTerm (Vv (Proc.devRef .tc main_arg3)) := by
  dsimp only [hostOps0]; after_results; rfl
private theorem ops0_v13 : (StableHlo.after hostOps0 Vv (Proc.devRef .tc main_v13) : S512x512.Idx → EReal)
    = wT (Vv (Proc.devRef .tc main_arg4)) := by
  dsimp only [hostOps0]; after_results; rfl
private theorem ops0_v15 : (StableHlo.after hostOps0 Vv (Proc.devRef .tc main_v15) : S512x512.Idx → EReal)
    = wT (Vv (Proc.devRef .tc main_arg6)) := by
  dsimp only [hostOps0]; after_results; rfl
private theorem ops0_v17 : (StableHlo.after hostOps0 Vv (Proc.devRef .tc main_v17) : S512x512.Idx → EReal)
    = wT (Vv (Proc.devRef .tc main_arg8)) := by
  dsimp only [hostOps0]; after_results; rfl
private theorem ops0_v18 : (StableHlo.after hostOps0 Vv (Proc.devRef .tc main_v18) : S1x512.Idx → EReal)
    = bRow (Vv (Proc.devRef .tc main_arg5)) := by
  dsimp only [hostOps0]; after_results; rfl
private theorem ops0_v19 : (StableHlo.after hostOps0 Vv (Proc.devRef .tc main_v19) : S1x512.Idx → EReal)
    = bRow (Vv (Proc.devRef .tc main_arg7)) := by
  dsimp only [hostOps0]; after_results; rfl
private theorem ops0_v20 : (StableHlo.after hostOps0 Vv (Proc.devRef .tc main_v20) : S1x512.Idx → EReal)
    = bRow (Vv (Proc.devRef .tc main_arg9)) := by
  dsimp only [hostOps0]; after_results; rfl

end Ops0

/-! ## What region 0 finds: the patch means, the transposed weights, the bias rows -/

theorem V1_v3 (c : Dev nD) (b : Fin 16) (p : Fin 256) (i : Fin 512) :
    (V1 m ρ c main_v3 : S16x256x512.Idx → EReal) (ix3 b p i)
      = Cert.Spec.pmean (fun b n k => (m ((c : Thread nD τ).loc main_arg0) : S16x4096x512.Idx → EReal) (ix3 b n k)) b p i :=
  (congrFun (ops0_v3 (W0 m ρ c)) _).trans (meanTerm_apply _ b p i)

theorem V1_v7 (c : Dev nD) (b : Fin 16) (p : Fin 256) (i : Fin 512) :
    (V1 m ρ c main_v7 : S16x256x512.Idx → EReal) (ix3 b p i)
      = Cert.Spec.pmean (fun b n k => (m ((c : Thread nD τ).loc main_arg1) : S16x4096x512.Idx → EReal) (ix3 b n k)) b p i :=
  (congrFun (ops0_v7 (W0 m ρ c)) _).trans (meanTerm_apply _ b p i)

theorem V1_v11 (c : Dev nD) (b : Fin 16) (p : Fin 256) (i : Fin 512) :
    (V1 m ρ c main_v11 : S16x256x512.Idx → EReal) (ix3 b p i)
      = Cert.Spec.pmean (fun b n k => (m ((c : Thread nD τ).loc main_arg3) : S16x4096x512.Idx → EReal) (ix3 b n k)) b p i :=
  (congrFun (ops0_v11 (W0 m ρ c)) _).trans (meanTerm_apply _ b p i)

theorem V1_v13 (c : Dev nD) (i o : Fin 512) :
    (V1 m ρ c main_v13 : S512x512.Idx → EReal) (ix2 i o) = (m ((c : Thread nD τ).loc main_arg4) : S512x512.Idx → EReal) (ix2 o i) :=
  (congrFun (ops0_v13 (W0 m ρ c)) _).trans (wT_apply _ i o)

theorem V1_v15 (c : Dev nD) (i o : Fin 512) :
    (V1 m ρ c main_v15 : S512x512.Idx → EReal) (ix2 i o) = (m ((c : Thread nD τ).loc main_arg6) : S512x512.Idx → EReal) (ix2 o i) :=
  (congrFun (ops0_v15 (W0 m ρ c)) _).trans (wT_apply _ i o)

theorem V1_v17 (c : Dev nD) (i o : Fin 512) :
    (V1 m ρ c main_v17 : S512x512.Idx → EReal) (ix2 i o) = (m ((c : Thread nD τ).loc main_arg8) : S512x512.Idx → EReal) (ix2 o i) :=
  (congrFun (ops0_v17 (W0 m ρ c)) _).trans (wT_apply _ i o)

theorem V1_v18 (c : Dev nD) (o : Fin 512) :
    (V1 m ρ c main_v18 : S1x512.Idx → EReal) (ix2 (0 : Fin 1) o) = (m ((c : Thread nD τ).loc main_arg5) : S512.Idx → EReal) (ix1 o) :=
  (congrFun (ops0_v18 (W0 m ρ c)) _).trans (bRow_apply _ o)

theorem V1_v19 (c : Dev nD) (o : Fin 512) :
    (V1 m ρ c main_v19 : S1x512.Idx → EReal) (ix2 (0 : Fin 1) o) = (m ((c : Thread nD τ).loc main_arg7) : S512.Idx → EReal) (ix1 o) :=
  (congrFun (ops0_v19 (W0 m ρ c)) _).trans (bRow_apply _ o)

theorem V1_v20 (c : Dev nD) (o : Fin 512) :
    (V1 m ρ c main_v20 : S1x512.Idx → EReal) (ix2 (0 : Fin 1) o) = (m ((c : Thread nD τ).loc main_arg9) : S512.Idx → EReal) (ix1 o) :=
  (congrFun (ops0_v20 (W0 m ρ c)) _).trans (bRow_apply _ o)

/-! ## Buffers a stretch of operations leaves alone -/

/-- A buffer that none of the listed operations writes keeps its contents: the written buffer of each operation is a
    different reference. -/
local macro "keeps " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.reshape_writes, Finset.mem_singleton]
             repeat' apply And.intro
             all_goals exact StableHlo.devRef_ne_of_ne (by decide)))

section Keep
variable (Vv : Valuation τ sig (Elt Ideal))

private theorem ops0_arg0 : StableHlo.after hostOps0 Vv (Proc.devRef .tc main_arg0) = Vv (Proc.devRef .tc main_arg0) := by keeps hostOps0
private theorem ops0_arg2 : StableHlo.after hostOps0 Vv (Proc.devRef .tc main_arg2) = Vv (Proc.devRef .tc main_arg2) := by keeps hostOps0
private theorem ops0_arg3 : StableHlo.after hostOps0 Vv (Proc.devRef .tc main_arg3) = Vv (Proc.devRef .tc main_arg3) := by keeps hostOps0
private theorem ops0_arg10 : StableHlo.after hostOps0 Vv (Proc.devRef .tc main_arg10) = Vv (Proc.devRef .tc main_arg10) := by keeps hostOps0
private theorem ops0_arg11 : StableHlo.after hostOps0 Vv (Proc.devRef .tc main_arg11) = Vv (Proc.devRef .tc main_arg11) := by keeps hostOps0
private theorem ops0_arg12 : StableHlo.after hostOps0 Vv (Proc.devRef .tc main_arg12) = Vv (Proc.devRef .tc main_arg12) := by keeps hostOps0
private theorem ops0_arg13 : StableHlo.after hostOps0 Vv (Proc.devRef .tc main_arg13) = Vv (Proc.devRef .tc main_arg13) := by keeps hostOps0
private theorem ops0_arg14 : StableHlo.after hostOps0 Vv (Proc.devRef .tc main_arg14) = Vv (Proc.devRef .tc main_arg14) := by keeps hostOps0
private theorem ops0_arg15 : StableHlo.after hostOps0 Vv (Proc.devRef .tc main_arg15) = Vv (Proc.devRef .tc main_arg15) := by keeps hostOps0

private theorem ops1_arg0 : StableHlo.after hostOps1 Vv (Proc.devRef .tc main_arg0) = Vv (Proc.devRef .tc main_arg0) := by keeps hostOps1
private theorem ops1_arg2 : StableHlo.after hostOps1 Vv (Proc.devRef .tc main_arg2) = Vv (Proc.devRef .tc main_arg2) := by keeps hostOps1
private theorem ops1_arg3 : StableHlo.after hostOps1 Vv (Proc.devRef .tc main_arg3) = Vv (Proc.devRef .tc main_arg3) := by keeps hostOps1
private theorem ops1_v21_0 : StableHlo.after hostOps1 Vv (Proc.devRef .tc main_v21_0) = Vv (Proc.devRef .tc main_v21_0) := by keeps hostOps1

/-! ## The second stretch of operations, over any entry contents -/

private theorem ops1_v22 : (StableHlo.after hostOps1 Vv (Proc.devRef .tc main_v22) : S16x256.Idx → EReal)
    = shapeCast S16x256 (Vv (Proc.devRef .tc main_v21_1) : S16x1x256.Idx → EReal) shapeCasts_S16x1x256_S16x256 := by
  dsimp only [hostOps1]; after_results; rfl
private theorem ops1_v24 : (StableHlo.after hostOps1 Vv (Proc.devRef .tc main_v24) : S512x512.Idx → EReal)
    = wT (Vv (Proc.devRef .tc main_arg10)) := by
  dsimp only [hostOps1]; after_results; rfl
private theorem ops1_v26 : (StableHlo.after hostOps1 Vv (Proc.devRef .tc main_v26) : S512x512.Idx → EReal)
    = wT (Vv (Proc.devRef .tc main_arg12)) := by
  dsimp only [hostOps1]; after_results; rfl
private theorem ops1_v28 : (StableHlo.after hostOps1 Vv (Proc.devRef .tc main_v28) : S512x512.Idx → EReal)
    = wT (Vv (Proc.devRef .tc main_arg14)) := by
  dsimp only [hostOps1]; after_results; rfl
private theorem ops1_v29 : (StableHlo.after hostOps1 Vv (Proc.devRef .tc main_v29) : S1x512.Idx → EReal)
    = bRow (Vv (Proc.devRef .tc main_arg11)) := by
  dsimp only [hostOps1]; after_results; rfl
private theorem ops1_v30 : (StableHlo.after hostOps1 Vv (Proc.devRef .tc main_v30) : S1x512.Idx → EReal)
    = bRow (Vv (Proc.devRef .tc main_arg13)) := by
  dsimp only [hostOps1]; after_results; rfl
private theorem ops1_v31 : (StableHlo.after hostOps1 Vv (Proc.devRef .tc main_v31) : S1x512.Idx → EReal)
    = bRow (Vv (Proc.devRef .tc main_arg15)) := by
  dsimp only [hostOps1]; after_results; rfl

end Keep

/-! ## An argument at region 0's exit is the argument as launched: region 0 has no window on it and the first stretch
    does not write it -/

private theorem W2_arg0 (c : Dev nD) : W2 m ρ c (Proc.devRef .tc main_arg0) = m ((c : Thread nD τ).loc main_arg0) :=
  (W2_of_ne m ρ c main_arg0 (by decide)).trans (ops0_arg0 (W0 m ρ c))
private theorem W2_arg2 (c : Dev nD) : W2 m ρ c (Proc.devRef .tc main_arg2) = m ((c : Thread nD τ).loc main_arg2) :=
  (W2_of_ne m ρ c main_arg2 (by decide)).trans (ops0_arg2 (W0 m ρ c))
private theorem W2_arg3 (c : Dev nD) : W2 m ρ c (Proc.devRef .tc main_arg3) = m ((c : Thread nD τ).loc main_arg3) :=
  (W2_of_ne m ρ c main_arg3 (by decide)).trans (ops0_arg3 (W0 m ρ c))
private theorem W2_arg10 (c : Dev nD) : W2 m ρ c (Proc.devRef .tc main_arg10) = m ((c : Thread nD τ).loc main_arg10) :=
  (W2_of_ne m ρ c main_arg10 (by decide)).trans (ops0_arg10 (W0 m ρ c))
private theorem W2_arg11 (c : Dev nD) : W2 m ρ c (Proc.devRef .tc main_arg11) = m ((c : Thread nD τ).loc main_arg11) :=
  (W2_of_ne m ρ c main_arg11 (by decide)).trans (ops0_arg11 (W0 m ρ c))
private theorem W2_arg12 (c : Dev nD) : W2 m ρ c (Proc.devRef .tc main_arg12) = m ((c : Thread nD τ).loc main_arg12) :=
  (W2_of_ne m ρ c main_arg12 (by decide)).trans (ops0_arg12 (W0 m ρ c))
private theorem W2_arg13 (c : Dev nD) : W2 m ρ c (Proc.devRef .tc main_arg13) = m ((c : Thread nD τ).loc main_arg13) :=
  (W2_of_ne m ρ c main_arg13 (by decide)).trans (ops0_arg13 (W0 m ρ c))
private theorem W2_arg14 (c : Dev nD) : W2 m ρ c (Proc.devRef .tc main_arg14) = m ((c : Thread nD τ).loc main_arg14) :=
  (W2_of_ne m ρ c main_arg14 (by decide)).trans (ops0_arg14 (W0 m ρ c))
private theorem W2_arg15 (c : Dev nD) : W2 m ρ c (Proc.devRef .tc main_arg15) = m ((c : Thread nD τ).loc main_arg15) :=
  (W2_of_ne m ρ c main_arg15 (by decide)).trans (ops0_arg15 (W0 m ρ c))

/-! ## What region 1 finds: three arguments as launched, region 0's patch contexts, the transposed weights, the bias rows -/

theorem V3_arg0 (c : Dev nD) : V3 m ρ c main_arg0 = m ((c : Thread nD τ).loc main_arg0) :=
  (ops1_arg0 (W2 m ρ c)).trans (W2_arg0 m ρ c)
theorem V3_arg2 (c : Dev nD) : V3 m ρ c main_arg2 = m ((c : Thread nD τ).loc main_arg2) :=
  (ops1_arg2 (W2 m ρ c)).trans (W2_arg2 m ρ c)
theorem V3_arg3 (c : Dev nD) : V3 m ρ c main_arg3 = m ((c : Thread nD τ).loc main_arg3) :=
  (ops1_arg3 (W2 m ρ c)).trans (W2_arg3 m ρ c)
theorem V3_v21_0 (c : Dev nD) : V3 m ρ c main_v21_0 = (dat0 (V1 m ρ) c).arrAt 9 cfg0.N :=
  (ops1_v21_0 (W2 m ρ c)).trans (W2_arr m ρ c 9)
theorem V3_v24 (c : Dev nD) (i o : Fin 512) :
    (V3 m ρ c main_v24 : S512x512.Idx → EReal) (ix2 i o) = (m ((c : Thread nD τ).loc main_arg10) : S512x512.Idx → EReal) (ix2 o i) :=
  (congrFun (ops1_v24 (W2 m ρ c)) _).trans ((wT_apply _ i o).trans (congrFun (W2_arg10 m ρ c) _))

theorem V3_v26 (c : Dev nD) (i o : Fin 512) :
    (V3 m ρ c main_v26 : S512x512.Idx → EReal) (ix2 i o) = (m ((c : Thread nD τ).loc main_arg12) : S512x512.Idx → EReal) (ix2 o i) :=
  (congrFun (ops1_v26 (W2 m ρ c)) _).trans ((wT_apply _ i o).trans (congrFun (W2_arg12 m ρ c) _))

theorem V3_v28 (c : Dev nD) (i o : Fin 512) :
    (V3 m ρ c main_v28 : S512x512.Idx → EReal) (ix2 i o) = (m ((c : Thread nD τ).loc main_arg14) : S512x512.Idx → EReal) (ix2 o i) :=
  (congrFun (ops1_v28 (W2 m ρ c)) _).trans ((wT_apply _ i o).trans (congrFun (W2_arg14 m ρ c) _))

theorem V3_v29 (c : Dev nD) (o : Fin 512) :
    (V3 m ρ c main_v29 : S1x512.Idx → EReal) (ix2 (0 : Fin 1) o) = (m ((c : Thread nD τ).loc main_arg11) : S512.Idx → EReal) (ix1 o) :=
  (congrFun (ops1_v29 (W2 m ρ c)) _).trans ((bRow_apply _ o).trans (congrFun (W2_arg11 m ρ c) _))

theorem V3_v30 (c : Dev nD) (o : Fin 512) :
    (V3 m ρ c main_v30 : S1x512.Idx → EReal) (ix2 (0 : Fin 1) o) = (m ((c : Thread nD τ).loc main_arg13) : S512.Idx → EReal) (ix1 o) :=
  (congrFun (ops1_v30 (W2 m ρ c)) _).trans ((bRow_apply _ o).trans (congrFun (W2_arg13 m ρ c) _))

theorem V3_v31 (c : Dev nD) (o : Fin 512) :
    (V3 m ρ c main_v31 : S1x512.Idx → EReal) (ix2 (0 : Fin 1) o) = (m ((c : Thread nD τ).loc main_arg15) : S512.Idx → EReal) (ix1 o) :=
  (congrFun (ops1_v31 (W2 m ρ c)) _).trans ((bRow_apply _ o).trans (congrFun (W2_arg15 m ρ c) _))

/-! ## The two results at the last boundary -/

theorem W4_v32 (c : Dev nD) : W4 m ρ c (Proc.devRef .tc main_v32) = (dat1 (V3 m ρ) c).arrAt 10 cfg1.N :=
  W4_arr m ρ c 10

/-- The second result is no array of region 1, so it is what the second stretch's first operation wrote: region 0's
    [16, 1, 256] result with the unit axis dropped, (b, q) having the row-major position of (b, 0, q). -/
theorem W4_v22 (c : Dev nD) (b : Fin 16) (q : Fin 256) :
    (W4 m ρ c (Proc.devRef .tc main_v22) : S16x256.Idx → EReal) (ix2 b q)
      = ((dat0 (V1 m ρ) c).arrAt 10 cfg0.N : S16x1x256.Idx → EReal) (ix3 b (0 : Fin 1) q) := by
  have e : (W4 m ρ c (Proc.devRef .tc main_v22) : S16x256.Idx → EReal)
      = shapeCast S16x256 (W2 m ρ c (Proc.devRef .tc main_v21_1) : S16x1x256.Idx → EReal) shapeCasts_S16x1x256_S16x256 :=
    (W4_of_ne m ρ c main_v22 (by decide)).trans (ops1_v22 (W2 m ρ c))
  refine (congrFun e _).trans ((shapeCast_apply _ _ _ (ix3 b (0 : Fin 1) q) ?_).trans (congrFun (W2_arr m ρ c 10) _))
  rw [Shape.rowMajor_val_three, Shape.rowMajor_val_two]
  show (b.val * 1 + 0) * 256 + q.val = b.val * 256 + q.val
  omega

end Cert.KernelIdeal.HostGlue

end
-- ==== Proof.KernelValue.lean ====
import proofs.«415515_j83915071029425_3_alg».proof.Proof.Gen.KernelIdeal.Frame
import proofs.«415515_j83915071029425_3_alg».proof.Proof.Spec
import proofs.«415515_j83915071029425_3_alg».proof.Proof.ParamsK
import proofs.«415515_j83915071029425_3_alg».proof.Proof.Region0Array
import proofs.«415515_j83915071029425_3_alg».proof.Proof.Region1Array
import proofs.«415515_j83915071029425_3_alg».proof.Proof.HostGlue
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen

namespace Cert.KernelIdeal.Values

open Cert.Spec

variable (m : (ℓ : Loc nD τ sig) → Buf (Elt Ideal) ℓ) (ρ : Dev nD → PrngReg)

/-- A group of 16 patches is group `G % 8` of the block `G / 8` of 2048 tokens. -/
theorem group_split (G : Fin 16) : ∃ (pb : Fin 2) (g : Fin 8), G = ⟨8 * pb.val + g.val, by have := pb.isLt; have := g.isLt; omega⟩ :=
  ⟨⟨G.val / 8, by have := G.isLt; omega⟩, ⟨G.val % 8, Nat.mod_lt _ (by decide)⟩, Fin.ext (by show G.val = 8 * (G.val / 8) + G.val % 8; omega)⟩

theorem gtok_split (pb : Fin 2) (g : Fin 8) (h : 8 * pb.val + g.val < 16) (r : Fin 256) :
    gtok ⟨8 * pb.val + g.val, h⟩ r = blkTok pb (btok g r) :=
  Fin.ext (by show 256 * (8 * pb.val + g.val) + r.val = 2048 * pb.val + (256 * g.val + r.val); omega)

theorem gpatch_split (pb : Fin 2) (g : Fin 8) (h : 8 * pb.val + g.val < 16) (i : Fin 16) :
    gpatch ⟨8 * pb.val + g.val, h⟩ i = blkPatch pb (bpatch g i) :=
  Fin.ext (by show 16 * (8 * pb.val + g.val) + i.val = 128 * pb.val + (16 * g.val + i.val); omega)

/-- The patch-context array region 1 finds is the patch context of the launch arguments. -/
theorem ctx_entry (c : Dev nD) (b : Fin 16) (p : Fin 256) (d : Fin 512) :
    (V3 m ρ c main_v21_0 : S16x256x512.Idx → EReal) (ix3 b p d) = (paramsK m c).pctx b p d := by
  rw [HostGlue.V3_v21_0 m ρ c, Region0.ctx_apply (V1 m ρ) c b p d]
  simp only [HostGlue.V1_v3 m ρ c b, HostGlue.V1_v7 m ρ c b, HostGlue.V1_v11 m ρ c b, HostGlue.V1_v13 m ρ c, HostGlue.V1_v15 m ρ c,
    HostGlue.V1_v17 m ρ c, HostGlue.V1_v18 m ρ c, HostGlue.V1_v19 m ρ c, HostGlue.V1_v20 m ρ c]
  rfl

/-- The kernel's first result at row `r` of group `G` of batch member `b`, as a function of the launch arguments. -/
theorem out1_apply (c : Dev nD) (b : Fin 16) (G : Fin 16) (r : Fin 256) (d : Fin 512) :
    (W4 m ρ c (Proc.devRef .tc main_v32) : S16x4096x512.Idx → EReal) (ix3 b (Cert.Spec.gtok G r) d)
      = (paramsK m c).out1K b G r d := by
  obtain ⟨pb, g, rfl⟩ := group_split G
  rw [HostGlue.W4_v32 m ρ c, gtok_split, Region1.out_apply (V3 m ρ) c b pb g r d]
  simp only [ctx_entry m ρ c b, HostGlue.V3_arg0 m ρ c, HostGlue.V3_arg2 m ρ c, HostGlue.V3_arg3 m ρ c, HostGlue.V3_v24 m ρ c,
    HostGlue.V3_v26 m ρ c, HostGlue.V3_v28 m ρ c, HostGlue.V3_v29 m ρ c, HostGlue.V3_v30 m ρ c, HostGlue.V3_v31 m ρ c]
  unfold Params.out1K Params.lctxK Params.bcK Params.maskedScores localBlkK
  simp only [gtok_split, gpatch_split]
  rfl

/-- The kernel's second result. -/
theorem out2_apply (c : Dev nD) (b : Fin 16) (q : Fin 256) :
    (W4 m ρ c (Proc.devRef .tc main_v22) : S16x256.Idx → EReal) (ix2 b q) = (paramsK m c).out2 b q := by
  rw [HostGlue.W4_v22 m ρ c b q, Region0.pw_apply (V1 m ρ) c b q]
  simp only [HostGlue.V1_v3 m ρ c b, HostGlue.V1_v7 m ρ c b, HostGlue.V1_v13 m ρ c, HostGlue.V1_v15 m ρ c, HostGlue.V1_v18 m ρ c,
    HostGlue.V1_v19 m ρ c]
  rfl

end Cert.KernelIdeal.Values

end
-- ==== Proof.RefPatch.lean ====
import proofs.«415515_j83915071029425_3_alg».proof.Proof.Gen.ReferenceIdeal.Read
import proofs.«415515_j83915071029425_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Cert.ReferenceIdeal Cert.ReferenceIdeal.Gen Cert.ReferenceIdeal.Read

namespace Cert.ReferenceIdeal.RefPatch

private abbrev XAct := (⟨S16x4096x512, .f32⟩ : BufTy).Contents (Elt Ideal)
private abbrev XMat := (⟨S512x512, .f32⟩ : BufTy).Contents (Elt Ideal)
private abbrev XRow := (⟨S512, .f32⟩ : BufTy).Contents (Elt Ideal)

/-- An activation array read by coordinates. -/
private abbrev act (x : XAct) : Cert.Spec.Act := fun b n i => x (ix3 b n i)
/-- A weight matrix read by coordinates. -/
private abbrev mat (w : XMat) : Cert.Spec.Mat := fun o i => w (ix2 o i)
/-- A bias row read by coordinates. -/
private abbrev row (v : XRow) : Cert.Spec.Row := fun o => v (ix1 o)

/-- Slot `s` of patch `p` in the reshaped array is token `16 p + s` of the flat one. -/
private theorem tok_idx (b : Fin 16) (p : Fin 256) (k : Fin 16) (i : Fin 512) :
    idx_main_v0 (idx_main_v4 (ix3 b p i) k) = ix3 b (Cert.Spec.tok p k) i := by
  have hb := b.isLt; have hp := p.isLt; have hk := k.isLt; have hi := i.isLt
  funext a; apply Fin.ext
  match a with
  | ⟨0, _⟩ => show (((b.val * 256 + p.val) * 16 + k.val) * 512 + i.val) / 2097152 = b.val; omega
  | ⟨1, _⟩ => show (((b.val * 256 + p.val) * 16 + k.val) * 512 + i.val) / 512 % 4096 = 16 * p.val + k.val; omega
  | ⟨2, _⟩ => show (((b.val * 256 + p.val) * 16 + k.val) * 512 + i.val) % 512 = i.val; omega

/-- The mean of a patch's 16 tokens (the stages `%0`, `%4`, `%6`): the sum from zero over the 16 slots, divided by 16. -/
private theorem mean_apply (x : XAct) (b : Fin 16) (p : Fin 256) (i : Fin 512) :
    val_main_v6 (F := Ideal) x (ix3 b p i) = Cert.Spec.pmean (act x) b p i := by
  rw [val_main_v6_apply, val_main_v4_apply, val_main_v5_apply, val_main_cst_apply, val_main_cst_0_apply]
  simp only [val_main_v0_apply, tok_idx]
  rw [Ideal.hostDivf_def, Ideal.ofBits_def, Ideal.ofBits_def, Ideal.ofBits_zero_f32, zero_add]
  rfl

/-- The key and value means are the same function of their own array. -/
private theorem v13_eq (x : XAct) : val_main_v13 (F := Ideal) x = val_main_v6 (F := Ideal) x := rfl
private theorem v20_eq (x : XAct) : val_main_v20 (F := Ideal) x = val_main_v6 (F := Ideal) x := rfl

/-- A dense layer on the patch means (the stages `%7` to `%10`): the contraction over the input features plus the bias. -/
private theorem lin_apply (x : XAct) (w : XMat) (v : XRow) (b : Fin 16) (p : Fin 256) (o : Fin 512) :
    val_main_v10 (F := Ideal) x w v (ix3 b p o)
      = Cert.Spec.lin (Cert.Spec.pmean (act x) b p) (mat w) (row v) o := by
  rw [val_main_v10_apply, val_main_v7_apply, val_main_v9_apply, val_main_v8_apply, Ideal.addf_def]
  unfold Cert.Spec.lin
  refine congrArg₂ (· + ·) (Finset.sum_congr rfl fun k _ => ?_) ?_
  · rw [show lidx_main_v7 (ix3 b p o) k = ix3 b p k from
        funext fun a => Fin.ext (by match a with | ⟨0, _⟩ => rfl | ⟨1, _⟩ => rfl | ⟨2, _⟩ => rfl), mean_apply]
    exact congrArg (fun j => Cert.Spec.pmean (act x) b p k * w j)
      (funext fun a => Fin.ext (by match a with | ⟨0, _⟩ => rfl | ⟨1, _⟩ => rfl))
  · exact congrArg v (funext fun a => Fin.ext (by match a with | ⟨0, _⟩ => rfl))

private theorem v17_eq (x : XAct) (w : XMat) (v : XRow) : val_main_v17 (F := Ideal) x w v = val_main_v10 (F := Ideal) x w v := rfl
private theorem v24_eq (x : XAct) (w : XMat) (v : XRow) : val_main_v24 (F := Ideal) x w v = val_main_v10 (F := Ideal) x w v := rfl

/-- The query projection of patch `p` and the key projection of patch `q`, as rows. -/
private abbrev qrow (x0 : XAct) (x4 : XMat) (x5 : XRow) (b : Fin 16) (p : Fin 256) : Cert.Spec.Row :=
  Cert.Spec.lin (Cert.Spec.pmean (act x0) b p) (mat x4) (row x5)

/-- The scaled scores (the stages `%25`, `%27`). -/
private theorem score_apply (x0 x1 : XAct) (x4 : XMat) (x5 : XRow) (x6 : XMat) (x7 : XRow) (b : Fin 16) (p q : Fin 256) :
    val_main_v27 (F := Ideal) x0 x1 x4 x5 x6 x7 (ix3 b p q)
      = Cert.Spec.score (qrow x0 x4 x5 b p) (qrow x1 x6 x7 b q) := by
  rw [val_main_v27_apply, val_main_v25_apply, val_main_v26_apply, val_main_cst_5_apply, Ideal.hostDivf_def, Ideal.ofBits_def]
  unfold Cert.Spec.score
  refine congrArg (fun t => Ideal.div t Cert.Spec.cScale) (Finset.sum_congr rfl fun k _ => ?_)
  rw [show lidx_main_v25 (ix3 b p q) k = ix3 b p k from
        funext fun a => Fin.ext (by match a with | ⟨0, _⟩ => rfl | ⟨1, _⟩ => rfl | ⟨2, _⟩ => rfl),
      show ridx_main_v25 (ix3 b p q) k = ix3 b q k from
        funext fun a => Fin.ext (by match a with | ⟨0, _⟩ => rfl | ⟨1, _⟩ => rfl | ⟨2, _⟩ => rfl),
      lin_apply, v17_eq, lin_apply]

/-- The word `0xFF800000` is `−∞`. -/
private theorem neg_inf : Ideal.ofBits .f32 0xFF800000#32 = (⊥ : EReal) := by simp [Ideal.ofBits, Ideal.ieee]

/-- The reduction over the key patches, in the form that names the inserted coordinate. -/
private theorem red2 : S16x256x256.Reduces [2] S16x256 := by decide

private theorem lift2 (b : Fin 16) (p : Fin 256) (k : Fin 256) : red2.lift (ix2 b p) k = ix3 b p k :=
  funext fun a => Fin.ext (by match a with | ⟨0, _⟩ => rfl | ⟨1, _⟩ => rfl | ⟨2, _⟩ => rfl)

/-- The scores of query patch `p` against every key patch. -/
private abbrev srow (x0 x1 : XAct) (x4 : XMat) (x5 : XRow) (x6 : XMat) (x7 : XRow) (b : Fin 16) (p : Fin 256) : Fin 256 → EReal :=
  fun q => Cert.Spec.score (qrow x0 x4 x5 b p) (qrow x1 x6 x7 b q)

/-- The row maximum (the stages `%28`, `%30`): the fold of `max` from `−∞` over the key patches; the further `max` with `−∞` changes nothing. -/
private theorem rowmax_apply (x0 x1 : XAct) (x4 : XMat) (x5 : XRow) (x6 : XMat) (x7 : XRow) (b : Fin 16) (p : Fin 256) :
    val_main_v30 (F := Ideal) x0 x1 x4 x5 x6 x7 (ix2 b p) = Cert.Spec.rowMax (srow x0 x1 x4 x5 x6 x7 b p) := by
  rw [val_main_v30_apply, val_main_v29_apply, val_main_cst_7_apply, Ideal.maximumf_def, Ideal.ofBits_def, neg_inf,
    max_eq_right bot_le]
  unfold val_main_v28
  rw [Host.reduce_eq_fold_single FloatOps.maximumf _ _ reducesTo_S16x256x256_S16x256_d2 red2 h_S_ (ix2 b p)]
  rw [val_main_cst_6_apply, Ideal.ofBits_def, neg_inf]
  unfold Cert.Spec.rowMax
  refine congrArg (fun f : Fin 256 → EReal => Finset.fold max ⊥ f Finset.univ) (funext fun (k : Fin 256) => ?_)
  exact (congrArg (val_main_v27 (F := Ideal) x0 x1 x4 x5 x6 x7) (lift2 b p k)).trans
    (score_apply x0 x1 x4 x5 x6 x7 b p k)

/-- The exponential of a score less its row's maximum (the stages `%31` to `%34`). -/
private theorem exp_apply (x0 x1 : XAct) (x4 : XMat) (x5 : XRow) (x6 : XMat) (x7 : XRow) (b : Fin 16) (p q : Fin 256) :
    val_main_v34 (F := Ideal) x0 x1 x4 x5 x6 x7 (ix3 b p q)
      = Ideal.exp (srow x0 x1 x4 x5 x6 x7 b p q - Cert.Spec.rowMax (srow x0 x1 x4 x5 x6 x7 b p)) := by
  rw [val_main_v34_apply, val_main_v33_apply, val_main_v32_apply, val_main_v31_apply, Ideal.hostUnary_exp_def,
    Ideal.subf_def, score_apply,
    show idx_main_v31 (idx_main_v32 (ix3 b p q)) = ix2 b p from
      funext fun a => Fin.ext (by match a with | ⟨0, _⟩ => rfl | ⟨1, _⟩ => rfl),
    rowmax_apply]

/-- The softmax weights (the stages `%35` to `%38`): each exponential over its row's sum, taken from zero. -/
private theorem weight_apply (x0 x1 : XAct) (x4 : XMat) (x5 : XRow) (x6 : XMat) (x7 : XRow) (b : Fin 16) (p q : Fin 256) :
    val_main_v38 (F := Ideal) x0 x1 x4 x5 x6 x7 (ix3 b p q)
      = Cert.Spec.patchW (Cert.Spec.pmean (act x0) b) (Cert.Spec.pmean (act x1) b) (mat x4) (row x5) (mat x6) (row x7) p q := by
  rw [val_main_v38_apply, val_main_v37_apply, val_main_v36_apply, val_main_v35_apply, val_main_cst_8_apply,
    Ideal.hostDivf_def, Ideal.ofBits_def, Ideal.ofBits_zero_f32, zero_add, exp_apply,
    show idx_main_v36 (idx_main_v37 (ix3 b p q)) = ix2 b p from
      funext fun a => Fin.ext (by match a with | ⟨0, _⟩ => rfl | ⟨1, _⟩ => rfl)]
  simp only [show ∀ k : Fin 256, idx_main_v35 (ix2 b p) k = ix3 b p k from fun k =>
      funext fun a => Fin.ext (by match a with | ⟨0, _⟩ => rfl | ⟨1, _⟩ => rfl | ⟨2, _⟩ => rfl), exp_apply]
  rfl

/-- The reference's patch context (the stage `%39`) at batch member `b`, patch `p`, feature `d`. -/
theorem pctx_apply (x0 x1 x2 x3 : (⟨S16x4096x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512x512, .f32⟩ : BufTy).Contents (Elt Ideal)) (x13 : (⟨S512, .f32⟩ : BufTy).Contents (Elt Ideal)) (x14 : (⟨S512x512, .f32⟩ : BufTy).Contents (Elt Ideal)) (x15 : (⟨S512, .f32⟩ : BufTy).Contents (Elt Ideal)) (b : Fin 16) (p : Fin 256) (d : Fin 512) :
    val_main_v39 (F := Ideal) x0 x1 x3 x4 x5 x6 x7 x8 x9 (ix3 b p d) = (Cert.Spec.paramsOf x0 x1 x2 x3 x4 x5 x6 x7 x8 x9 x10 x11 x12 x13 x14 x15).pctx b p d := by
  rw [val_main_v39_apply]
  show _ = Cert.Spec.patchCtx (Cert.Spec.pmean (act x0) b) (Cert.Spec.pmean (act x1) b) (Cert.Spec.pmean (act x3) b)
    (mat x4) (row x5) (mat x6) (row x7) (mat x8) (row x9) p d
  unfold Cert.Spec.patchCtx
  refine Finset.sum_congr rfl fun k _ => ?_
  rw [show lidx_main_v39 (ix3 b p d) k = ix3 b p k from
        funext fun a => Fin.ext (by match a with | ⟨0, _⟩ => rfl | ⟨1, _⟩ => rfl | ⟨2, _⟩ => rfl),
      show ridx_main_v39 (ix3 b p d) k = ix3 b k d from
        funext fun a => Fin.ext (by match a with | ⟨0, _⟩ => rfl | ⟨1, _⟩ => rfl | ⟨2, _⟩ => rfl),
      weight_apply, v24_eq, lin_apply]

/-- The reference's second result (the stage `%73`). -/
theorem out2_apply (x0 x1 x2 x3 : (⟨S16x4096x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512x512, .f32⟩ : BufTy).Contents (Elt Ideal)) (x13 : (⟨S512, .f32⟩ : BufTy).Contents (Elt Ideal)) (x14 : (⟨S512x512, .f32⟩ : BufTy).Contents (Elt Ideal)) (x15 : (⟨S512, .f32⟩ : BufTy).Contents (Elt Ideal)) (b : Fin 16) (q : Fin 256) :
    val_main_v73 (F := Ideal) x0 x1 x4 x5 x6 x7 (ix2 b q) = (Cert.Spec.paramsOf x0 x1 x2 x3 x4 x5 x6 x7 x8 x9 x10 x11 x12 x13 x14 x15).out2 b q := by
  rw [val_main_v73_apply, val_main_v71_apply, val_main_v72_apply, val_main_cst_13_apply, val_main_cst_14_apply,
    Ideal.hostDivf_def, Ideal.ofBits_def, Ideal.ofBits_def, Ideal.ofBits_zero_f32, zero_add]
  simp only [show ∀ k : Fin 256, idx_main_v71 (ix2 b q) k = ix3 b k q from fun k =>
      funext fun a => Fin.ext (by match a with | ⟨0, _⟩ => rfl | ⟨1, _⟩ => rfl | ⟨2, _⟩ => rfl), weight_apply]
  rfl

end Cert.ReferenceIdeal.RefPatch

end
-- ==== Proof.RefLocal.lean ====
import proofs.«415515_j83915071029425_3_alg».proof.Proof.Gen.ReferenceIdeal.Read
import proofs.«415515_j83915071029425_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Cert.ReferenceIdeal Cert.ReferenceIdeal.Gen Cert.ReferenceIdeal.Read

namespace Cert.ReferenceIdeal.RefLocal

private abbrev ActT := (⟨S16x4096x512, .f32⟩ : BufTy).Contents (Elt Ideal)
private abbrev MatT := (⟨S512x512, .f32⟩ : BufTy).Contents (Elt Ideal)
private abbrev RowT := (⟨S512, .f32⟩ : BufTy).Contents (Elt Ideal)
private abbrev TokT := (⟨S16x256x16x512, .f32⟩ : BufTy).Contents (Elt Ideal)

/-! ## The reshapes: token `s` of patch `p` is row `16 p + s` -/

/-- The reshape [16,4096,512] → [16,256,16,512] reads the row-major position (b, p, s, i) back as (b, 16 p + s, i). -/
private theorem idx_reshape (b : Fin 16) (p : Fin 256) (s : Fin 16) (i : Fin 512) :
    idx_main_v0 (ix4 b p s i) = ix3 b (Cert.Spec.tok p s) i := by
  funext a
  refine Fin.ext ?_
  have hb := b.isLt; have hp := p.isLt; have hs := s.isLt; have hi := i.isLt
  match a with
  | ⟨0, _⟩ => show (((b.val * 256 + p.val) * 16 + s.val) * 512 + i.val) / 2097152 = b.val; omega
  | ⟨1, _⟩ => show (((b.val * 256 + p.val) * 16 + s.val) * 512 + i.val) / 512 % 4096 = 16 * p.val + s.val; omega
  | ⟨2, _⟩ => show (((b.val * 256 + p.val) * 16 + s.val) * 512 + i.val) % 512 = i.val; omega

private theorem xq_apply (x0 : ActT) (b : Fin 16) (p : Fin 256) (s : Fin 16) (i : Fin 512) :
    val_main_v0 (F := Ideal) x0 (ix4 b p s i) = x0 (ix3 b (Cert.Spec.tok p s) i) :=
  (val_main_v0_apply x0 _).trans (congrArg x0 (idx_reshape b p s i))

private theorem xk_apply (x2 : ActT) (b : Fin 16) (p : Fin 256) (s : Fin 16) (i : Fin 512) :
    val_main_v2 (F := Ideal) x2 (ix4 b p s i) = x2 (ix3 b (Cert.Spec.tok p s) i) :=
  (val_main_v2_apply x2 _).trans (congrArg x2 (idx_reshape b p s i))

private theorem xv_apply (x3 : ActT) (b : Fin 16) (p : Fin 256) (s : Fin 16) (i : Fin 512) :
    val_main_v3 (F := Ideal) x3 (ix4 b p s i) = x3 (ix3 b (Cert.Spec.tok p s) i) :=
  (val_main_v3_apply x3 _).trans (congrArg x3 (idx_reshape b p s i))

/-! ## A dense layer at (b, p, s, o) -/

/-- The contraction over the 512 input features against the weight [out, in], plus the bias row broadcast over
    (b, p, s): `Spec.lin` of the token's row. The three layers share their dimension numbers, so one statement
    serves them all. -/
private theorem dense_apply (y : TokT) (W : MatT) (bias : RowT) (row : Fin 512 → EReal)
    (b : Fin 16) (p : Fin 256) (s : Fin 16) (o : Fin 512) (hy : ∀ i, y (ix4 b p s i) = row i) :
    (∑ k : Fin 512, y (lidx_main_v40 (ix4 b p s o) k) * W (ridx_main_v40 (ix4 b p s o) k))
        + bias (idx_main_v41 (idx_main_v42 (ix4 b p s o)))
      = Cert.Spec.lin row (fun o i => W (ix2 o i)) (fun o => bias (ix1 o)) o := by
  unfold Cert.Spec.lin
  refine congrArg₂ (· + ·) (Finset.sum_congr rfl fun k _ => ?_) ?_
  · have el : lidx_main_v40 (ix4 b p s o) k = ix4 b p s k :=
      funext fun a => Fin.ext (by match a with | ⟨0, _⟩ => rfl | ⟨1, _⟩ => rfl | ⟨2, _⟩ => rfl | ⟨3, _⟩ => rfl)
    have er : ridx_main_v40 (ix4 b p s o) k = ix2 o k :=
      funext fun a => Fin.ext (by match a with | ⟨0, _⟩ => rfl | ⟨1, _⟩ => rfl)
    rw [el, er, hy]
  · exact congrArg bias (funext fun a => Fin.ext (by match a with | ⟨0, _⟩ => rfl))

section Stages

variable (x0 x1 x2 x3 : ActT) (x4 : MatT) (x5 : RowT) (x6 : MatT) (x7 : RowT) (x8 : MatT) (x9 : RowT)
  (x10 : MatT) (x11 : RowT) (x12 : MatT) (x13 : RowT) (x14 : MatT) (x15 : RowT)

/-- The query projection of token `s` of patch `p`. -/
private theorem ql_apply (b : Fin 16) (p : Fin 256) (s : Fin 16) (o : Fin 512) :
    val_main_v43 (F := Ideal) x0 x10 x11 (ix4 b p s o)
      = (Cert.Spec.paramsOf x0 x1 x2 x3 x4 x5 x6 x7 x8 x9 x10 x11 x12 x13 x14 x15).ql b (Cert.Spec.tok p s) o := by
  rw [val_main_v43_apply, val_main_v40_apply, val_main_v42_apply, val_main_v41_apply]
  exact dense_apply _ x10 x11 _ b p s o (fun i => xq_apply x0 b p s i)

/-- The key projection. -/
private theorem kl_apply (b : Fin 16) (p : Fin 256) (s : Fin 16) (o : Fin 512) :
    val_main_v47 (F := Ideal) x2 x12 x13 (ix4 b p s o)
      = (Cert.Spec.paramsOf x0 x1 x2 x3 x4 x5 x6 x7 x8 x9 x10 x11 x12 x13 x14 x15).kl b (Cert.Spec.tok p s) o := by
  rw [val_main_v47_apply, val_main_v44_apply, val_main_v46_apply, val_main_v45_apply]
  exact dense_apply _ x12 x13 _ b p s o (fun i => xk_apply x2 b p s i)

/-- The value projection. -/
private theorem vl_apply (b : Fin 16) (p : Fin 256) (s : Fin 16) (o : Fin 512) :
    val_main_v51 (F := Ideal) x3 x14 x15 (ix4 b p s o)
      = (Cert.Spec.paramsOf x0 x1 x2 x3 x4 x5 x6 x7 x8 x9 x10 x11 x12 x13 x14 x15).vl b (Cert.Spec.tok p s) o := by
  rw [val_main_v51_apply, val_main_v48_apply, val_main_v50_apply, val_main_v49_apply]
  exact dense_apply _ x14 x15 _ b p s o (fun i => xv_apply x3 b p s i)

end Stages

section Attention

variable (x0 x1 x2 x3 : ActT) (x4 : MatT) (x5 : RowT) (x6 : MatT) (x7 : RowT) (x8 : MatT) (x9 : RowT)
  (x10 : MatT) (x11 : RowT) (x12 : MatT) (x13 : RowT) (x14 : MatT) (x15 : RowT)

/-- The scaled score of query `s` against key `t` of patch `p`: the inner product of the two projected rows
    over the 512 features, divided by √512. -/
private theorem score_apply (b : Fin 16) (p : Fin 256) (s t : Fin 16) :
    val_main_v54 (F := Ideal) x0 x2 x10 x11 x12 x13 (ix4 b p s t)
      = Cert.Spec.score
          ((Cert.Spec.paramsOf x0 x1 x2 x3 x4 x5 x6 x7 x8 x9 x10 x11 x12 x13 x14 x15).ql b (Cert.Spec.tok p s))
          ((Cert.Spec.paramsOf x0 x1 x2 x3 x4 x5 x6 x7 x8 x9 x10 x11 x12 x13 x14 x15).kl b (Cert.Spec.tok p t)) := by
  rw [val_main_v54_apply, val_main_v52_apply, val_main_v53_apply, val_main_cst_9_apply]
  unfold Cert.Spec.score
  rw [Ideal.hostDivf_def]
  refine congrArg₂ Ideal.div (Finset.sum_congr rfl fun k _ => ?_) rfl
  have el : lidx_main_v52 (ix4 b p s t) k = ix4 b p s k :=
    funext fun a => Fin.ext (by match a with | ⟨0, _⟩ => rfl | ⟨1, _⟩ => rfl | ⟨2, _⟩ => rfl | ⟨3, _⟩ => rfl)
  have er : ridx_main_v52 (ix4 b p s t) k = ix4 b p t k :=
    funext fun a => Fin.ext (by match a with | ⟨0, _⟩ => rfl | ⟨1, _⟩ => rfl | ⟨2, _⟩ => rfl | ⟨3, _⟩ => rfl)
  rw [el, er, ql_apply x0 x1 x2 x3 x4 x5 x6 x7 x8 x9 x10 x11 x12 x13 x14 x15, kl_apply x0 x1 x2 x3 x4 x5 x6 x7 x8 x9 x10 x11 x12 x13 x14 x15]

/-- The word 0xFF800000 is −∞. -/
private theorem ofBits_neg_inf : Ideal.ofBits .f32 0xFF800000#32 = (⊥ : EReal) := by
  simp [Ideal.ofBits, Ideal.ieee]

/-- The row maximum of a query's 16 scores: the fold of `max` from −∞ over the key axis, then `max` with −∞ once
    more, which changes nothing. -/
private theorem rowMax_apply (b : Fin 16) (p : Fin 256) (s : Fin 16) :
    val_main_v57 (F := Ideal) x0 x2 x10 x11 x12 x13 (ix3 b p s)
      = Cert.Spec.rowMax (fun t : Fin 16 => val_main_v54 (F := Ideal) x0 x2 x10 x11 x12 x13 (ix4 b p s t)) := by
  have hR : S16x256x16x16.Reduces [3] S16x256x16 := by decide
  rw [val_main_v57_apply, val_main_v56_apply, val_main_cst_11_apply]
  unfold val_main_v55
  rw [Host.reduce_eq_fold_single FloatOps.maximumf _ _ reducesTo_S16x256x16x16_S16x256x16_d3 hR h_S_,
    val_main_cst_10_apply, Ideal.ofBits_def, ofBits_neg_inf]
  have hl : ∀ t : Fin 16, hR.lift (ix3 b p s) t = ix4 b p s t := fun t =>
    funext fun a => Fin.ext (by match a with | ⟨0, _⟩ => rfl | ⟨1, _⟩ => rfl | ⟨2, _⟩ => rfl | ⟨3, _⟩ => rfl)
  have hf : (val_main_v54 (F := Ideal) x0 x2 x10 x11 x12 x13 ∘ hR.lift (ix3 b p s))
      = fun t : Fin 16 => val_main_v54 (F := Ideal) x0 x2 x10 x11 x12 x13 (ix4 b p s t) :=
    funext fun t => congrArg (val_main_v54 (F := Ideal) x0 x2 x10 x11 x12 x13) (hl t)
  rw [hf]
  exact max_bot_left _

/-- The softmax weight of key `t` for query `s`: exp (score − row maximum) over the row's sum of those. -/
private theorem weight_apply (b : Fin 16) (p : Fin 256) (s t : Fin 16) :
    val_main_v65 (F := Ideal) x0 x2 x10 x11 x12 x13 (ix4 b p s t)
      = Cert.Spec.smax (fun t' : Fin 16 => val_main_v54 (F := Ideal) x0 x2 x10 x11 x12 x13 (ix4 b p s t')) t := by
  have hmax : ∀ t' : Fin 16, val_main_v59 (F := Ideal) x0 x2 x10 x11 x12 x13 (ix4 b p s t')
      = Cert.Spec.rowMax (fun t'' : Fin 16 => val_main_v54 (F := Ideal) x0 x2 x10 x11 x12 x13 (ix4 b p s t'')) := by
    intro t'
    have e : idx_main_v58 (idx_main_v59 (ix4 b p s t')) = ix3 b p s :=
      funext fun a => Fin.ext (by match a with | ⟨0, _⟩ => rfl | ⟨1, _⟩ => rfl | ⟨2, _⟩ => rfl)
    rw [val_main_v59_apply, val_main_v58_apply, e, rowMax_apply]
  have hexp : ∀ t' : Fin 16, val_main_v61 (F := Ideal) x0 x2 x10 x11 x12 x13 (ix4 b p s t')
      = Ideal.exp (val_main_v54 (F := Ideal) x0 x2 x10 x11 x12 x13 (ix4 b p s t')
          - Cert.Spec.rowMax (fun t'' : Fin 16 => val_main_v54 (F := Ideal) x0 x2 x10 x11 x12 x13 (ix4 b p s t''))) := by
    intro t'
    rw [val_main_v61_apply, val_main_v60_apply, hmax t', Ideal.hostUnary_exp_def, Ideal.subf_def]
  rw [val_main_v65_apply, val_main_v64_apply, val_main_v63_apply, val_main_v62_apply, val_main_cst_12_apply,
    Ideal.hostDivf_def, Ideal.ofBits_def, Ideal.ofBits_zero_f32, zero_add]
  unfold Cert.Spec.smax
  refine congrArg₂ Ideal.div (hexp t) (Finset.sum_congr rfl fun k _ => ?_)
  have e : idx_main_v62 (idx_main_v63 (idx_main_v64 (ix4 b p s t))) k = ix4 b p s k :=
    funext fun a => Fin.ext (by match a with | ⟨0, _⟩ => rfl | ⟨1, _⟩ => rfl | ⟨2, _⟩ => rfl | ⟨3, _⟩ => rfl)
  rw [e, hexp k]

end Attention

/-- The reference's local attention (the stage `%66`) at batch member `b`, patch `p`, token `s`, feature `d`. -/
theorem lctx_apply (x0 x1 x2 x3 : (⟨S16x4096x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512x512, .f32⟩ : BufTy).Contents (Elt Ideal)) (x13 : (⟨S512, .f32⟩ : BufTy).Contents (Elt Ideal)) (x14 : (⟨S512x512, .f32⟩ : BufTy).Contents (Elt Ideal)) (x15 : (⟨S512, .f32⟩ : BufTy).Contents (Elt Ideal)) (b : Fin 16) (p : Fin 256) (s : Fin 16) (d : Fin 512) :
    val_main_v66 (F := Ideal) x0 x2 x3 x10 x11 x12 x13 x14 x15 (ix4 b p s d) = (Cert.Spec.paramsOf x0 x1 x2 x3 x4 x5 x6 x7 x8 x9 x10 x11 x12 x13 x14 x15).lctxR b p s d := by
  rw [val_main_v66_apply]
  unfold Cert.Spec.Params.lctxR Cert.Spec.attnRow
  refine Finset.sum_congr rfl fun k _ => ?_
  have el : lidx_main_v66 (ix4 b p s d) k = ix4 b p s k :=
    funext fun a => Fin.ext (by match a with | ⟨0, _⟩ => rfl | ⟨1, _⟩ => rfl | ⟨2, _⟩ => rfl | ⟨3, _⟩ => rfl)
  have er : ridx_main_v66 (ix4 b p s d) k = ix4 b p k d :=
    funext fun a => Fin.ext (by match a with | ⟨0, _⟩ => rfl | ⟨1, _⟩ => rfl | ⟨2, _⟩ => rfl | ⟨3, _⟩ => rfl)
  rw [el, er, weight_apply, vl_apply x0 x1 x2 x3 x4 x5 x6 x7 x8 x9 x10 x11 x12 x13 x14 x15]
  refine congrArg (· * _) ?_
  exact congrArg (fun f => Cert.Spec.smax f k) (funext fun t => score_apply x0 x1 x2 x3 x4 x5 x6 x7 x8 x9 x10 x11 x12 x13 x14 x15 b p s t)

end Cert.ReferenceIdeal.RefLocal

end
-- ==== Proof.RefValue.lean ====
import proofs.«415515_j83915071029425_3_alg».proof.Proof.Gen.ReferenceIdeal.Read
import proofs.«415515_j83915071029425_3_alg».proof.Proof.Spec
import proofs.«415515_j83915071029425_3_alg».proof.Proof.RefPatch
import proofs.«415515_j83915071029425_3_alg».proof.Proof.RefLocal
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Cert.ReferenceIdeal Cert.ReferenceIdeal.Gen Cert.ReferenceIdeal.Read

namespace Cert.ReferenceIdeal.RefValue

open Cert.Spec

/-- Token `s` of patch `p` in the flat array is (b, p, s, d) in the array with the patches split out. -/
theorem reshape_idx (b : Fin 16) (p : Fin 256) (s : Fin 16) (d : Fin 512) :
    idx_main_v70 (ix3 b (tok p s) d) = ix4 b p s d := by
  have hb := b.isLt; have hp := p.isLt; have hs := s.isLt; have hd := d.isLt
  funext a
  apply Fin.ext
  match a with
  | ⟨0, _⟩ => show ((b.val * 4096 + (16 * p.val + s.val)) * 512 + d.val) / 2097152 = b.val; omega
  | ⟨1, _⟩ => show ((b.val * 4096 + (16 * p.val + s.val)) * 512 + d.val) / 8192 % 256 = p.val; omega
  | ⟨2, _⟩ => show ((b.val * 4096 + (16 * p.val + s.val)) * 512 + d.val) / 512 % 16 = s.val; omega
  | ⟨3, _⟩ => show ((b.val * 4096 + (16 * p.val + s.val)) * 512 + d.val) % 512 = d.val; omega

/-- The patch context broadcast over a patch's tokens is read at the patch. -/
theorem bcast_idx (b : Fin 16) (p : Fin 256) (s : Fin 16) (d : Fin 512) :
    idx_main_v67 (idx_main_v68 (ix4 b p s d)) = ix3 b p d := by
  funext a
  apply Fin.ext
  match a with
  | ⟨0, _⟩ => rfl
  | ⟨1, _⟩ => rfl
  | ⟨2, _⟩ => rfl

/-- The reference's first result (the stage `%70`) at token `s` of patch `p`. -/
theorem out1_apply (x0 x1 x2 x3 : (⟨S16x4096x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512x512, .f32⟩ : BufTy).Contents (Elt Ideal)) (x13 : (⟨S512, .f32⟩ : BufTy).Contents (Elt Ideal)) (x14 : (⟨S512x512, .f32⟩ : BufTy).Contents (Elt Ideal)) (x15 : (⟨S512, .f32⟩ : BufTy).Contents (Elt Ideal)) (b : Fin 16) (p : Fin 256) (s : Fin 16) (d : Fin 512) :
    val_main_v70 (F := Ideal) x0 x1 x2 x3 x4 x5 x6 x7 x8 x9 x10 x11 x12 x13 x14 x15 (ix3 b (Cert.Spec.tok p s) d)
      = (Cert.Spec.paramsOf x0 x1 x2 x3 x4 x5 x6 x7 x8 x9 x10 x11 x12 x13 x14 x15).out1R b p s d := by
  rw [val_main_v70_apply, reshape_idx, val_main_v69_apply, val_main_v68_apply, val_main_v67_apply, bcast_idx,
    RefPatch.pctx_apply x0 x1 x2 x3 x4 x5 x6 x7 x8 x9 x10 x11 x12 x13 x14 x15 b p d,
    RefLocal.lctx_apply x0 x1 x2 x3 x4 x5 x6 x7 x8 x9 x10 x11 x12 x13 x14 x15 b p s d]
  rfl

end Cert.ReferenceIdeal.RefValue

end
-- ==== Proof.Bridge.lean ====
import proofs.«415515_j83915071029425_3_alg».proof.Proof.Spec
import Mathlib.Data.Finset.Fold
import Mathlib.Data.EReal.Operations
import Mathlib.Algebra.BigOperators.Group.Finset.Basic
import Mathlib.Algebra.Order.BigOperators.Group.Finset

noncomputable section

namespace Cert.Spec

open Idealize.ShloMosaic

/-- Row `r` of group `G` is token `r % 16` of patch `r / 16` of the group. -/
theorem gtok_eq_tok (G : Fin 16) (r : Fin 256) :
    gtok G r = tok (gpatch G ⟨r.val / 16, by have := r.isLt; omega⟩) ⟨r.val % 16, Nat.mod_lt _ (by decide)⟩ := by
  apply Fin.ext
  simp only [gtok, tok, gpatch]
  omega

/-! ## Real numbers inside the extended reals: closed under sums and products -/

private theorem real_add {a b : EReal} (ha : ∃ x : ℝ, a = x) (hb : ∃ y : ℝ, b = y) : ∃ z : ℝ, a + b = z := by
  obtain ⟨x, rfl⟩ := ha
  obtain ⟨y, rfl⟩ := hb
  exact ⟨x + y, (EReal.coe_add x y).symm⟩

private theorem real_mul {a b : EReal} (ha : ∃ x : ℝ, a = x) (hb : ∃ y : ℝ, b = y) : ∃ z : ℝ, a * b = z := by
  obtain ⟨x, rfl⟩ := ha
  obtain ⟨y, rfl⟩ := hb
  exact ⟨x * y, (EReal.coe_mul x y).symm⟩

private theorem real_sum {ι : Type} (s : Finset ι) (f : ι → EReal) (h : ∀ i ∈ s, ∃ x : ℝ, f i = x) :
    ∃ z : ℝ, ∑ i ∈ s, f i = z := by
  classical
  induction s using Finset.induction_on with
  | empty => exact ⟨0, by simp⟩
  | insert a s ha ih =>
    rw [Finset.sum_insert ha]
    exact real_add (h a (Finset.mem_insert_self a s)) (ih (fun i hi => h i (Finset.mem_insert_of_mem hi)))

/-- The coercion commutes with finite sums. -/
private theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A dense layer on real data is real. -/
private theorem real_lin {x : Row} {W : Mat} {bv : Row} (hx : ∀ i, ∃ r : ℝ, x i = r)
    (hW : ∀ o i, ∃ r : ℝ, W o i = r) (hb : ∀ o, ∃ r : ℝ, bv o = r) (o : Fin 512) : ∃ r : ℝ, lin x W bv o = r := by
  unfold lin
  exact real_add (real_sum _ _ (fun i _ => real_mul (hx i) (hW o i))) (hb o)

/-- The scale √512 (as an f32 word) is a nonzero real: 11863283 · 2⁻¹⁹. -/
private theorem cScale_real : ∃ y : ℝ, y ≠ 0 ∧ cScale = y := by
  refine ⟨(11863283 : ℝ) * (2 : ℝ) ^ (-19 : ℤ), by positivity, ?_⟩
  simp [cScale, Ideal.ofBits, Ideal.ieee, -EReal.coe_mul]

/-- The scaled inner product of two real rows is real. -/
private theorem real_score {x y : Row} (hx : ∀ i, ∃ r : ℝ, x i = r) (hy : ∀ i, ∃ r : ℝ, y i = r) :
    ∃ r : ℝ, score x y = r := by
  obtain ⟨c, hc, hcs⟩ := cScale_real
  unfold score
  rw [hcs, Ideal.div_coe hc]
  exact real_mul (real_sum _ _ (fun i _ => real_mul (hx i) (hy i))) ⟨_, rfl⟩

/-! ## A row of scores that is −∞ off the image of an injection -/

/-- Entries −∞ do not move a row's maximum. -/
private theorem rowMax_masked {n k : ℕ} (e : Fin k → Fin n) (m : Fin n → EReal)
    (hoff : ∀ c, c ∉ Set.range e → m c = ⊥) : rowMax m = rowMax (fun t => m (e t)) := by
  unfold rowMax
  apply le_antisymm
  · rw [Finset.fold_max_le]
    refine ⟨bot_le, fun c _ => ?_⟩
    by_cases hc : c ∈ Set.range e
    · obtain ⟨t, rfl⟩ := hc
      exact (Finset.le_fold_max _).mpr (Or.inr ⟨t, Finset.mem_univ _, le_rfl⟩)
    · rw [hoff c hc]; exact bot_le
  · rw [Finset.fold_max_le]
    refine ⟨bot_le, fun t _ => ?_⟩
    exact (Finset.le_fold_max _).mpr (Or.inr ⟨e t, Finset.mem_univ _, le_rfl⟩)

/-- The maximum of a nonempty row of reals is real. -/
private theorem rowMax_real {k : ℕ} (hk : 0 < k) (s : Fin k → EReal) (hs : ∀ t, ∃ x : ℝ, s t = x) :
    ∃ X : ℝ, rowMax s = X := by
  have htop : rowMax s ≠ ⊤ := by
    apply ne_of_lt
    unfold rowMax
    rw [Finset.fold_max_lt]
    refine ⟨bot_lt_top, fun t _ => ?_⟩
    obtain ⟨x, hx⟩ := hs t
    rw [hx]; exact EReal.coe_lt_top x
  have hbot : rowMax s ≠ ⊥ := by
    apply ne_of_gt
    obtain ⟨x, hx⟩ := hs ⟨0, hk⟩
    have h0 : s ⟨0, hk⟩ ≤ rowMax s := (Finset.le_fold_max _).mpr (Or.inr ⟨_, Finset.mem_univ _, le_rfl⟩)
    exact lt_of_lt_of_le (by rw [hx]; exact EReal.bot_lt_coe x) h0
  exact ⟨(rowMax s).toReal, (EReal.coe_toReal htop hbot).symm⟩

/-- The softmax denominator of a nonempty row of reals is a positive real, so it is not 0. -/
private theorem denom_ne_zero {k : ℕ} (hk : 0 < k) (s : Fin k → EReal) (hs : ∀ t, ∃ x : ℝ, s t = x) :
    (∑ t, Ideal.exp (s t - rowMax s)) ≠ 0 := by
  obtain ⟨X, hX⟩ := rowMax_real hk s hs
  choose x hx using hs
  have h : ∀ t, Ideal.exp (s t - rowMax s) = ((Real.exp (x t - X) : ℝ) : EReal) := by
    intro t
    rw [hx t, hX, ← EReal.coe_sub, Ideal.exp_coe]
  rw [Finset.sum_congr rfl (fun t _ => h t), coe_sum]
  have hpos : 0 < ∑ t : Fin k, Real.exp (x t - X) :=
    Finset.sum_pos (fun t _ => Real.exp_pos _) ⟨⟨0, hk⟩, Finset.mem_univ _⟩
  exact_mod_cast hpos.ne'

/-- −∞ minus anything is −∞, whose exponential is 0. -/
private theorem exp_bot_sub (M : EReal) : Ideal.exp (⊥ - M) = 0 := by
  rw [sub_eq_add_neg, EReal.bot_add, Ideal.exp_bot]

/-- The attention of a row that is −∞ off the image of an injection `e`, real on it, is the attention over
    the image alone: the masked entries' exponentials vanish, so the maximum and the denominator are those of
    the image, and the masked weights are `0 / D = 0`. -/
private theorem attnRow_masked {n k : ℕ} (e : Fin k → Fin n) (he : Function.Injective e) (m v : Fin n → EReal)
    (hoff : ∀ c, c ∉ Set.range e → m c = ⊥) (hk : 0 < k) (hreal : ∀ t, ∃ x : ℝ, m (e t) = x) :
    attnRow m v = attnRow (fun t => m (e t)) (fun t => v (e t)) := by
  have hM : rowMax m = rowMax (fun t => m (e t)) := rowMax_masked e m hoff
  have hD : (∑ c, Ideal.exp (m c - rowMax m)) = ∑ t, Ideal.exp (m (e t) - rowMax (fun t => m (e t))) := by
    rw [hM]
    symm
    apply Fintype.sum_of_injective e he
    · intro c hc
      rw [hoff c hc, exp_bot_sub]
    · intro t; rfl
  have hD0 := denom_ne_zero hk (fun t => m (e t)) hreal
  unfold attnRow
  symm
  apply Fintype.sum_of_injective e he
  · intro c hc
    unfold smax
    rw [hD, hoff c hc, exp_bot_sub, Ideal.div, if_neg hD0, zero_mul, zero_mul]
  · intro t
    unfold smax
    rw [hD, hM]

/-! ## The group's rows and the patch's tokens -/

/-- Key `t` of patch `u` among the group's 256 keys. -/
private def inPatch (u : Fin 16) (t : Fin 16) : Fin 256 :=
  ⟨16 * u.val + t.val, by have := u.isLt; have := t.isLt; omega⟩

private theorem inPatch_injective (u : Fin 16) : Function.Injective (inPatch u) := by
  intro a b h
  have h' := congrArg Fin.val h
  simp only [inPatch] at h'
  apply Fin.ext
  omega

private theorem gtok_inPatch (G u t : Fin 16) : gtok G (inPatch u t) = tok (gpatch G u) t := by
  apply Fin.ext
  simp only [gtok, tok, gpatch, inPatch]
  omega

section Local

variable (P : Params)

private theorem ql_real (hP : P.Finite) (b : Fin 16) (n : Fin 4096) (i : Fin 512) : ∃ x : ℝ, P.ql b n i = x :=
  real_lin (hP.xq b n) hP.Wlq hP.blq i

private theorem kl_real (hP : P.Finite) (b : Fin 16) (n : Fin 4096) (i : Fin 512) : ∃ x : ℝ, P.kl b n i = x :=
  real_lin (hP.xk2 b n) hP.Wlk hP.blk i

/-- Outside the query's patch the masked score is −∞. -/
private theorem maskedScores_off (b G : Fin 16) (r : Fin 256) (c : Fin 256)
    (hc : c ∉ Set.range (inPatch ⟨r.val / 16, by have := r.isLt; omega⟩)) : P.maskedScores b G r c = ⊥ := by
  unfold Params.maskedScores
  rw [if_neg]
  intro h
  apply hc
  refine ⟨⟨c.val % 16, Nat.mod_lt _ (by decide)⟩, ?_⟩
  apply Fin.ext
  simp only [inPatch]
  omega

/-- Inside it, it is the score of the query against the patch's key. -/
private theorem maskedScores_in (b G : Fin 16) (r : Fin 256) (t : Fin 16) :
    P.maskedScores b G r (inPatch ⟨r.val / 16, by have := r.isLt; omega⟩ t)
      = score (P.ql b (tok (gpatch G ⟨r.val / 16, by have := r.isLt; omega⟩) ⟨r.val % 16, Nat.mod_lt _ (by decide)⟩))
          (P.kl b (tok (gpatch G ⟨r.val / 16, by have := r.isLt; omega⟩) t)) := by
  unfold Params.maskedScores
  rw [if_pos, gtok_inPatch, ← gtok_eq_tok]
  simp only [inPatch]
  have := t.isLt
  omega

/-- The membership row picks out the query's own patch context. -/
private theorem bcK_eq (b G : Fin 16) (r : Fin 256) (d : Fin 512) :
    P.bcK b G r d = P.pctx b (gpatch G ⟨r.val / 16, by have := r.isLt; omega⟩) d := by
  unfold Params.bcK
  rw [Finset.sum_eq_single (⟨r.val / 16, by have := r.isLt; omega⟩ : Fin 16)]
  · rw [if_pos rfl, one_mul]
  · intro i _ hi
    rw [if_neg, zero_mul]
    intro h
    exact hi (Fin.ext h.symm)
  · intro h
    exact absurd (Finset.mem_univ _) h

/-- The masked attention over the group's 256 keys is the attention over the patch's 16 keys. -/
private theorem lctxK_eq (hP : P.Finite) (b G : Fin 16) (r : Fin 256) (d : Fin 512) :
    P.lctxK b G r d
      = P.lctxR b (gpatch G ⟨r.val / 16, by have := r.isLt; omega⟩) ⟨r.val % 16, Nat.mod_lt _ (by decide)⟩ d := by
  unfold Params.lctxK Params.lctxR
  rw [attnRow_masked (inPatch ⟨r.val / 16, by have := r.isLt; omega⟩) (inPatch_injective _) _ _
    (maskedScores_off P b G r) (by decide)
    (fun t => by rw [maskedScores_in]; exact real_score (ql_real P hP b _) (kl_real P hP b _))]
  congr 1
  · funext t
    exact maskedScores_in P b G r t
  · funext t
    rw [gtok_inPatch]

end Local

/-- On finite arguments the kernel's form of the first result is the reference's: in the masked row of 256 scores
    the entries outside the query's patch are −∞, so they weigh 0 in the softmax, and the row's attention is the
    attention over the patch's 16 keys; the membership row picks out the query's own patch context. -/
theorem Params.out1K_eq_out1R (P : Params) (hP : P.Finite) (b : Fin 16) (G : Fin 16) (r : Fin 256) (d : Fin 512) :
    P.out1K b G r d
      = P.out1R b (gpatch G ⟨r.val / 16, by have := r.isLt; omega⟩) ⟨r.val % 16, Nat.mod_lt _ (by decide)⟩ d := by
  unfold Params.out1K Params.out1R
  rw [add_comm, bcK_eq, lctxK_eq P hP]

end Cert.Spec

end
-- ==== Proof.Finite.lean ====
import proofs.«415515_j83915071029425_3_alg».proof.Defs
import proofs.«415515_j83915071029425_3_alg».proof.Proof.ParamsK
import Idealize.ShloMosaic.Lib.ReduceAll
import Idealize.ShloMosaic.Lib.ValueIdx
import Idealize.ShloMosaic.Lib.IdealHost

noncomputable section

open Idealize.ShloMosaic Idealize.ShloMosaic.TcCoe Idealize.SL.Sem Idealize.ShloMosaic.ValueIdx
open Cert.KernelIdeal

namespace Cert.KernelIdeal.Values

/-- The f32 word 0x7F800000 denotes +∞. -/
private theorem top_f32 : Ideal.ofBits .f32 0x7F800000#32 = (⊤ : EReal) := by simp [Ideal.ofBits, Ideal.ieee]

/-- An extended real whose absolute value max x (−x) lies strictly below +∞ is a real number:
    at −∞ the maximum is −(−∞) = +∞, at +∞ it is +∞ itself, and neither is below +∞. -/
private theorem real_of_abs_lt_top (x : EReal) (h : max x (-x) < ⊤) : ∃ r : ℝ, x = r := by
  induction x using EReal.rec with
  | bot => simp at h
  | coe r => exact ⟨r, rfl⟩
  | top => simp at h

open Cert.Pre_finite_inputs in
/-- One conjunct of the precondition, at any array shape: if the conjunction over all indices of
    |x i| < +∞ is the bit 1, then every entry of x is a real number. -/
private theorem entry_real {s : Shape} {axes : List (Fin s.rank)} (hb : S_.BroadcastsInDim s ![])
    (hr : s.ReducesTo axes S_) (hu : 0 < S_.numel) (x : FVec Ideal s .f32)
    (e : Host.reduce IntOp.andi
        (cmpf .olt (Host.absf x) (broadcastInDim s ![] hb (constant (F := Ideal) S_ .f32 0x7F800000#32)))
        (constantI S_ 1 1#1) hr hu ix0 = 1#1)
    (i : s.Idx) : ∃ r : ℝ, x i = r := by
  -- the shape of rank 0 has exactly one index, so every index of x reduces into it
  haveI : Subsingleton S_.Idx := ⟨fun a b => funext fun d => d.elim0⟩
  -- the conjunction over all indices is 1, so the bit at index i is 1
  have h1 := Host.reduce_andi_all _ _ hr hu ix0 e i
  -- that bit is the comparison max (x i) (−x i) < (the broadcast scalar), and the scalar is +∞
  have h2 : Ideal.cmp .olt (max (x i) (-(x i)))
      (broadcastInDim s ![] hb (constant (F := Ideal) S_ .f32 0x7F800000#32) i) = 1#1 := h1
  rw [broadcastInDim_scalar_apply, constant_apply, top_f32] at h2
  refine real_of_abs_lt_top (x i) ?_
  by_contra hn
  have h3 : Ideal.cmp .olt (max (x i) (-(x i))) ⊤ = 0#1 := by
    show BitVec.ofBool (decide (max (x i) (-(x i)) < ⊤)) = 0#1
    rw [decide_eq_false hn]; rfl
  rw [h3] at h2
  exact absurd h2 (by decide)

/-- The conjunction of two one-bit arrays of rank 0 is 1 exactly when both are. -/
private theorem andi_ix0 {a b : IVec Cert.Pre_finite_inputs.S_ 1} (h : andi a b ix0 = 1#1) :
    a ix0 = 1#1 ∧ b ix0 = 1#1 := IntOp.andi_eq_one.1 h

/-- Under the precondition (every float input finite) every entry of every argument is a real number. -/
theorem finite_of_pre [hPre : Cert.Pre_finite_inputs.Facts] (m : (ℓ : Loc nD τ sig) → Buf (Elt Ideal) ℓ)
    (h : Cert.Pre_KernelIdeal m) (c : Dev nD) : (paramsK m c).Finite := by
  -- the predicate's result is a rank-0 array of one bit: read it at its one index
  have h0 := congrFun (h c) ix0
  -- the predicate is a left-nested conjunction of sixteen terms, one per argument:
  -- the conjunction over all indices of |x i| < +∞
  dsimp only [Cert.Pre_finite_inputs.fn, Cert.Pre_finite_inputs.fn_part1, Cert.Pre_finite_inputs.fn_part2,
    Cert.Pre_finite_inputs.fn_part3, Cert.Pre_finite_inputs.fn_part4] at h0
  -- a conjunction is 1 exactly when both sides are: peel the sixteen terms off from the right
  obtain ⟨h0, e15⟩ := andi_ix0 h0
  obtain ⟨h0, e14⟩ := andi_ix0 h0
  obtain ⟨h0, e13⟩ := andi_ix0 h0
  obtain ⟨h0, e12⟩ := andi_ix0 h0
  obtain ⟨h0, e11⟩ := andi_ix0 h0
  obtain ⟨h0, e10⟩ := andi_ix0 h0
  obtain ⟨h0, e9⟩ := andi_ix0 h0
  obtain ⟨h0, e8⟩ := andi_ix0 h0
  obtain ⟨h0, e7⟩ := andi_ix0 h0
  obtain ⟨h0, e6⟩ := andi_ix0 h0
  obtain ⟨h0, e5⟩ := andi_ix0 h0
  obtain ⟨h0, e4⟩ := andi_ix0 h0
  obtain ⟨h0, e3⟩ := andi_ix0 h0
  obtain ⟨h0, e2⟩ := andi_ix0 h0
  obtain ⟨e0, e1⟩ := andi_ix0 h0
  -- each field of the conclusion reads one argument at a coordinate index: apply the term's element fact there
  exact
    { xq := fun b n i => entry_real _ _ _ _ e0 (ix3 b n i)
      xk1 := fun b n i => entry_real _ _ _ _ e1 (ix3 b n i)
      xk2 := fun b n i => entry_real _ _ _ _ e2 (ix3 b n i)
      xv := fun b n i => entry_real _ _ _ _ e3 (ix3 b n i)
      Wpq := fun o i => entry_real _ _ _ _ e4 (ix2 o i)
      bpq := fun o => entry_real _ _ _ _ e5 (ix1 o)
      Wpk := fun o i => entry_real _ _ _ _ e6 (ix2 o i)
      bpk := fun o => entry_real _ _ _ _ e7 (ix1 o)
      Wpv := fun o i => entry_real _ _ _ _ e8 (ix2 o i)
      bpv := fun o => entry_real _ _ _ _ e9 (ix1 o)
      Wlq := fun o i => entry_real _ _ _ _ e10 (ix2 o i)
      blq := fun o => entry_real _ _ _ _ e11 (ix1 o)
      Wlk := fun o i => entry_real _ _ _ _ e12 (ix2 o i)
      blk := fun o => entry_real _ _ _ _ e13 (ix1 o)
      Wlv := fun o i => entry_real _ _ _ _ e14 (ix2 o i)
      blv := fun o => entry_real _ _ _ _ e15 (ix1 o) }

end Cert.KernelIdeal.Values

end
-- ==== Proof.lean ====
/-
  The certificate: a two-stage attention kernel against its jnp reference, equal over the extended reals.

  Both programs compute, per batch member, a patch-level attention on the means of 256 patches of 16
  tokens (its context is the first result's additive term, the mean of its weights the second result)
  and, inside each patch, an attention of its 16 tokens among themselves. The reference computes the
  local attention patch by patch. The kernel computes it 16 patches at a time as a 256 × 256 tile whose
  entries outside the 16 × 16 diagonal blocks are filled with a finite stand-in for −∞, which the
  idealization names −∞ (`preserves`: eight sites, one per group of a block). At −∞ those entries
  weigh exactly 0 in each row's softmax, so the row's attention is the attention over its own patch
  (`Spec.Params.out1K_eq_out1R`, which needs the scores inside a patch to be real numbers: the
  precondition). The patch context reaches a token through a 0/1 membership matrix product, which picks
  the token's own patch. Everything else (means, dense layers, scores, softmax, weighted sums) is the
  same sums of the same products on both sides, read index by index.

  Kernel side: the run with both result buffers named (`RunValues.run_values`), each result read back
  through the two pallas_calls and the host operations around them (`Values.out1_apply`,
  `Values.out2_apply`). Reference side: its run and its operations read one at a time
  (`RefValue.out1_apply`, `RefPatch.out2_apply`).
-/
import proofs.«415515_j83915071029425_3_alg».proof.Defs
import proofs.«415515_j83915071029425_3_alg».proof.Proof.Gen.Kernel
import proofs.«415515_j83915071029425_3_alg».proof.Proof.Gen.Kernel.Skeleton
import proofs.«415515_j83915071029425_3_alg».proof.Proof.Gen.Kernel.Launch
import proofs.«415515_j83915071029425_3_alg».proof.Proof.Gen.Kernel.Points
import proofs.«415515_j83915071029425_3_alg».proof.Proof.Gen.Kernel.Frame
import proofs.«415515_j83915071029425_3_alg».proof.Proof.Gen.KernelIdeal
import proofs.«415515_j83915071029425_3_alg».proof.Proof.Gen.KernelIdeal.Skeleton
import proofs.«415515_j83915071029425_3_alg».proof.Proof.Gen.KernelIdeal.Launch
import proofs.«415515_j83915071029425_3_alg».proof.Proof.Gen.KernelIdeal.Points
import proofs.«415515_j83915071029425_3_alg».proof.Proof.Gen.KernelIdeal.Frame
import proofs.«415515_j83915071029425_3_alg».proof.Proof.Gen.ReferenceIdeal
import proofs.«415515_j83915071029425_3_alg».proof.Proof.Gen.Pre_finite_inputs
import proofs.«415515_j83915071029425_3_alg».proof.Proof.Gen.ReferenceIdeal.Run
import proofs.«415515_j83915071029425_3_alg».proof.Proof.Gen.ReferenceIdeal.Read
import proofs.«415515_j83915071029425_3_alg».proof.Proof.RunValues
import proofs.«415515_j83915071029425_3_alg».proof.Proof.KernelValue
import proofs.«415515_j83915071029425_3_alg».proof.Proof.RefValue
import proofs.«415515_j83915071029425_3_alg».proof.Proof.Bridge
import proofs.«415515_j83915071029425_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The mask fill of each of a block's eight groups is named −∞ by the certificate's table. -/
theorem named_fill : IdealRules.named_const.Statement Cert.KernelIdeal.κ "neg_big" .f32 0xFF333332#32 ⊥ :=
  IdealRules.named_const.statement Cert.KernelIdeal.κ "neg_big" .f32 0xFF333332#32 ⊥ rfl

theorem preserves : Cert.preserves_Kernel_KernelIdeal :=
  ⟨named_fill, named_fill, named_fill, named_fill, named_fill, named_fill, named_fill, named_fill⟩

/-- Token `n` as row `n % 256` of group `n / 256`. -/
theorem tok_as_group (n : Fin 4096) :
    n = Cert.Spec.gtok ⟨n.val / 256, by have := n.isLt; omega⟩ ⟨n.val % 256, Nat.mod_lt _ (by decide)⟩ :=
  Fin.ext (by show n.val = 256 * (n.val / 256) + n.val % 256; omega)

theorem algebraic : Cert.algebraic_KernelIdeal_ReferenceIdeal := by
  intro m ρ m' ρ' hpre hagree
  refine ⟨fun c => Cert.KernelIdeal.Gen.W4 m ρ c (Proc.devRef .tc Cert.KernelIdeal.main_v32),
    fun c => Cert.KernelIdeal.Gen.W4 m ρ c (Proc.devRef .tc Cert.KernelIdeal.main_v22),
    Cert.KernelIdeal.RunValues.run_values (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · -- the first result, token by token
    rw [Cert.ReferenceIdeal.Read.val_main_v70_eq]
    funext j
    obtain ⟨b, n, d, rfl⟩ : ∃ (b : Fin 16) (n : Fin 4096) (d : Fin 512), j = ix3 b n d := ⟨j 0, j 1, j 2, eq_ix3 j⟩
    obtain ⟨G, r, rfl⟩ : ∃ (G : Fin 16) (r : Fin 256), n = Cert.Spec.gtok G r := ⟨_, _, tok_as_group n⟩
    have hk := Cert.KernelIdeal.Values.out1_apply m ρ c b G r d
    have hb := Cert.Spec.Params.out1K_eq_out1R (Cert.KernelIdeal.Values.paramsK m c)
      (Cert.KernelIdeal.Values.finite_of_pre m hpre c) b G r d
    have ht := Cert.Spec.gtok_eq_tok G r
    refine Eq.trans ?_ (hk.trans hb).symm
    rw [ht]
    refine (Cert.ReferenceIdeal.RefValue.out1_apply _ _ _ _ _ _ _ _ _ _ _ _ _ _ _ _ b _ _ d).trans ?_
    simp only [(hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2.1, (hagree c).2.2.2.2.2.2.2.2.2.2.2.1,
      (hagree c).2.2.2.2.2.2.2.2.2.2.2.2.1, (hagree c).2.2.2.2.2.2.2.2.2.2.2.2.2.1,
      (hagree c).2.2.2.2.2.2.2.2.2.2.2.2.2.2.1, (hagree c).2.2.2.2.2.2.2.2.2.2.2.2.2.2.2]
    rfl
  · -- the second result
    rw [Cert.ReferenceIdeal.Read.val_main_v73_eq]
    funext j
    obtain ⟨b, q, rfl⟩ : ∃ (b : Fin 16) (q : Fin 256), j = ix2 b q := ⟨j 0, j 1, eq_ix2 j⟩
    refine Eq.trans ?_ (Cert.KernelIdeal.Values.out2_apply m ρ c b q).symm
    refine (Cert.ReferenceIdeal.RefPatch.out2_apply _ _ (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) _ _ _ _
      (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) b q).trans ?_
    simp only [(hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2.1, (hagree c).2.2.2.2.2.2.2.2.2.2.2.1,
      (hagree c).2.2.2.2.2.2.2.2.2.2.2.2.1, (hagree c).2.2.2.2.2.2.2.2.2.2.2.2.2.1,
      (hagree c).2.2.2.2.2.2.2.2.2.2.2.2.2.2.1, (hagree c).2.2.2.2.2.2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
